-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x2 : Shape := ⟨2, ![2048, 2]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_arg1 : IVec S2048x2 32) (main_arg5 : FVec F S8x4096x1024 .f32) (main_v13 : IVec S_ 1) (main_v16 : IVec S8x1024x4096 1) : IVec S_ 1 :=
  let main_c_5 : IVec S_ 1 := constantI S_ 1 1#1
  let main_v17 : IVec S_ 1 := (fun x v => Host.reduce IntOp.andi x v reducesTo_S8x1024x4096_S_d0_1_2 h_S_) main_v16 main_c_5
  let main_v18 : IVec S_ 1 := andi main_v13 main_v17
  let main_v19 : FVec F S8x4096x1024 .f32 := Host.absf main_arg5
  let main_cst_6 : FVec F S_ .f32 := constant S_ .f32 0x7F800000#32
  let main_v20 : FVec F S8x4096x1024 .f32 := broadcastInDim S8x4096x1024 ![] bcast_S_S8x4096x1024 main_cst_6
  let main_v21 : IVec S8x4096x1024 1 := cmpf .olt main_v19 main_v20
  let main_c_7 : IVec S_ 1 := constantI S_ 1 1#1
  let main_v22 : IVec S_ 1 := (fun x v => Host.reduce IntOp.andi x v reducesTo_S8x4096x1024_S_d0_1_2 h_S_) main_v21 main_c_7
  let main_v23 : IVec S_ 1 := andi main_v18 main_v22
  let main_c_8 : IVec S_ 32 := constantI S_ 32 0#32
  let main_v24 : IVec S2048x2 32 := broadcastInDim S2048x2 ![] bcast_S_S2048x2 main_c_8
  let main_v25 : IVec S2048x2 1 := cmpi .sge main_arg1 main_v24
  let main_c_9 : IVec S_ 32 := constantI S_ 32 8#32
  let main_v26 : IVec S2048x2 32 := broadcastInDim S2048x2 ![] bcast_S_S2048x2 main_c_9
  let main_v27 : IVec S2048x2 1 := cmpi .slt main_arg1 main_v26
  let main_v28 : IVec S2048x2 1 := andi main_v25 main_v27
  let main_c_10 : IVec S_ 1 := constantI S_ 1 1#1
  let main_v29 : IVec S_ 1 := (fun x v => Host.reduce IntOp.andi x v reducesTo_S2048x2_S_d0_1 h_S_) main_v28 main_c_10
  let main_v30 : IVec S_ 1 := andi main_v23 main_v29
  main_v30

def fn {F : FTy → Type} [FloatOps F] (main_arg0 : FVec F S2048x1024 .f32) (main_arg1 : IVec S2048x2 32) (main_arg2 : FVec F S2048x2 .f32) (main_arg3 : FVec F S8x1024x4096 .f32) (main_arg4 : FVec F S8x1024x4096 .f32) (main_arg5 : FVec F S8x4096x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x2 .f32 := Host.absf main_arg2
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S8x1024x4096 .f32 := Host.absf main_arg3
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x1024x4096 .f32 := Host.absf main_arg4
  let main_cst_4 : FVec F S_ .f32 := constant S_ .f32 0x7F800000#32
  let main_v15 : FVec F S8x1024x4096 .f32 := broadcastInDim S8x1024x4096 ![] bcast_S_S8x1024x4096 main_cst_4
  let main_v16 : IVec S8x1024x4096 1 := cmpf .olt main_v14 main_v15
  fn_part1 (F := F) main_arg1 main_arg5 main_v13 main_v16
-- ==== Kernel.lean ====
abbrev S2048x1024 : Shape := ⟨2, ![2048, 1024]⟩
abbrev S2048x2 : Shape := ⟨2, ![2048, 2]⟩
abbrev S8x1024x4096 : Shape := ⟨3, ![8, 1024, 4096]⟩
abbrev S8x4096x1024 : Shape := ⟨3, ![8, 4096, 1024]⟩
abbrev S2048x2x1 : Shape := ⟨3, ![2048, 2, 1]⟩
abbrev S8 : Shape := ⟨1, ![8]⟩
abbrev S1x1x8 : Shape := ⟨3, ![1, 1, 8]⟩
abbrev S2048x2x8 : Shape := ⟨3, ![2048, 2, 8]⟩
abbrev S_ : Shape := ⟨0, ![]⟩
abbrev S2048x8 : Shape := ⟨2, ![2048, 8]⟩
abbrev S1024x1024 : Shape := ⟨2, ![1024, 1024]⟩
abbrev S1x1024x512 : Shape := ⟨3, ![1, 1024, 512]⟩
abbrev S1x512x1024 : Shape := ⟨3, ![1, 512, 1024]⟩
abbrev S1024x8 : Shape := ⟨2, ![1024, 8]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 24
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x2, .i32⟩
  | .hbm, ⟨2, _⟩ => ⟨S2048x2, .f32⟩
  | .hbm, ⟨3, _⟩ => ⟨S8x1024x4096, .f32⟩
  | .hbm, ⟨4, _⟩ => ⟨S8x1024x4096, .f32⟩
  | .hbm, ⟨5, _⟩ => ⟨S8x4096x1024, .f32⟩
  | .hbm, ⟨6, _⟩ => ⟨S2048x2x1, .i32⟩
  | .hbm, ⟨7, _⟩ => ⟨S8, .i32⟩
  | .hbm, ⟨8, _⟩ => ⟨S1x1x8, .i32⟩
  | .hbm, ⟨9, _⟩ => ⟨S2048x2x8, .i32⟩
  | .hbm, ⟨10, _⟩ => ⟨S2048x2x8, .i32⟩
  | .hbm, ⟨11, _⟩ => ⟨S2048x2x8, .i1⟩
  | .hbm, ⟨12, _⟩ => ⟨S2048x2x1, .f32⟩
  | .hbm, ⟨13, _⟩ => ⟨S_, .f32⟩
  | .hbm, ⟨14, _⟩ => ⟨S2048x2x8, .f32⟩
  | .hbm, ⟨15, _⟩ => ⟨S2048x2x8, .f32⟩
  | .hbm, ⟨16, _⟩ => ⟨S2048x2x8, .f32⟩
  | .hbm, ⟨17, _⟩ => ⟨S_, .f32⟩
  | .hbm, ⟨18, _⟩ => ⟨S2048x8, .f32⟩
  | .hbm, ⟨19, _⟩ => ⟨S2048x1024, .bf16⟩
  | .hbm, ⟨20, _⟩ => ⟨S8x1024x4096, .bf16⟩
  | .hbm, ⟨21, _⟩ => ⟨S8x1024x4096, .bf16⟩
  | .hbm, ⟨22, _⟩ => ⟨S8x4096x1024, .bf16⟩
  | .hbm, ⟨23, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x8, .f32⟩
  | .local _ .vmem, ⟨9, _⟩ => ⟨S1024x8, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let arg2 : BitVec 32 := BitVec.ofNat 32 (i 2).val
  let c7_i32_22 : BitVec 32 := 7#32
  let v40 : BitVec 1 := Scalar.cmpi .eq arg2 c7_i32_22
  let v41 : BitVec 1 := Scalar.andi v39 v40
  let v42 : BitVec 32 := Scalar.extui v41
  let c0_i32_23 : BitVec 32 := 0#32
  let v43 : BitVec 1 := Scalar.cmpi .ne v42 c0_i32_23
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S2048x2_S2048x2x1_0_1 : S2048x2.BroadcastsInDim S2048x2x1 (![0, 1] : Fin 2 → Fin S2048x2x1.rank)
  bcast_S8_S1x1x8_2 : S8.BroadcastsInDim S1x1x8 (![2] : Fin 1 → Fin S1x1x8.rank)
  bcast_S2048x2x1_S2048x2x8_0_1_2 : S2048x2x1.BroadcastsInDim S2048x2x8 (![0, 1, 2] : Fin 3 → Fin S2048x2x8.rank)
  bcast_S1x1x8_S2048x2x8_0_1_2 : S1x1x8.BroadcastsInDim S2048x2x8 (![0, 1, 2] : Fin 3 → Fin S2048x2x8.rank)
  bcast_S_S2048x2x8 : S_.BroadcastsInDim S2048x2x8 (![] : Fin 0 → Fin S2048x2x8.rank)
  reducesTo_S2048x2x8_S2048x8_d1 : S2048x2x8.ReducesTo [1] S2048x8
  h_S_ : 0 < S_.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  iota_S1024x8_d1_w32 : S1024x8.Iotas .tc 32 [1]
  reduces_S1024x8_S1024 : S1024x8.Reduces [1] S1024
  shapeCasts_S1024_S1024x1 : S1024.ShapeCasts S1024x1
  broadcasts_S1024x1_S1024x1024 : S1024x1.Broadcasts S1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .bf16 = 32 ∨ (Rect.block (s := S2048x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .bf16 = 32 ∨ (Rect.block (s := S8x1024x4096) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x1024x4096.size a
  hwx0_2 : ∀ i : grid0.Coords, EltTy.bits .bf16 = 32 ∨ (Rect.block (s := S8x1024x4096) S1x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .bf16 = 32 ∨ (Rect.block (s := S8x4096x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x8.size a ≤ S2048x8.size a
  hwx0_4 : ∀ i : grid0.Coords, EltTy.bits .f32 = 32 ∨ (Rect.block (s := S2048x8) S1024x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S2048x1024.size a
  hwx0_5 : ∀ i : grid0.Coords, EltTy.bits .f32 = 32 ∨ (Rect.block (s := S2048x1024) S1024x1024.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x1024 : Shape := ⟨2, ![2048, 1024]⟩
abbrev S2048x2 : Shape := ⟨2, ![2048, 2]⟩
abbrev S8x1024x4096 : Shape := ⟨3, ![8, 1024, 4096]⟩
abbrev S8x4096x1024 : Shape := ⟨3, ![8, 4096, 1024]⟩
abbrev S4096 : Shape := ⟨1, ![4096]⟩
abbrev S2048 : Shape := ⟨1, ![2048]⟩
abbrev S_ : Shape := ⟨0, ![]⟩
abbrev S4096x1 : Shape := ⟨2, ![4096, 1]⟩
abbrev S8 : Shape := ⟨1, ![8]⟩
abbrev S1 : Shape := ⟨1, ![1]⟩
abbrev S7 : Shape := ⟨1, ![7]⟩
abbrev S4096x1024 : Shape := ⟨2, ![4096, 1024]⟩
abbrev S4096x2 : Shape := ⟨2, ![4096, 2]⟩
abbrev S8x4096x4096 : Shape := ⟨3, ![8, 4096, 4096]⟩

abbrev nBuf : Space → Nat
  | .hbm => 150
  | .vmem => 0
  | .smem => 0
  | _ => 0

abbrev hbmTy0_0 (i : Nat) : BufTy := match i % 128 with
  | 0 => ⟨S2048x1024, .f32⟩
  | 1 => ⟨S2048x2, .i32⟩
  | 2 => ⟨S2048x2, .f32⟩
  | 3 => ⟨S8x1024x4096, .f32⟩
  | 4 => ⟨S8x1024x4096, .f32⟩
  | 5 => ⟨S8x4096x1024, .f32⟩
  | 6 => ⟨S4096, .i32⟩
  | 7 => ⟨S4096, .f32⟩
  | 8 => ⟨S2048, .i32⟩
  | 9 => ⟨S2048x2, .i32⟩
  | 10 => ⟨S4096, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096, .f32⟩
  | 41 => ⟨S_, .i32⟩
  | 42 => ⟨S8, .i32⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S_, .i32⟩
  | 56 => ⟨S4096, .i32⟩
  | 57 => ⟨S8, .i32⟩
  | 58 => ⟨S_, .i32⟩
  | 59 => ⟨S1, .i32⟩
  | 60 => ⟨S_, .i32⟩
  | 61 => ⟨S_, .i32⟩
  | 62 => ⟨S8, .i32⟩
  | 63 => ⟨S7, .i32⟩
  | 64 => ⟨S8, .i32⟩
  | 65 => ⟨S4096, .i32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S4096, .i32⟩
  | 75 => ⟨S4096, .i32⟩
  | 76 => ⟨S_, .f32⟩
  | 77 => ⟨S8x4096x1024, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S4096x1024, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S4096x1, .i32⟩
  | 103 => ⟨S4096x2, .i32⟩
  | 104 => ⟨S8x4096x1024, .f32⟩
  | 105 => ⟨S8x4096x4096, .f32⟩
  | 106 => ⟨S8x4096x4096, .f32⟩
  | 107 => ⟨S8x4096x4096, .f32⟩
  | 108 => ⟨S_, .f32⟩
  | 109 => ⟨S8x4096x4096, .f32⟩
  | 110 => ⟨S8x4096x4096, .f32⟩
  | 111 => ⟨S_, .f32⟩
  | 112 => ⟨S8x4096x4096, .f32⟩
  | 113 => ⟨S8x4096x4096, .f32⟩
  | 114 => ⟨S8x4096x4096, .f32⟩
  | 115 => ⟨S8x4096x4096, .f32⟩
  | 116 => ⟨S8x4096x4096, .f32⟩
  | 117 => ⟨S8x4096x1024, .f32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S_, .i32⟩
  | 126 => ⟨S4096, .i32⟩
  | 127 => ⟨S4096, .i1⟩
  | _ => ⟨S2048x1024, .f32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x1, .i32⟩
  | 6 => ⟨S4096x2, .i32⟩
  | 7 => ⟨S4096x1024, .f32⟩
  | 8 => ⟨S4096x1, .f32⟩
  | 9 => ⟨S4096x1024, .f32⟩
  | 10 => ⟨S4096x1024, .f32⟩
  | 11 => ⟨S_, .f32⟩
  | 12 => ⟨S2048x1024, .f32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_call2_call0_c : Ref sig .tc := ⟨.hbm, 60, rfl⟩
abbrev main_call2_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst : Ref sig .tc := ⟨.hbm, 76, rfl⟩
abbrev main_v50 : Ref sig .tc := ⟨.hbm, 77, rfl⟩
abbrev main_c_13 : Ref sig .tc := ⟨.hbm, 78, rfl⟩
abbrev main_v51 : Ref sig .tc := ⟨.hbm, 79, rfl⟩
abbrev main_v52 : Ref sig .tc := ⟨.hbm, 80, rfl⟩
abbrev main_c_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_15 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_17 : Ref sig .tc := ⟨.hbm, 94, rfl⟩
abbrev main_v63 : Ref sig .tc := ⟨.hbm, 95, rfl⟩
abbrev main_v64 : Ref sig .tc := ⟨.hbm, 96, rfl⟩
abbrev main_c_18 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call3_v0 : Ref sig .tc := ⟨.hbm, 106, rfl⟩
abbrev main_call3_v1 : Ref sig .tc := ⟨.hbm, 107, rfl⟩
abbrev main_call3_cst : Ref sig .tc := ⟨.hbm, 108, rfl⟩
abbrev main_call3_v2 : Ref sig .tc := ⟨.hbm, 109, rfl⟩
abbrev main_call3_v3 : Ref sig .tc := ⟨.hbm, 110, rfl⟩
abbrev main_call3_cst_0 : Ref sig .tc := ⟨.hbm, 111, rfl⟩
abbrev main_call3_v4 : Ref sig .tc := ⟨.hbm, 112, rfl⟩
abbrev main_call3_v5 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_19 : Ref sig .tc := ⟨.hbm, 118, rfl⟩
abbrev main_v77 : Ref sig .tc := ⟨.hbm, 119, rfl⟩
abbrev main_v78 : Ref sig .tc := ⟨.hbm, 120, rfl⟩
abbrev main_c_20 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_21 : Ref sig .tc := ⟨.hbm, 125, rfl⟩
abbrev main_v82 : Ref sig .tc := ⟨.hbm, 126, rfl⟩
abbrev main_v83 : Ref sig .tc := ⟨.hbm, 127, rfl⟩
abbrev main_c_22 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_23 : Ref sig .tc := ⟨.hbm, 139, rfl⟩
abbrev main_v94 : Ref sig .tc := ⟨.hbm, 140, rfl⟩
abbrev main_c_24 : Ref sig .tc := ⟨.hbm, 141, rfl⟩
abbrev main_v95 : Ref sig .tc := ⟨.hbm, 142, rfl⟩
abbrev main_v96 : Ref sig .tc := ⟨.hbm, 143, rfl⟩
abbrev main_c_25 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩

abbrev nD : Nat := 1
abbrev τ : Topo := Topo.v7x

variable {F : FTy → Type} [FloatOps F]

class Facts₀ : Prop where
  shapeCasts_S2048x2_S4096 : S2048x2.ShapeCasts S4096
  bcast_S2048_S2048x2_0 : S2048.BroadcastsInDim S2048x2 (![0] : Fin 1 → Fin S2048x2.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S7_0 : S8.Slices ![0] S7
  concatenates_S1_S7_S8_d0 : Shape.Concatenates [S1, S7] S8 0
  bcast_S_S8x4096x1024 : S_.BroadcastsInDim S8x4096x1024 (![] : Fin 0 → Fin S8x4096x1024.rank)
  concatenates_S4096x1_S4096x1_S4096x2_d1 : Shape.Concatenates [S4096x1, S4096x1] S4096x2 1
  bcast_S_S8x4096x4096 : S_.BroadcastsInDim S8x4096x4096 (![] : Fin 0 → Fin S8x4096x4096.rank)
  bcast_S4096x1_S4096x1024_0_1 : S4096x1.BroadcastsInDim S4096x1024 (![0, 1] : Fin 2 → Fin S4096x1024.rank)
  bcast_S_S2048x1024 : S_.BroadcastsInDim S2048x1024 (![] : Fin 0 → Fin S2048x1024.rank)
  gather_S4096_S4096x1_S4096_n_0_n_n_0_1_1_wf : GatherDims.WF S4096 S4096x1 S4096 [] [0] [] [0] [] 1 ![1]
  scatter_S8_S4096x1_S4096_n_0_0_1_wf : ScatterDims.WF S8 S4096x1 S4096 [] [0] [0] 1
  gather_S8_S4096x1_S4096_n_0_n_n_0_1_1_wf : GatherDims.WF S8 S4096x1 S4096 [] [0] [] [0] [] 1 ![1]
  gather_S2048x1024_S4096x1_S4096x1024_1_0_n_n_0_1_11024_wf : GatherDims.WF S2048x1024 S4096x1 S4096x1024 [1] [0] [] [0] [] 1 ![1, 1024]
  scatter_S8x4096x1024_S4096x2_S4096x1024_1_01_01_1_wf : ScatterDims.WF S8x4096x1024 S4096x2 S4096x1024 [1] [0, 1] [0, 1] 1
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]
  gather_S8x4096x1024_S4096x2_S4096x1024_1_01_n_n_01_1_111024_wf : GatherDims.WF S8x4096x1024 S4096x2 S4096x1024 [1] [0, 1] [] [0, 1] [] 1 ![1, 1, 1024]
  scatter_S2048x1024_S4096x1_S4096x1024_1_0_0_1_wf : ScatterDims.WF S2048x1024 S4096x1 S4096x1024 [1] [0] [0] 1

variable [Facts₀]

def comparator_i32_i32_d0 : BitVec 32 × BitVec 32 → BitVec 32 × BitVec 32 → BitVec 1 :=
  fun l r =>
    let v2 := IntOp.cmpi .slt l.1 r.1
    v2
def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def scatter_S8_S4096x1_S4096_n_0_0_1 : ScatterDims S8 S4096x1 S4096 where
  updateWindowDims := []
  insertedWindowDims := [0]
  scatterDimsToOperandDims := [0]
  indexVectorDim := 1
  wf := scatter_S8_S4096x1_S4096_n_0_0_1_wf
def gather_S8_S4096x1_S4096_n_0_n_n_0_1_1 : GatherDims S8 S4096x1 S4096 where
  offsetDims := []
  collapsedSliceDims := [0]
  operandBatchingDims := []
  startIndicesBatchingDims := []
  startIndexMap := [0]
  indexVectorDim := 1
  sliceSizes := ![1]
  wf := gather_S8_S4096x1_S4096_n_0_n_n_0_1_1_wf
def gather_S2048x1024_S4096x1_S4096x1024_1_0_n_n_0_1_11024 : GatherDims S2048x1024 S4096x1 S4096x1024 where
  offsetDims := [1]
  collapsedSliceDims := [0]
  operandBatchingDims := []
  startIndicesBatchingDims := []
  startIndexMap := [0]
  indexVectorDim := 1
  sliceSizes := ![1, 1024]
  wf := gather_S2048x1024_S4096x1_S4096x1024_1_0_n_n_0_1_11024_wf
def scatter_S8x4096x1024_S4096x2_S4096x1024_1_01_01_1 : ScatterDims S8x4096x1024 S4096x2 S4096x1024 where
  updateWindowDims := [1]
  insertedWindowDims := [0, 1]
  scatterDimsToOperandDims := [0, 1]
  indexVectorDim := 1
  wf := scatter_S8x4096x1024_S4096x2_S4096x1024_1_01_01_1_wf
def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf
def gather_S8x4096x1024_S4096x2_S4096x1024_1_01_n_n_01_1_111024 : GatherDims S8x4096x1024 S4096x2 S4096x1024 where
  offsetDims := [1]
  collapsedSliceDims := [0, 1]
  operandBatchingDims := []
  startIndicesBatchingDims := []
  startIndexMap := [0, 1]
  indexVectorDim := 1
  sliceSizes := ![1, 1, 1024]
  wf := gather_S8x4096x1024_S4096x2_S4096x1024_1_01_n_n_01_1_111024_wf
def scatter_S2048x1024_S4096x1_S4096x1024_1_0_0_1 : ScatterDims S2048x1024 S4096x1 S4096x1024 where
  updateWindowDims := [1]
  insertedWindowDims := [0]
  scatterDimsToOperandDims := [0]
  indexVectorDim := 1
  wf := scatter_S2048x1024_S4096x1_S4096x1024_1_0_0_1_wf

class Facts : Prop extends Facts₀ where

variable [Facts]
-- ==== Proof.Spec.lean ====
/-
  The mathematics both programs compute, stated once over the argument arrays (extended reals).

  For token `t` and expert `e` the feed-forward value is
    ffn e t d = ∑ j < 4096, (g · logistic g · v) · w3[e, j, d],   g = ∑ c, x[t, c] · w1[e, c, j],   v = ∑ c, x[t, c] · w2[e, c, j],
  and the routed mixture is
    moe t d = ∑ k < 2, ffn (expert of slot k of t) t d · weight[t, k].
  The kernel reaches the same number as a sum over the 64 (expert, hidden-tile) pairs of a tile's partial product times the
  token's accumulated weight for that expert (`kform`); the two agree when every number is finite, because the
  rearrangement distributes a product over a sum.
-/
import Idealize.ShloMosaic.PureOps.Ideal
import Idealize.ShloMosaic.Lib.ValueIdx

noncomputable section

open scoped BigOperators

namespace Cert.Moe

open Idealize.ShloMosaic Idealize.ShloMosaic.ValueIdx

/-- tokens × model width -/
abbrev SX : Shape := ⟨2, ![2048, 1024]⟩
/-- tokens × routing slots -/
abbrev SI : Shape := ⟨2, ![2048, 2]⟩
/-- experts × model width × hidden width -/
abbrev SW : Shape := ⟨3, ![8, 1024, 4096]⟩
/-- experts × hidden width × model width -/
abbrev SV : Shape := ⟨3, ![8, 4096, 1024]⟩

/-- A token's projection onto one hidden unit of one expert: ∑ c, x[t, c] · w[e, c, j]. -/
def proj (x : SX.Idx → EReal) (w : SW.Idx → EReal) (e : Fin 8) (t : Fin 2048) (j : Fin 4096) : EReal :=
  ∑ c : Fin 1024, x (ix2 t c) * w (ix3 e c j)

/-- The gated hidden activation: (g · logistic g) · v. -/
def hidden (x : SX.Idx → EReal) (w1 w2 : SW.Idx → EReal) (e : Fin 8) (t : Fin 2048) (j : Fin 4096) : EReal :=
  proj x w1 e t j * Ideal.logistic (proj x w1 e t j) * proj x w2 e t j

/-- One expert's feed-forward output for one token at one output coordinate. -/
def ffn (x : SX.Idx → EReal) (w1 w2 : SW.Idx → EReal) (w3 : SV.Idx → EReal) (e : Fin 8) (t : Fin 2048) (d : Fin 1024) : EReal :=
  ∑ j : Fin 4096, hidden x w1 w2 e t j * w3 (ix3 e j d)

/-- The expert a routing word names (read modulo 8; in range the word itself). -/
def expert (idx : SI.Idx → BitVec 32) (t : Fin 2048) (k : Fin 2) : Fin 8 :=
  ⟨(idx (ix2 t k)).toNat % 8, Nat.mod_lt _ (by decide)⟩

/-- The routed mixture: each token's two slots, each slot's expert output times its weight. -/
def moe (x : SX.Idx → EReal) (idx : SI.Idx → BitVec 32) (wts : SI.Idx → EReal) (w1 w2 : SW.Idx → EReal) (w3 : SV.Idx → EReal) :
    SX.Idx → EReal :=
  fun i => ∑ k : Fin 2, ffn x w1 w2 w3 (expert idx (i 0) k) (i 0) (i 1) * wts (ix2 (i 0) k)

/-- A token's accumulated weight for an expert: the weights of its slots that name that expert. -/
def assignW (idx : SI.Idx → BitVec 32) (wts : SI.Idx → EReal) (t : Fin 2048) (e : Fin 8) : EReal :=
  ∑ k : Fin 2, if idx (ix2 t k) = BitVec.ofNat 32 e.val then wts (ix2 t k) else 0

/-- Hidden unit `j` of hidden tile `f` (tiles of 512). -/
def tileUnit (f : Fin 8) (j : Fin 512) : Fin 4096 := ⟨f.val * 512 + j.val, by have := f.isLt; have := j.isLt; omega⟩

/-- One hidden tile's share of an expert's output. -/
def partialOut (x : SX.Idx → EReal) (w1 w2 : SW.Idx → EReal) (w3 : SV.Idx → EReal) (e f : Fin 8) (t : Fin 2048) (d : Fin 1024) : EReal :=
  ∑ j : Fin 512, hidden x w1 w2 e t (tileUnit f j) * w3 (ix3 e (tileUnit f j) d)

/-- The (expert, tile) pair visited at step `n` of a token tile's sweep: expert `n / 8`, tile `n % 8`. -/
def stepExpert (n : Fin 64) : Fin 8 := ⟨n.val / 8, by have := n.isLt; omega⟩
def stepTile (n : Fin 64) : Fin 8 := ⟨n.val % 8, Nat.mod_lt _ (by decide)⟩

/-- The kernel's form: over the 64 steps, the tile's partial output times the token's weight for the step's expert. -/
def kform (x : SX.Idx → EReal) (idx : SI.Idx → BitVec 32) (wts : SI.Idx → EReal) (w1 w2 : SW.Idx → EReal) (w3 : SV.Idx → EReal) :
    SX.Idx → EReal :=
  fun i => ∑ n : Fin 64, partialOut x w1 w2 w3 (stepExpert n) (stepTile n) (i 0) (i 1) * assignW idx wts (i 0) (stepExpert n)

/-! ## One grid point's contribution, over its blocks -/

abbrev BX : Shape := ⟨2, ![1024, 1024]⟩
abbrev BW : Shape := ⟨3, ![1, 1024, 512]⟩
abbrev BV : Shape := ⟨3, ![1, 512, 1024]⟩
abbrev BA : Shape := ⟨2, ![1024, 8]⟩

/-- A block row's projection onto one hidden unit of the tile. -/
def blkProj (xb : BX.Idx → EReal) (wb : BW.Idx → EReal) (r : Fin 1024) (j : Fin 512) : EReal :=
  ∑ c : Fin 1024, xb (ix2 r c) * wb (ix3 0 c j)

/-- What one grid point adds to the accumulator at row `r`, column `d` of its token tile: the tile's partial output
    times the row's weight for the point's expert. -/
def blkContrib (xb : BX.Idx → EReal) (w1b w2b : BW.Idx → EReal) (w3b : BV.Idx → EReal) (awb : BA.Idx → EReal) (e : Fin 8) :
    BX.Idx → EReal :=
  fun y => (∑ j : Fin 512, (blkProj xb w1b (y 0) j * Ideal.logistic (blkProj xb w1b (y 0) j) * blkProj xb w2b (y 0) j) * w3b (ix3 0 j (y 1)))
    * awb (ix2 (y 0) e)

end Cert.Moe

end
-- ==== Proof.Algebra.lean ====
/-
  The kernel's form of the routed mixture equals the reference form when every input is a real number.

  With real inputs every projection, hidden activation, partial output and accumulated weight is a real number, so products
  distribute over finite sums.  The sum over the 64 steps is the double sum over (expert, tile); for a fixed expert the tiles'
  partial outputs add up to the expert's full output (the tiles partition the 4096 hidden units); and the accumulated weight
  of an expert spreads over the two routing slots, each slot naming exactly one expert.
-/
import proofs.«430784_j18451179504159_2_alg».proof.Proof.Spec
import Mathlib.Data.EReal.Basic
import Mathlib.Algebra.BigOperators.Fin

noncomputable section

open scoped BigOperators

namespace Cert.Moe

open Idealize.ShloMosaic Idealize.ShloMosaic.ValueIdx

namespace Algebra

/-- An extended real that is a real number. -/
def IsReal (a : EReal) : Prop := a ≠ ⊤ ∧ a ≠ ⊥

theorem isReal_coe (r : ℝ) : IsReal (r : EReal) := ⟨EReal.coe_ne_top r, EReal.coe_ne_bot r⟩

theorem isReal_zero : IsReal (0 : EReal) := by simpa using isReal_coe 0

theorem isReal_add {a b : EReal} (ha : IsReal a) (hb : IsReal b) : IsReal (a + b) := by
  lift a to ℝ using ha
  lift b to ℝ using hb
  rw [← EReal.coe_add]; exact isReal_coe _

theorem isReal_mul {a b : EReal} (ha : IsReal a) (hb : IsReal b) : IsReal (a * b) := by
  lift a to ℝ using ha
  lift b to ℝ using hb
  rw [← EReal.coe_mul]; exact isReal_coe _

theorem isReal_logistic {a : EReal} (ha : IsReal a) : IsReal (Ideal.logistic a) := by
  lift a to ℝ using ha
  rw [Ideal.logistic_coe]; exact isReal_coe _

theorem isReal_sum {ι : Type} (s : Finset ι) (p : ι → EReal) (h : ∀ i ∈ s, IsReal (p i)) :
    IsReal (∑ i ∈ s, p i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

/-- Among real numbers a product distributes over a sum (false on the extended reals at infinities). -/
theorem add_mul_of_isReal {a b c : EReal} (ha : IsReal a) (hb : IsReal b) (hc : IsReal c) :
    (a + b) * c = a * c + b * c := by
  lift a to ℝ using ha
  lift b to ℝ using hb
  lift c to ℝ using hc
  exact_mod_cast add_mul a b c

theorem sum_mul_of_isReal {ι : Type} (s : Finset ι) (p : ι → EReal) (a : EReal) (hp : ∀ i ∈ s, IsReal (p i))
    (ha : IsReal a) : (∑ i ∈ s, p i) * a = ∑ i ∈ s, p i * a := by
  classical
  induction s using Finset.induction_on with
  | empty => simp
  | insert j s hj ih =>
    rw [Finset.sum_insert hj, Finset.sum_insert hj,
      add_mul_of_isReal (hp j (Finset.mem_insert_self j s))
        (isReal_sum s p fun i hi => hp i (Finset.mem_insert_of_mem hi)) ha,
      ih fun i hi => hp i (Finset.mem_insert_of_mem hi)]

theorem mul_sum_of_isReal {ι : Type} (s : Finset ι) (p : ι → EReal) (a : EReal) (hp : ∀ i ∈ s, IsReal (p i))
    (ha : IsReal a) : a * (∑ i ∈ s, p i) = ∑ i ∈ s, a * p i := by
  rw [mul_comm, sum_mul_of_isReal s p a hp ha]
  exact Finset.sum_congr rfl fun i _ => mul_comm _ _

/-- The 64 steps are the pairs (expert, tile). -/
def stepEquiv : Fin 64 ≃ Fin 8 × Fin 8 where
  toFun n := (stepExpert n, stepTile n)
  invFun p := ⟨p.1.val * 8 + p.2.val, by have := p.1.isLt; have := p.2.isLt; omega⟩
  left_inv n := by
    apply Fin.ext
    simp only [stepExpert, stepTile]
    omega
  right_inv p := by
    obtain ⟨⟨a, ha⟩, ⟨b, hb⟩⟩ := p
    simp only [stepExpert, stepTile, Prod.mk.injEq, Fin.mk.injEq]
    omega

theorem sum_steps (g : Fin 8 → Fin 8 → EReal) :
    ∑ n : Fin 64, g (stepExpert n) (stepTile n) = ∑ e : Fin 8, ∑ f : Fin 8, g e f := by
  rw [← Fintype.sum_prod_type']
  exact Fintype.sum_equiv stepEquiv _ _ fun _ => rfl

/-- The 4096 hidden units are the pairs (tile, unit of the tile). -/
def tileEquiv : Fin 8 × Fin 512 ≃ Fin 4096 where
  toFun p := tileUnit p.1 p.2
  invFun j := (⟨j.val / 512, by have := j.isLt; omega⟩, ⟨j.val % 512, Nat.mod_lt _ (by decide)⟩)
  left_inv p := by
    obtain ⟨⟨a, ha⟩, ⟨b, hb⟩⟩ := p
    simp only [tileUnit, Prod.mk.injEq, Fin.mk.injEq]
    omega
  right_inv j := by
    apply Fin.ext
    simp only [tileUnit]
    omega

theorem sum_tiles (g : Fin 4096 → EReal) :
    ∑ f : Fin 8, ∑ j : Fin 512, g (tileUnit f j) = ∑ j : Fin 4096, g j := by
  rw [← Fintype.sum_prod_type' (f := fun f j => g (tileUnit f j))]
  exact Fintype.sum_equiv tileEquiv _ _ fun _ => rfl

/-- A routing word in range names exactly one expert. -/
theorem idx_eq_iff (idx : SI.Idx → BitVec 32) (hidx : ∀ i, (idx i).toNat < 8) (t : Fin 2048) (k : Fin 2) (e : Fin 8) :
    idx (ix2 t k) = BitVec.ofNat 32 e.val ↔ e = expert idx t k := by
  have h := hidx (ix2 t k)
  have he8 := e.isLt
  constructor
  · intro he
    apply Fin.ext
    have h2 : (idx (ix2 t k)).toNat = e.val := by
      rw [he, BitVec.toNat_ofNat]
      omega
    simp only [expert]
    omega
  · intro he
    have h2 : e.val = (idx (ix2 t k)).toNat := by
      rw [he]
      simp only [expert]
      omega
    rw [h2, BitVec.ofNat_toNat, BitVec.setWidth_eq]

end Algebra

open Algebra

section
variable (x : SX.Idx → EReal) (idx : SI.Idx → BitVec 32) (wts : SI.Idx → EReal) (w1 w2 : SW.Idx → EReal) (w3 : SV.Idx → EReal)

theorem Algebra.isReal_proj (w : SW.Idx → EReal) (hx : ∀ i, IsReal (x i)) (hw : ∀ i, IsReal (w i)) (e : Fin 8) (t : Fin 2048)
    (j : Fin 4096) : IsReal (proj x w e t j) :=
  isReal_sum _ _ fun _ _ => isReal_mul (hx _) (hw _)

theorem Algebra.isReal_hidden (hx : ∀ i, IsReal (x i)) (hw1 : ∀ i, IsReal (w1 i)) (hw2 : ∀ i, IsReal (w2 i)) (e : Fin 8)
    (t : Fin 2048) (j : Fin 4096) : IsReal (hidden x w1 w2 e t j) :=
  isReal_mul (isReal_mul (isReal_proj x w1 hx hw1 e t j) (isReal_logistic (isReal_proj x w1 hx hw1 e t j)))
    (isReal_proj x w2 hx hw2 e t j)

theorem Algebra.isReal_partialOut (hx : ∀ i, IsReal (x i)) (hw1 : ∀ i, IsReal (w1 i)) (hw2 : ∀ i, IsReal (w2 i))
    (hw3 : ∀ i, IsReal (w3 i)) (e f : Fin 8) (t : Fin 2048) (d : Fin 1024) : IsReal (partialOut x w1 w2 w3 e f t d) :=
  isReal_sum _ _ fun _ _ => isReal_mul (isReal_hidden x w1 w2 hx hw1 hw2 e t _) (hw3 _)

theorem Algebra.isReal_ffn (hx : ∀ i, IsReal (x i)) (hw1 : ∀ i, IsReal (w1 i)) (hw2 : ∀ i, IsReal (w2 i))
    (hw3 : ∀ i, IsReal (w3 i)) (e : Fin 8) (t : Fin 2048) (d : Fin 1024) : IsReal (ffn x w1 w2 w3 e t d) :=
  isReal_sum _ _ fun _ _ => isReal_mul (isReal_hidden x w1 w2 hx hw1 hw2 e t _) (hw3 _)

theorem Algebra.isReal_slot (hwts : ∀ i, IsReal (wts i)) (t : Fin 2048) (e : Fin 8) (k : Fin 2) :
    IsReal (if idx (ix2 t k) = BitVec.ofNat 32 e.val then wts (ix2 t k) else 0) := by
  split
  · exact hwts _
  · exact isReal_zero

theorem Algebra.isReal_assignW (hwts : ∀ i, IsReal (wts i)) (t : Fin 2048) (e : Fin 8) : IsReal (assignW idx wts t e) :=
  isReal_sum _ _ fun k _ => isReal_slot idx wts hwts t e k

/-- The tiles' partial outputs of one expert add up to the expert's output. -/
theorem Algebra.sum_partialOut (e : Fin 8) (t : Fin 2048) (d : Fin 1024) :
    ∑ f : Fin 8, partialOut x w1 w2 w3 e f t d = ffn x w1 w2 w3 e t d := by
  simp only [partialOut, ffn]
  exact sum_tiles fun j => hidden x w1 w2 e t j * w3 (ix3 e j d)

/-- The statement at one token and one output coordinate. -/
theorem Algebra.kform_at (hx : ∀ i, IsReal (x i)) (hwts : ∀ i, IsReal (wts i)) (hw1 : ∀ i, IsReal (w1 i))
    (hw2 : ∀ i, IsReal (w2 i)) (hw3 : ∀ i, IsReal (w3 i)) (hidx : ∀ i, (idx i).toNat < 8) (t : Fin 2048) (d : Fin 1024) :
    ∑ n : Fin 64, partialOut x w1 w2 w3 (stepExpert n) (stepTile n) t d * assignW idx wts t (stepExpert n)
      = ∑ k : Fin 2, ffn x w1 w2 w3 (expert idx t k) t d * wts (ix2 t k) := by
  rw [sum_steps fun e f => partialOut x w1 w2 w3 e f t d * assignW idx wts t e]
  -- each expert: the tiles add up, then the accumulated weight spreads over the slots
  have hE : ∀ e : Fin 8, ∑ f : Fin 8, partialOut x w1 w2 w3 e f t d * assignW idx wts t e
      = ∑ k : Fin 2, ffn x w1 w2 w3 e t d * (if idx (ix2 t k) = BitVec.ofNat 32 e.val then wts (ix2 t k) else 0) := by
    intro e
    rw [← sum_mul_of_isReal _ _ _ (fun f _ => isReal_partialOut x w1 w2 w3 hx hw1 hw2 hw3 e f t d)
      (isReal_assignW idx wts hwts t e), sum_partialOut, assignW,
      mul_sum_of_isReal _ _ _ (fun k _ => isReal_slot idx wts hwts t e k) (isReal_ffn x w1 w2 w3 hx hw1 hw2 hw3 e t d)]
  rw [Finset.sum_congr rfl fun e _ => hE e, Finset.sum_comm]
  refine Finset.sum_congr rfl fun k _ => ?_
  -- one slot: only the expert it names contributes
  have hk : ∀ e : Fin 8, ffn x w1 w2 w3 e t d * (if idx (ix2 t k) = BitVec.ofNat 32 e.val then wts (ix2 t k) else 0)
      = if e = expert idx t k then ffn x w1 w2 w3 e t d * wts (ix2 t k) else 0 := by
    intro e
    by_cases he : e = expert idx t k
    · rw [if_pos he, if_pos ((idx_eq_iff idx hidx t k e).2 he)]
    · rw [if_neg he, if_neg (fun h => he ((idx_eq_iff idx hidx t k e).1 h)), mul_zero]
  rw [Finset.sum_congr rfl fun e _ => hk e, Finset.sum_ite_eq' Finset.univ (expert idx t k), if_pos (Finset.mem_univ _)]

end

/-- With real inputs and routing words in range, the kernel's form is the routed mixture. -/
theorem kform_eq_moe (x : SX.Idx → EReal) (idx : SI.Idx → BitVec 32) (wts : SI.Idx → EReal) (w1 w2 : SW.Idx → EReal)
    (w3 : SV.Idx → EReal)
    (hx : ∀ i, x i ≠ ⊤ ∧ x i ≠ ⊥) (hwts : ∀ i, wts i ≠ ⊤ ∧ wts i ≠ ⊥) (hw1 : ∀ i, w1 i ≠ ⊤ ∧ w1 i ≠ ⊥)
    (hw2 : ∀ i, w2 i ≠ ⊤ ∧ w2 i ≠ ⊥) (hw3 : ∀ i, w3 i ≠ ⊤ ∧ w3 i ≠ ⊥) (hidx : ∀ i, (idx i).toNat < 8) :
    kform x idx wts w1 w2 w3 = moe x idx wts w1 w2 w3 := by
  funext i
  exact Algebra.kform_at x idx wts w1 w2 w3 hx hwts hw1 hw2 hw3 hidx (i 0) (i 1)

end Cert.Moe

end
-- ==== Proof.PreFacts.lean ====
/-
  The printed precondition, read back. The predicate is a conjunction (by `and` on one-bit words) of six `jnp.all`s:
  five of the form all(|x| < +∞) over the float inputs, and all((0 ≤ idx) ∧ (idx < 8)) over the int32 indices. Each
  `jnp.all` is a reduction by `and` into one index, so a result of 1 says every element of its operand is 1. Over the
  extended reals |x| = max x (-x), the pattern 0x7F800000 is +∞, and max x (-x) < ⊤ says x is neither ⊤ nor ⊥.
  A 32-bit word in [0, 8) signed is below 8 unsigned.
-/
import proofs.«430784_j18451179504159_2_alg».proof.Pre_finite_inputs
import proofs.«430784_j18451179504159_2_alg».proof.Proof.Gen.Pre_finite_inputs
import Idealize.ShloMosaic.Lib.ReduceAll
import Idealize.ShloMosaic.Lib.ValueIdx
import Idealize.ShloMosaic.PureOps.Ideal

set_option maxRecDepth 16384

noncomputable section

namespace Cert.Pre_finite_inputs.Decode

open Idealize.ShloMosaic Cert.Pre_finite_inputs Cert.Pre_finite_inputs.Gen

/-- The rank-0 shape has one index. -/
instance : Subsingleton S_.Idx := ⟨fun a b => funext fun d => d.elim0⟩

/-- The one index of the rank-0 shape. -/
def j0 : S_.Idx := fun d => d.elim0

/-- The pattern 0x7F800000 denotes +∞. -/
theorem ofBits_inf : Ideal.ofBits .f32 0x7F800000#32 = (⊤ : EReal) := by simp [Ideal.ofBits, Ideal.ieee]

/-- |x| < +∞ over the extended reals: x is neither infinity. -/
theorem finite_of_olt (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  change Ideal.cmp .olt (max (x : EReal) (-(x : EReal))) (Ideal.ofBits .f32 0x7F800000#32) = 1#1 at h
  rw [ofBits_inf] at h
  unfold Ideal.cmp at h
  have hlt : max (x : EReal) (-(x : EReal)) < ⊤ := by
    by_contra hn
    simp [hn] at h
  rw [max_lt_iff] at hlt
  refine ⟨lt_top_iff_ne_top.mp hlt.1, fun hb => ?_⟩
  rw [hb] at hlt
  simp at hlt

/-- A 32-bit word in [0, 8) signed is below 8 unsigned. -/
theorem toNat_lt_eight (w : BitVec 32) (h0 : IntOp.cmpi .sge w 0#32 = 1#1) (h8 : IntOp.cmpi .slt w 8#32 = 1#1) :
    w.toNat < 8 := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have h32 := w.isLt
  rw [BitVec.toInt_eq_toNat_cond] at h0 h8
  split at h8 <;> omega

/-- One float conjunct: the `jnp.all` of |a| < +∞ being 1 says every element of a is finite. -/
theorem all_finite {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu j0 = 1#1) (i : s.Idx) : (a i : EReal) ≠ ⊤ ∧ (a i : EReal) ≠ ⊥ :=
  finite_of_olt (a i) (Host.reduce_andi_all _ _ hr hu j0 e i)

theorem decode (a0 : FVec Ideal S2048x1024 .f32) (a1 : IVec S2048x2 32) (a2 : FVec Ideal S2048x2 .f32)
    (a3 a4 : FVec Ideal S8x1024x4096 .f32) (a5 : FVec Ideal S8x4096x1024 .f32)
    (h : Cert.Pre_finite_inputs.fn (F := Ideal) a0 a1 a2 a3 a4 a5 = fun _ => 1#1) :
    (∀ i, (a0 i : EReal) ≠ ⊤ ∧ (a0 i : EReal) ≠ ⊥) ∧ (∀ i, (a1 i).toNat < 8) ∧ (∀ i, (a2 i : EReal) ≠ ⊤ ∧ (a2 i : EReal) ≠ ⊥)
    ∧ (∀ i, (a3 i : EReal) ≠ ⊤ ∧ (a3 i : EReal) ≠ ⊥) ∧ (∀ i, (a4 i : EReal) ≠ ⊤ ∧ (a4 i : EReal) ≠ ⊥)
    ∧ (∀ i, (a5 i : EReal) ≠ ⊤ ∧ (a5 i : EReal) ≠ ⊥) := by
  have e := congrFun h j0
  dsimp only [fn, fn_part1] at e
  simp only [andi, IntOp.andi_eq_one] at e
  obtain ⟨⟨⟨⟨⟨h0, h2⟩, h3⟩, h4⟩, h5⟩, h1⟩ := e
  refine ⟨all_finite a0 _ _ _ h0, fun i => ?_, all_finite a2 _ _ _ h2, all_finite a3 _ _ _ h3, all_finite a4 _ _ _ h4,
    all_finite a5 _ _ _ h5⟩
  have hi := Host.reduce_andi_all _ _ _ _ j0 h1 i
  obtain ⟨hge, hlt⟩ := IntOp.andi_eq_one.1 hi
  exact toNat_lt_eight (a1 i) hge hlt

end Cert.Pre_finite_inputs.Decode

end
-- ==== Proof.LibColumn.lean ====
/-
  Two layout facts about a column kept as a trailing unit axis (`keepdims`): a vector `[a]` cast to a
  column `[a, 1]` reads, at `(i, u)`, the vector at `i`; a column `[a, 1]` broadcast along its unit axis to
  `[a, b]` reads, at `(i, j)`, the column at `(i, 0)`.  Together: a per-row quantity spread over the row.
-/
import Idealize.ShloMosaic.Lib.Pipeline.Value
import Idealize.ShloMosaic.Lib.ValueIdx

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Column
-- ==== Proof.KPay.lean ====
/-
  The kernel body's arithmetic read at an index, at the extended reals.

  The accumulator's initial value is the zero array; one grid point's step adds to the accumulator, at row `r` and
  column `d`, the hidden tile's partial output (∑ j < 512, (g · logistic g · v)[r, j] · w3[j, d], with g and v the two
  projections ∑ c < 1024, x[r, c] · w[c, j]) times the row's weight in the lane of the point's expert (the sum over
  the 8 lanes of the weights masked to the lane that equals the expert coordinate).
-/
import proofs.«430784_j18451179504159_2_alg».proof.Proof.Gen.KernelIdeal.Skeleton
import proofs.«430784_j18451179504159_2_alg».proof.Proof.Spec
import proofs.«430784_j18451179504159_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KPay

open Cert.KernelIdeal Cert.KernelIdeal.Gen Idealize.ShloMosaic Idealize.ShloMosaic.ValueIdx

/-! ## The two contractions' index maps, coordinate by coordinate

Both products contract the left operand's axis 1 with the right operand's axis 0: at output index (r, j) and
contraction coordinate c the operands are read at (r, c) and (c, j). -/

/-- The projection's dimension numbers: [1024, 1024] × [1024, 512] → [1024, 512]. -/
abbrev dotProj := dot_S1024x1024_S1024x512_S1024x512_1_0_0_1_n_n
/-- The output product's dimension numbers: [1024, 512] × [512, 1024] → [1024, 1024]. -/
abbrev dotOut := dot_S1024x512_S512x1024_S1024x1024_1_0_0_1_n_n

/-- The projection's operand indices: the left reads (r, c), the right (c, j). -/
theorem lhs1_0 (j : S1024x512.Idx) (k : dotProj.contr.Idx) : (dotProj.lhsIdx j k 0 : ℕ) = j 0 := by
  simp [DotDims.lhsIdx, dotProj, dot_S1024x1024_S1024x512_S1024x512_1_0_0_1_n_n]; rfl
theorem rhs1_1 (j : S1024x512.Idx) (k : dotProj.contr.Idx) : (dotProj.rhsIdx j k 1 : ℕ) = j 1 := by
  simp [DotDims.rhsIdx, dotProj, dot_S1024x1024_S1024x512_S1024x512_1_0_0_1_n_n]; rfl
theorem lhs1_1 (j : S1024x512.Idx) (c : Fin 1024) :
    (dotProj.lhsIdx j ((contrEquiv1 dotProj 1024 rfl rfl).symm c) 1 : ℕ) = c.val :=
  (DotDims.lhsIdx_val_of_single (d := dotProj) (cl := 1) rfl j _).trans (contrEquiv1_symm_val dotProj 1024 rfl rfl c)
theorem rhs1_0 (j : S1024x512.Idx) (c : Fin 1024) :
    (dotProj.rhsIdx j ((contrEquiv1 dotProj 1024 rfl rfl).symm c) 0 : ℕ) = c.val :=
  (DotDims.rhsIdx_val_of_single (d := dotProj) (cr := 0) rfl j _).trans (contrEquiv1_symm_val dotProj 1024 rfl rfl c)

/-- The projection's contraction as a sum over the 1024 model coordinates. -/
theorem sum1 (lhs : S1024x1024.Idx → EReal) (rhs : S1024x512.Idx → EReal) (r : Fin 1024) (j : Fin 512) :
    ∑ k : dotProj.contr.Idx, lhs (dotProj.lhsIdx (ix2 r j) k) * rhs (dotProj.rhsIdx (ix2 r j) k)
      = ∑ c : Fin 1024, lhs (ix2 r c) * rhs (ix2 c j) := by
  rw [← Equiv.sum_comp (contrEquiv1 dotProj 1024 rfl rfl).symm]
  refine Finset.sum_congr rfl fun c _ => ?_
  congr 2
  · apply Shape.idx_ext₂
    · exact lhs1_0 _ _
    · exact lhs1_1 _ c
  · apply Shape.idx_ext₂
    · exact rhs1_0 _ c
    · exact rhs1_1 _ _

/-- The output product's operand indices: the left reads (r, c), the right (c, d). -/
theorem lhs2_0 (j : S1024x1024.Idx) (k : dotOut.contr.Idx) : (dotOut.lhsIdx j k 0 : ℕ) = j 0 := by
  simp [DotDims.lhsIdx, dotOut, dot_S1024x512_S512x1024_S1024x1024_1_0_0_1_n_n]; rfl
theorem rhs2_1 (j : S1024x1024.Idx) (k : dotOut.contr.Idx) : (dotOut.rhsIdx j k 1 : ℕ) = j 1 := by
  simp [DotDims.rhsIdx, dotOut, dot_S1024x512_S512x1024_S1024x1024_1_0_0_1_n_n]; rfl
theorem lhs2_1 (j : S1024x1024.Idx) (c : Fin 512) :
    (dotOut.lhsIdx j ((contrEquiv1 dotOut 512 rfl rfl).symm c) 1 : ℕ) = c.val :=
  (DotDims.lhsIdx_val_of_single (d := dotOut) (cl := 1) rfl j _).trans (contrEquiv1_symm_val dotOut 512 rfl rfl c)
theorem rhs2_0 (j : S1024x1024.Idx) (c : Fin 512) :
    (dotOut.rhsIdx j ((contrEquiv1 dotOut 512 rfl rfl).symm c) 0 : ℕ) = c.val :=
  (DotDims.rhsIdx_val_of_single (d := dotOut) (cr := 0) rfl j _).trans (contrEquiv1_symm_val dotOut 512 rfl rfl c)

/-- The output product's contraction as a sum over the tile's 512 hidden units. -/
theorem sum2 (lhs : S1024x512.Idx → EReal) (rhs : S512x1024.Idx → EReal) (r : Fin 1024) (d : Fin 1024) :
    ∑ k : dotOut.contr.Idx, lhs (dotOut.lhsIdx (ix2 r d) k) * rhs (dotOut.rhsIdx (ix2 r d) k)
      = ∑ c : Fin 512, lhs (ix2 r c) * rhs (ix2 c d) := by
  rw [← Equiv.sum_comp (contrEquiv1 dotOut 512 rfl rfl).symm]
  refine Finset.sum_congr rfl fun c _ => ?_
  congr 2
  · apply Shape.idx_ext₂
    · exact lhs2_0 _ _
    · exact lhs2_1 _ c
  · apply Shape.idx_ext₂
    · exact rhs2_0 _ c
    · exact rhs2_1 _ _

/-! ## The row's weight in the expert's lane -/

/-- The lane mask: lane `l` equals the expert's lane and is below 8, as one bit. -/
theorem lane_mask : ∀ l e : Fin 8,
    IntOp.andi (IntOp.cmpi .eq (BitVec.ofNat 32 l.val) (BitVec.ofNat 32 e.val)) (IntOp.cmpi .slt (BitVec.ofNat 32 l.val) 8#32)
      = if l = e then 1#1 else 0#1 := by decide

/-- The masked weights at row `r`, lane `k`: the weight if the lane is the expert's, else zero. -/
theorem lane_term (e : Fin 8) (v20 : S1024x8.Idx → EReal) (hs : S1024x8.ShapeCasts S1024x8) (hi : S1024x8.Iotas .tc 32 [1])
    (r : Fin 1024) (k : Fin 8) :
    select (andi (cmpi .eq (iota .tc S1024x8 32 [1] hi) (broadcast S1024x8 (BitVec.ofNat 32 e.val)))
        (cmpi .slt (iota .tc S1024x8 32 [1] hi) (broadcast S1024x8 8#32)))
      (shapeCast S1024x8 v20 hs) (broadcast S1024x8 (Ideal.ofBits .f32 0x00000000#32)) (ix2 r k)
      = if k = e then v20 (ix2 r k) else 0 := by
  rw [shapeCast_self]
  show Scalar.select (IntOp.andi (IntOp.cmpi .eq (iota .tc S1024x8 32 [1] hi (ix2 r k)) (BitVec.ofNat 32 e.val))
      (IntOp.cmpi .slt (iota .tc S1024x8 32 [1] hi (ix2 r k)) 8#32)) (v20 (ix2 r k)) (Ideal.ofBits .f32 0x00000000#32) = _
  rw [iota_single_apply, Ideal.ofBits_zero_f32]
  show Scalar.select (IntOp.andi (IntOp.cmpi .eq (BitVec.ofNat 32 k.val) (BitVec.ofNat 32 e.val))
      (IntOp.cmpi .slt (BitVec.ofNat 32 k.val) 8#32)) _ _ = _
  rw [lane_mask k e]
  split
  · exact select_one _ _
  · exact select_zero _ _

/-- The index over row `r` with lane `k` inserted is (r, k). -/
theorem lift_lane (h : S1024x8.Reduces [1] S1024) (r : Fin 1024) (k : Fin 8) : h.lift (ix1 r) k = ix2 r k :=
  Shape.idx_ext₂ rfl rfl

/-- The sum over the 8 lanes of the masked weights is the weight in the expert's lane. -/
theorem pay4_apply (i : grid0.Coords) (v20 : Vec Ideal S1024x8 .f32) (r : Fin 1024) (u : Fin 1) :
    k0_pay4 (F := Ideal) i v20 (ix2 r u) = v20 (ix2 r ⟨(i 1).val, (i 1).isLt⟩) := by
  unfold k0_pay4
  refine (Cert.Column.shapeCast_a_a1_apply _ _ r u).trans ?_
  refine (Ideal.multiReduction_add_single _ _ _ _ _ _).trans ?_
  show ∑ k : Fin 8, _ = _
  refine (Finset.sum_congr rfl fun k _ => ?_).trans (Finset.sum_ite_eq' Finset.univ (⟨(i 1).val, (i 1).isLt⟩ : Fin 8) fun k => v20 (ix2 r k)) |>.trans ?_
  · rw [lift_lane]
    exact lane_term ⟨(i 1).val, (i 1).isLt⟩ v20 _ _ r k
  · simp

/-! ## The tile's partial output, and the step -/

/-- A projection read at row `r`, hidden unit `j` of the tile: the row of `x` against the column of the weight block. -/
theorem proj_apply (v5 : FVec Ideal S1024x1024 .bf16) (w : FVec Ideal S1x1024x512 .bf16)
    (h1 : S1024x1024.ShapeCasts S1024x1024) (h2 : S1x1024x512.ShapeCasts S1024x512) (r : Fin 1024) (j : Fin 512) :
    matmul (F := Ideal) (φ₁ := .bf16) (φ₂ := .bf16) dot_S1024x1024_S1024x512_S1024x512_1_0_0_1_n_n none
        (shapeCast S1024x1024 v5 h1) (shapeCast S1024x512 w h2) (constant S1024x512 .f32 0x00000000#32) (ix2 r j)
      = Cert.Moe.blkProj v5 w r j := by
  refine (Ideal.matmul_constant_zero_apply (φ₁ := .bf16) (φ₂ := .bf16)
    dot_S1024x1024_S1024x512_S1024x512_1_0_0_1_n_n none _ _ (ix2 r j)).trans ?_
  refine (sum1 _ _ r j).trans ?_
  unfold Cert.Moe.blkProj
  refine Finset.sum_congr rfl fun c _ => ?_
  rw [shapeCast_self]
  exact congrArg (v5 (ix2 r c) * ·) (shapeCast_1ab_ab_apply w h2 c j)

/-- The hidden tile's partial output read at row `r`, column `d`. -/
theorem pay3_apply (v5 : Vec Ideal S1024x1024 .bf16) (v7 v10 : Vec Ideal S1x1024x512 .bf16) (v17 : Vec Ideal S1x512x1024 .bf16)
    (r d : Fin 1024) :
    k0_pay3 (F := Ideal) v5 v7 v10 v17 (ix2 r d)
      = ∑ j : Fin 512, (Cert.Moe.blkProj v5 v7 r j * Ideal.logistic (Cert.Moe.blkProj v5 v7 r j) * Cert.Moe.blkProj v5 v10 r j)
          * v17 (ix3 0 j d) := by
  unfold k0_pay3
  refine (Ideal.matmul_constant_zero_apply dot_S1024x512_S512x1024_S1024x1024_1_0_0_1_n_n none _ _ (ix2 r d)).trans ?_
  refine (sum2 _ _ r d).trans ?_
  refine Finset.sum_congr rfl fun j _ => ?_
  refine congrArg₂ (· * ·) ?_ (shapeCast_1ab_ab_apply v17 _ j d)
  show (matmul (F := Ideal) (φ₁ := .bf16) (φ₂ := .bf16) dot_S1024x1024_S1024x512_S1024x512_1_0_0_1_n_n none _ _ _ (ix2 r j)
      * Ideal.logistic (matmul (F := Ideal) (φ₁ := .bf16) (φ₂ := .bf16) dot_S1024x1024_S1024x512_S1024x512_1_0_0_1_n_n none _ _ _ (ix2 r j)))
      * matmul (F := Ideal) (φ₁ := .bf16) (φ₂ := .bf16) dot_S1024x1024_S1024x512_S1024x512_1_0_0_1_n_n none _ _ _ (ix2 r j) = _
  rw [proj_apply v5 v7, proj_apply v5 v10]

/-- The accumulator's initial value is the zero array. -/
theorem pay_zero : (k0_pay2 (F := Ideal) : S1024x1024.Idx → EReal) = fun _ => 0 := by
  show shapeCast S1024x1024 (broadcast S1024x1024 (Ideal.ofBits .f32 0x00000000#32)) shapeCasts_S1024x1024_S1024x1024 = _
  rw [shapeCast_self]
  funext y
  exact Ideal.ofBits_zero_f32

/-- One grid point's step: the accumulator plus the point's contribution. -/
theorem pay_step (i : grid0.Coords) (v5 : Vec Ideal S1024x1024 .bf16) (v7 v10 : Vec Ideal S1x1024x512 .bf16)
    (v17 : Vec Ideal S1x512x1024 .bf16) (v20 : Vec Ideal S1024x8 .f32) (acc : Vec Ideal S1024x1024 .f32) :
    k0_pay1 (F := Ideal) (k0_pay3 v5 v7 v10 v17) (k0_pay4 i v20) acc
      = fun y => acc y + Cert.Moe.blkContrib v5 v7 v10 v17 v20 ⟨(i 1).val, (i 1).isLt⟩ y := by
  funext y
  obtain ⟨r, d, rfl⟩ : ∃ (r : Fin 1024) (d : Fin 1024), y = ix2 r d := ⟨y 0, y 1, eq_ix2 y⟩
  show shapeCast S1024x1024 (addf acc (mulf (k0_pay3 v5 v7 v10 v17)
      (broadcastTo S1024x1024 (k0_pay4 i v20) broadcasts_S1024x1_S1024x1024))) shapeCasts_S1024x1024_S1024x1024 (ix2 r d) = _
  rw [shapeCast_self]
  show acc (ix2 r d) + k0_pay3 v5 v7 v10 v17 (ix2 r d) * broadcastTo S1024x1024 (k0_pay4 i v20) _ (ix2 r d) = _
  rw [Cert.Column.broadcastTo_a1_ab_apply, pay4_apply, pay3_apply]
  rfl

end Cert.KernelIdeal.KPay

end
-- ==== Proof.KHost.lean ====
/-
  The arrays the kernel call's windows stage, as functions of the argument arrays (extended reals).

  Before the call the program converts the activations and the three weight arrays from f32 to bf16 — the
  identity over the extended reals — and forms the per-expert weight of every token,
    aw[t, e] = ∑ k < 2, (if idx[t, k] = e then wts[t, k] else 0),
  as a reduce-add over the slot axis of where(idx[:, :, None] == arange(8), wts[:, :, None], 0).
-/
import proofs.«430784_j18451179504159_2_alg».proof.Proof.Gen.KernelIdeal.Frame
import proofs.«430784_j18451179504159_2_alg».proof.Proof.Spec
import Idealize.ShloMosaic.Lib.StableHlo.Run
import Idealize.ShloMosaic.Lib.StableHlo.Predicate
import Idealize.ShloMosaic.PureOps.Ideal.Laws
import Idealize.ShloMosaic.Lib.ValueIdx

set_option maxRecDepth 16384

noncomputable section

open scoped BigOperators

namespace Cert.KernelIdeal.KHost

open Idealize.ShloMosaic Idealize.ShloMosaic.TcCoe Idealize.ShloMosaic.ValueIdx
open Cert.KernelIdeal Cert.KernelIdeal.Gen

/-- The reduced axis is the slot axis. -/
private theorem hred : S2048x2x8.Reduces [1] S2048x8 := by decide

/-- The index the slot sum visits: (t, k, e). -/
private theorem lift_eq (t : Fin 2048) (e : Fin 8) (k : Fin 2) :
    hred.lift (ix2 t e) k = ix3 t k e := by
  funext a
  match a with
  | ⟨0, _⟩ => exact Fin.ext rfl
  | ⟨1, _⟩ => exact Fin.ext rfl
  | ⟨2, _⟩ => exact Fin.ext rfl

/-- A [2048, 2] array given a unit axis and spread over the eight experts reads, at (t, k, e), its entry (t, k). -/
private theorem slot_at {α : Type} (f : S2048x2.Idx → α) (t : Fin 2048) (k : Fin 2) (e : Fin 8) :
    broadcastInDim S2048x2x8 ![0, 1, 2] bcast_S2048x2x1_S2048x2x8_0_1_2
      (broadcastInDim S2048x2x1 ![0, 1] bcast_S2048x2_S2048x2x1_0_1 f) (ix3 t k e) = f (ix2 t k) := by
  unfold broadcastInDim
  refine congrArg f (funext fun a => ?_)
  match a with
  | ⟨0, _⟩ => exact Fin.ext rfl
  | ⟨1, _⟩ => exact Fin.ext rfl

/-- The experts' numbers spread over tokens and slots read, at (t, k, e), the word of e. -/
private theorem iota_at (t : Fin 2048) (k : Fin 2) (e : Fin 8) :
    broadcastInDim S2048x2x8 ![0, 1, 2] bcast_S1x1x8_S2048x2x8_0_1_2
      (broadcastInDim S1x1x8 ![2] bcast_S8_S1x1x8_2 (iotaInDim S8 32 0)) (ix3 t k e) = BitVec.ofNat 32 e.val := rfl

/-- One term of the slot sum: where the slot's word is the expert's number its weight, else zero. -/
private theorem where_at (idx : S2048x2.Idx → BitVec 32) (wts : S2048x2.Idx → EReal) (t : Fin 2048) (e : Fin 8) (k : Fin 2) :
    select
        (cmpi CmpIPredicate.eq
          (broadcastInDim S2048x2x8 ![0, 1, 2] bcast_S2048x2x1_S2048x2x8_0_1_2
            (broadcastInDim S2048x2x1 ![0, 1] bcast_S2048x2_S2048x2x1_0_1 idx))
          (broadcastInDim S2048x2x8 ![0, 1, 2] bcast_S1x1x8_S2048x2x8_0_1_2
            (broadcastInDim S1x1x8 ![2] bcast_S8_S1x1x8_2 (iotaInDim S8 32 0))))
        (broadcastInDim S2048x2x8 ![0, 1, 2] bcast_S2048x2x1_S2048x2x8_0_1_2
          (broadcastInDim S2048x2x1 ![0, 1] bcast_S2048x2_S2048x2x1_0_1 wts))
        (broadcastInDim S2048x2x8 ![] bcast_S_S2048x2x8 (constant (F := Ideal) S_ FTy.f32 0x00000000#32))
        (hred.lift (ix2 t e) k)
      = if idx (ix2 t k) = BitVec.ofNat 32 e.val then wts (ix2 t k) else 0 := by
  rw [lift_eq, select_apply]
  show Scalar.select (IntOp.cmpi CmpIPredicate.eq
      (broadcastInDim S2048x2x8 ![0, 1, 2] bcast_S2048x2x1_S2048x2x8_0_1_2
        (broadcastInDim S2048x2x1 ![0, 1] bcast_S2048x2_S2048x2x1_0_1 idx) (ix3 t k e))
      (broadcastInDim S2048x2x8 ![0, 1, 2] bcast_S1x1x8_S2048x2x8_0_1_2
        (broadcastInDim S1x1x8 ![2] bcast_S8_S1x1x8_2 (iotaInDim S8 32 0)) (ix3 t k e)))
      (broadcastInDim S2048x2x8 ![0, 1, 2] bcast_S2048x2x1_S2048x2x8_0_1_2
        (broadcastInDim S2048x2x1 ![0, 1] bcast_S2048x2_S2048x2x1_0_1 wts) (ix3 t k e))
      (Ideal.ofBits FTy.f32 0x00000000#32) = _
  rw [slot_at, slot_at, iota_at, Ideal.ofBits_zero_f32]
  by_cases h : idx (ix2 t k) = BitVec.ofNat 32 e.val
  · rw [if_pos h, StableHlo.Predicate.cmpi_eq_iff.mpr h, select_one]
  · rw [if_neg h, eq_zero_of_ne_one (mt StableHlo.Predicate.cmpi_eq_iff.mp h), select_zero]

variable (m : (ℓ : Loc nD τ sig) → Buf (Elt Ideal) ℓ)

/-- The activations the call stages are the argument activations. -/
theorem V_x (c : Dev nD) : (V m c main_v9 : S2048x1024.Idx → EReal) = m ((c : Thread nD τ).loc main_arg0) := by
  dsimp only [Gen.V]
  simp only [Gen.hostOps0, Gen.hostOps0_1, Gen.hostOps0_2, List.flatten_cons, List.flatten_nil, List.append_nil, List.cons_append, List.nil_append]
  after_results
  rfl

/-- The first projection weights the call stages are the argument's. -/
theorem V_w1 (c : Dev nD) : (V m c main_v10 : S8x1024x4096.Idx → EReal) = m ((c : Thread nD τ).loc main_arg3) := by
  dsimp only [Gen.V]
  simp only [Gen.hostOps0, Gen.hostOps0_1, Gen.hostOps0_2, List.flatten_cons, List.flatten_nil, List.append_nil, List.cons_append, List.nil_append]
  after_results
  rfl

/-- The second projection weights the call stages are the argument's. -/
theorem V_w2 (c : Dev nD) : (V m c main_v11 : S8x1024x4096.Idx → EReal) = m ((c : Thread nD τ).loc main_arg4) := by
  dsimp only [Gen.V]
  simp only [Gen.hostOps0, Gen.hostOps0_1, Gen.hostOps0_2, List.flatten_cons, List.flatten_nil, List.append_nil, List.cons_append, List.nil_append]
  after_results
  rfl

/-- The output projection weights the call stages are the argument's. -/
theorem V_w3 (c : Dev nD) : (V m c main_v12 : S8x4096x1024.Idx → EReal) = m ((c : Thread nD τ).loc main_arg5) := by
  dsimp only [Gen.V]
  simp only [Gen.hostOps0, Gen.hostOps0_1, Gen.hostOps0_2, List.flatten_cons, List.flatten_nil, List.append_nil, List.cons_append, List.nil_append]
  after_results
  rfl

/-- The per-expert weights the call stages: each token's slot weights accumulated by the expert the slot names. -/
theorem V_aw (c : Dev nD) : (V m c main_v8 : S2048x8.Idx → EReal)
    = fun i => Cert.Moe.assignW (m ((c : Thread nD τ).loc main_arg1)) (m ((c : Thread nD τ).loc main_arg2)) (i 0) (i 1) := by
  dsimp only [Gen.V]
  simp only [Gen.hostOps0, Gen.hostOps0_1, Gen.hostOps0_2, List.flatten_cons, List.flatten_nil, List.append_nil, List.cons_append, List.nil_append]
  after_results
  funext i
  obtain ⟨t, e, rfl⟩ : ∃ (t : Fin 2048) (e : Fin 8), i = ix2 t e := ⟨i 0, i 1, eq_ix2 i⟩
  simp only [cast_eq]
  show Ideal.hostReduceAdd reducesTo_S2048x2x8_S2048x8_d1 _ _ (ix2 t e) = _
  rw [Ideal.hostReduceAdd_single _ hred]
  show Ideal.ofBits .f32 0x00000000#32 + _ = _
  rw [Ideal.ofBits_zero_f32, zero_add]
  exact Finset.sum_congr rfl fun k _ => where_at _ _ t e k

end Cert.KernelIdeal.KHost

end
-- ==== Proof.KPieces.lean ====
/-
  The pieces each control case of the kernel body leaves, read back as values.

  The body's run, per control case, finds the stores into the carried accumulator (and, at the last point of a
  token tile's sweep, into the output block) as lists of pieces. Each case ends with ONE covering store of the
  whole 1024×1024 block whose payload is the accumulator update  acc + P · sel  (`k0_pay1`), where P is the
  product of the three matmuls on the input blocks (`k0_pay3`), sel the per-row weight of the step's expert
  (`k0_pay4`), and acc what the accumulator held: the zero block (`k0_pay2`) at the first point of a sweep
  (the body stores zeros, then reads them back), the previous point's contents otherwise. At the last point the
  output block is stored with the updated accumulator read back.
-/
import proofs.«430784_j18451179504159_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.KPieces

open Cert.KernelIdeal Cert.KernelIdeal.Gen

variable {F : FTy → Type} [FloatOps F]

/-- The literal offset of every whole-block rectangle of the body is zero. -/
theorem hz : (![0, 0] : Fin 2 → Nat) = fun _ => 0 := funext fun a => by fin_cases a <;> rfl

/-- The same for the rank-3 weight blocks. -/
theorem hz3 : (![0, 0, 0] : Fin 3 → Nat) = fun _ => 0 := funext fun a => by fin_cases a <;> rfl

/-- First point of a sweep: the accumulator is reset to zeros, read back, and updated. -/
theorem sout_A (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x1024 .bf16) (x1 : Vec F S1x1024x512 .bf16) (x2 : Vec F S1x1024x512 .bf16) (x3 : Vec F S1x512x1024 .bf16) (x4 : Vec F S1024x8 .f32) :
    sout0_A_0 (F := F) c i arg3 harg3 arg4 harg4 arg5 harg5 arg6 harg6 arg7 harg7 arg8 harg8 arg9 harg9 hc0 hc1 x0 x1 x2 x3 x4 = k0_pay1 (k0_pay3 x0 x1 x2 x3) (k0_pay4 i x4) k0_pay2 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg8.read_unread, harg9.read_unread, View.ld_unit_zero (S := S1024x1024) hz, View.ld_unit_zero (S := S1024x8) hz, View.ld_unit_zero (S := S1x1024x512) hz3, View.ld_unit_zero (S := S1x512x1024) hz3]

/-- A middle point of a sweep: the accumulator the point before left is updated. -/
theorem sout_B (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x1024 .bf16) (x1 : Vec F S1x1024x512 .bf16) (x2 : Vec F S1x1024x512 .bf16) (x3 : Vec F S1x512x1024 .bf16) (x4 : Vec F S1024x8 .f32) (acc : Vec F S1024x1024 .f32) :
    sout0_B_0 (F := F) c i arg3 harg3 arg4 harg4 arg5 harg5 arg6 harg6 arg7 harg7 arg8 harg8 arg9 harg9 hc0 hc1 x0 x1 x2 x3 x4 acc = k0_pay1 (k0_pay3 x0 x1 x2 x3) (k0_pay4 i x4) acc := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 acc)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, View.ld_unit_zero (S := S1024x1024) hz, View.ld_unit_zero (S := S1024x8) hz, View.ld_unit_zero (S := S1x1024x512) hz3, View.ld_unit_zero (S := S1x512x1024) hz3]

/-- Last point of a sweep: the accumulator the point before left is updated. -/
theorem sout_C (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x1024 .bf16) (x1 : Vec F S1x1024x512 .bf16) (x2 : Vec F S1x1024x512 .bf16) (x3 : Vec F S1x512x1024 .bf16) (x4 : Vec F S1024x8 .f32) (acc : Vec F S1024x1024 .f32) :
    sout0_C_0 (F := F) c i arg3 harg3 arg4 harg4 arg5 harg5 arg6 harg6 arg7 harg7 arg8 harg8 arg9 harg9 hc0 hc1 x0 x1 x2 x3 x4 acc = k0_pay1 (k0_pay3 x0 x1 x2 x3) (k0_pay4 i x4) acc := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 acc)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, View.ld_unit_zero (S := S1024x1024) hz, View.ld_unit_zero (S := S1024x8) hz, View.ld_unit_zero (S := S1x1024x512) hz3, View.ld_unit_zero (S := S1x512x1024) hz3]

/-- Last point of a sweep: the output block is stored with the updated accumulator read back. -/
theorem out_C (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x1024 .bf16) (x1 : Vec F S1x1024x512 .bf16) (x2 : Vec F S1x1024x512 .bf16) (x3 : Vec F S1x512x1024 .bf16) (x4 : Vec F S1024x8 .f32) (acc : Vec F S1024x1024 .f32) :
    out0_C_5 (F := F) c i arg3 harg3 arg4 harg4 arg5 harg5 arg6 harg6 arg7 harg7 arg8 harg8 arg9 harg9 hc0 hc1 x0 x1 x2 x3 x4 acc = k0_pay1 (k0_pay3 x0 x1 x2 x3) (k0_pay4 i x4) acc := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 acc)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, View.readCov_unit_zero (S := S1024x1024) _ hz, View.ld_unit_zero (S := S1024x1024) hz, View.ld_unit_zero (S := S1024x8) hz, View.ld_unit_zero (S := S1x1024x512) hz3, View.ld_unit_zero (S := S1x512x1024) hz3]

end Cert.KernelIdeal.KPieces

end
-- ==== Proof.KRun.lean ====
/-
  The kernel's value. The idealized kernel sweeps a grid of 2 × 8 × 8 points (token tile, expert, hidden tile); at each
  point it adds into a carried accumulator the hidden tile's partial output of the point's expert times each token row's
  accumulated weight for that expert, resets the accumulator at the first point of a token tile and writes it back at the
  last. Read over the argument arrays, the array the run leaves in the result buffer is the sum over the 64
  (expert, hidden-tile) pairs of those products: the specification's `kform`.

  Steps: each window's block as a read of its array at the point's coordinates (the index maps' values decided once over
  the grid); a point's contribution over those blocks as the specification's partial output times assigned weight; the
  accumulator after a point as the running sum of the contributions since the token tile's first point (the fold of the
  carried scratch unrolled); what a last point writes back as the block of `kform`; the two written blocks cover the array.
-/
import proofs.«430784_j18451179504159_2_alg».proof.Proof.Gen.KernelIdeal.Value
import proofs.«430784_j18451179504159_2_alg».proof.Proof.Spec
import proofs.«430784_j18451179504159_2_alg».proof.Proof.KPay
import proofs.«430784_j18451179504159_2_alg».proof.Proof.KHost
import proofs.«430784_j18451179504159_2_alg».proof.Proof.KPieces
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen Cert.KernelIdeal.Value

variable (m : (ℓ : Loc nD τ sig) → Buf (Elt Ideal) ℓ) (ρ : Dev nD → PrngReg)

/-- The index maps' values, decided once over the grid. -/
theorem idx_facts : ∀ t : Fin cfg0.N,
    win0_0.index t (0 : Fin 2) = t.val / 64 ∧ win0_0.index t (1 : Fin 2) = 0
    ∧ win0_1.index t (0 : Fin 3) = (t.val / 8) % 8 ∧ win0_1.index t (1 : Fin 3) = 0 ∧ win0_1.index t (2 : Fin 3) = t.val % 8
    ∧ win0_2.index t (0 : Fin 3) = (t.val / 8) % 8 ∧ win0_2.index t (1 : Fin 3) = 0 ∧ win0_2.index t (2 : Fin 3) = t.val % 8
    ∧ win0_3.index t (0 : Fin 3) = (t.val / 8) % 8 ∧ win0_3.index t (1 : Fin 3) = t.val % 8 ∧ win0_3.index t (2 : Fin 3) = 0
    ∧ win0_4.index t (0 : Fin 2) = t.val / 64 ∧ win0_4.index t (1 : Fin 2) = 0
    ∧ win0_5.index t (0 : Fin 2) = t.val / 64 ∧ win0_5.index t (1 : Fin 2) = 0 :=
  (by decide +kernel : ∀ t : Fin grid0.N, _)

abbrev xblk (c : Dev nD) (t : Fin cfg0.N) : Vec Ideal S1024x1024 .bf16 := iblk m c 0 t
abbrev w1blk (c : Dev nD) (t : Fin cfg0.N) : Vec Ideal S1x1024x512 .bf16 := iblk m c 1 t
abbrev w2blk (c : Dev nD) (t : Fin cfg0.N) : Vec Ideal S1x1024x512 .bf16 := iblk m c 2 t
abbrev w3blk (c : Dev nD) (t : Fin cfg0.N) : Vec Ideal S1x512x1024 .bf16 := iblk m c 3 t
abbrev awblk (c : Dev nD) (t : Fin cfg0.N) : Vec Ideal S1024x8 .f32 := iblk m c 4 t

/-- Bounds of a grid point's coordinates. -/
theorem t_lt (t : Fin cfg0.N) : t.val < 128 := lt_of_lt_of_eq t.isLt (show cfg0.N = 128 from N_0)

/-- Token row `r` of token tile `t / 64`. -/
abbrev tokRow (t : Fin cfg0.N) (r : Fin 1024) : Fin 2048 := ⟨(t.val / 64) * 1024 + r.val, by have := t_lt t; have := r.isLt; omega⟩
/-- The expert of point `t`. -/
abbrev ptExpert (t : Fin cfg0.N) : Fin 8 := ⟨(t.val / 8) % 8, Nat.mod_lt _ (by decide)⟩
/-- The hidden tile of point `t`. -/
abbrev ptTile (t : Fin cfg0.N) : Fin 8 := ⟨t.val % 8, Nat.mod_lt _ (by decide)⟩
/-- Hidden unit `j` of the hidden tile of point `t`. -/
abbrev ptUnit (t : Fin cfg0.N) (j : Fin 512) : Fin 4096 := ⟨(t.val % 8) * 512 + j.val, by have := j.isLt; omega⟩

theorem xblk_apply (c : Dev nD) (t : Fin cfg0.N) (r : Fin 1024) (cc : Fin 1024) :
    xblk m c t (ix2 r cc) = V m c main_v9 (ix2 (tokRow t r) cc) := by
  obtain ⟨e0, e1, -⟩ := idx_facts t
  show V m c main_v9 (((cfg0.win 0).blk t).view.emb (ix2 r cc)) = V m c main_v9 _
  congr 1
  funext a; apply Fin.ext
  match a with
  | ⟨0, _⟩ => show win0_0.index t (0 : Fin 2) * 1024 + 1 * r.val = (t.val / 64) * 1024 + r.val; omega
  | ⟨1, _⟩ => show win0_0.index t (1 : Fin 2) * 1024 + 1 * cc.val = cc.val; omega

theorem w1blk_apply (c : Dev nD) (t : Fin cfg0.N) (cc : Fin 1024) (j : Fin 512) :
    w1blk m c t (ix3 0 cc j) = V m c main_v10 (ix3 (ptExpert t) cc (ptUnit t j)) := by
  obtain ⟨-, -, e0, e1, e2, -⟩ := idx_facts t
  show V m c main_v10 (((cfg0.win 1).blk t).view.emb (ix3 0 cc j)) = V m c main_v10 _
  congr 1
  funext a; apply Fin.ext
  match a with
  | ⟨0, _⟩ => show win0_1.index t (0 : Fin 3) * 1 + 1 * 0 = (t.val / 8) % 8; omega
  | ⟨1, _⟩ => show win0_1.index t (1 : Fin 3) * 1024 + 1 * cc.val = cc.val; omega
  | ⟨2, _⟩ => show win0_1.index t (2 : Fin 3) * 512 + 1 * j.val = (t.val % 8) * 512 + j.val; omega

theorem w2blk_apply (c : Dev nD) (t : Fin cfg0.N) (cc : Fin 1024) (j : Fin 512) :
    w2blk m c t (ix3 0 cc j) = V m c main_v11 (ix3 (ptExpert t) cc (ptUnit t j)) := by
  obtain ⟨-, -, -, -, -, e0, e1, e2, -⟩ := idx_facts t
  show V m c main_v11 (((cfg0.win 2).blk t).view.emb (ix3 0 cc j)) = V m c main_v11 _
  congr 1
  funext a; apply Fin.ext
  match a with
  | ⟨0, _⟩ => show win0_2.index t (0 : Fin 3) * 1 + 1 * 0 = (t.val / 8) % 8; omega
  | ⟨1, _⟩ => show win0_2.index t (1 : Fin 3) * 1024 + 1 * cc.val = cc.val; omega
  | ⟨2, _⟩ => show win0_2.index t (2 : Fin 3) * 512 + 1 * j.val = (t.val % 8) * 512 + j.val; omega

theorem w3blk_apply (c : Dev nD) (t : Fin cfg0.N) (j : Fin 512) (d : Fin 1024) :
    w3blk m c t (ix3 0 j d) = V m c main_v12 (ix3 (ptExpert t) (ptUnit t j) d) := by
  obtain ⟨-, -, -, -, -, -, -, -, e0, e1, e2, -⟩ := idx_facts t
  show V m c main_v12 (((cfg0.win 3).blk t).view.emb (ix3 0 j d)) = V m c main_v12 _
  congr 1
  funext a; apply Fin.ext
  match a with
  | ⟨0, _⟩ => show win0_3.index t (0 : Fin 3) * 1 + 1 * 0 = (t.val / 8) % 8; omega
  | ⟨1, _⟩ => show win0_3.index t (1 : Fin 3) * 512 + 1 * j.val = (t.val % 8) * 512 + j.val; omega
  | ⟨2, _⟩ => show win0_3.index t (2 : Fin 3) * 1024 + 1 * d.val = d.val; omega

theorem awblk_apply (c : Dev nD) (t : Fin cfg0.N) (r : Fin 1024) (l : Fin 8) :
    awblk m c t (ix2 r l) = V m c main_v8 (ix2 (tokRow t r) l) := by
  obtain ⟨-, -, -, -, -, -, -, -, -, -, -, e0, e1, -⟩ := idx_facts t
  show V m c main_v8 (((cfg0.win 4).blk t).view.emb (ix2 r l)) = V m c main_v8 _
  congr 1
  funext a; apply Fin.ext
  match a with
  | ⟨0, _⟩ => show win0_4.index t (0 : Fin 2) * 1024 + 1 * r.val = (t.val / 64) * 1024 + r.val; omega
  | ⟨1, _⟩ => show win0_4.index t (1 : Fin 2) * 8 + 1 * l.val = l.val; omega

open Cert.Moe

/-- One grid point's contribution over blocks that read the arrays at the point's expert, hidden tile and token row: the
    tile's partial output times the row's weight for the expert. -/
theorem blkContrib_eq (xb : BX.Idx → EReal) (w1b w2b : BW.Idx → EReal) (w3b : BV.Idx → EReal) (awb : BA.Idx → EReal)
    (X : SX.Idx → EReal) (IDX : SI.Idx → BitVec 32) (WTS : SI.Idx → EReal) (W1 W2 : SW.Idx → EReal) (W3 : SV.Idx → EReal)
    (e f : Fin 8) (tr : Fin 2048) (r d : Fin 1024)
    (hx : ∀ cc : Fin 1024, xb (ix2 r cc) = X (ix2 tr cc))
    (hw1 : ∀ (cc : Fin 1024) (j : Fin 512), w1b (ix3 0 cc j) = W1 (ix3 e cc (tileUnit f j)))
    (hw2 : ∀ (cc : Fin 1024) (j : Fin 512), w2b (ix3 0 cc j) = W2 (ix3 e cc (tileUnit f j)))
    (hw3 : ∀ j : Fin 512, w3b (ix3 0 j d) = W3 (ix3 e (tileUnit f j) d))
    (haw : awb (ix2 r e) = assignW IDX WTS tr e) :
    blkContrib xb w1b w2b w3b awb e (ix2 r d) = partialOut X W1 W2 W3 e f tr d * assignW IDX WTS tr e := by
  have hp1 : ∀ j : Fin 512, blkProj xb w1b r j = proj X W1 e tr (tileUnit f j) := fun j =>
    Finset.sum_congr rfl (fun cc _ => by rw [hx, hw1])
  have hp2 : ∀ j : Fin 512, blkProj xb w2b r j = proj X W2 e tr (tileUnit f j) := fun j =>
    Finset.sum_congr rfl (fun cc _ => by rw [hx, hw2])
  show (∑ j : Fin 512, (blkProj xb w1b r j * Ideal.logistic (blkProj xb w1b r j) * blkProj xb w2b r j) * w3b (ix3 0 j d)) * awb (ix2 r e) = _
  rw [haw]
  congr 1
  exact Finset.sum_congr rfl (fun j _ => by rw [hp1, hp2, hw3]; rfl)

/-- The expert coordinate of a grid point. -/
theorem coords_e : ∀ t : Fin cfg0.N, ((grid0.coords t) 1).val = (t.val / 8) % 8 :=
  (by decide +kernel : ∀ t : Fin grid0.N, _)

/-- The argument arrays. -/
abbrev aX (c : Dev nD) : SX.Idx → EReal := m ((c : Thread nD τ).loc main_arg0)
abbrev aIdx (c : Dev nD) : SI.Idx → BitVec 32 := m ((c : Thread nD τ).loc main_arg1)
abbrev aWts (c : Dev nD) : SI.Idx → EReal := m ((c : Thread nD τ).loc main_arg2)
abbrev aW1 (c : Dev nD) : SW.Idx → EReal := m ((c : Thread nD τ).loc main_arg3)
abbrev aW2 (c : Dev nD) : SW.Idx → EReal := m ((c : Thread nD τ).loc main_arg4)
abbrev aW3 (c : Dev nD) : SV.Idx → EReal := m ((c : Thread nD τ).loc main_arg5)

/-- What point `t` adds to the accumulator: its blocks' contribution at the point's expert. -/
def contribAt (c : Dev nD) (t : Fin cfg0.N) : S1024x1024.Idx → EReal :=
  blkContrib (xblk m c t) (w1blk m c t) (w2blk m c t) (w3blk m c t) (awblk m c t) ⟨((grid0.coords t) 1).val, ((grid0.coords t) 1).isLt⟩

/-- A point's contribution over the argument arrays: the hidden tile's partial output of the point's expert for the token
    row, times the row's accumulated weight for that expert. -/
theorem contribAt_apply (c : Dev nD) (t : Fin cfg0.N) (r d : Fin 1024) :
    contribAt m c t (ix2 r d)
      = partialOut (aX m c) (aW1 m c) (aW2 m c) (aW3 m c) (ptExpert t) (ptTile t) (tokRow t r) d
        * assignW (aIdx m c) (aWts m c) (tokRow t r) (ptExpert t) := by
  have he : (⟨((grid0.coords t) 1).val, ((grid0.coords t) 1).isLt⟩ : Fin 8) = ptExpert t := Fin.ext (coords_e t)
  unfold contribAt
  rw [he]
  exact blkContrib_eq (xblk m c t) (w1blk m c t) (w2blk m c t) (w3blk m c t) (awblk m c t)
    (aX m c) (aIdx m c) (aWts m c) (aW1 m c) (aW2 m c) (aW3 m c) (ptExpert t) (ptTile t) (tokRow t r) r d
    (fun cc => (xblk_apply m c t r cc).trans (congrFun (KHost.V_x m c) _))
    (fun cc j => (w1blk_apply m c t cc j).trans (congrFun (KHost.V_w1 m c) _))
    (fun cc j => (w2blk_apply m c t cc j).trans (congrFun (KHost.V_w2 m c) _))
    (fun j => (w3blk_apply m c t j d).trans (congrFun (KHost.V_w3 m c) _))
    ((awblk_apply m c t r (ptExpert t)).trans (congrFun (KHost.V_aw m c) _))

/-- Point `n`'s contribution as a function of every natural (zero past the grid). -/
def contribN (c : Dev nD) (n : ℕ) : S1024x1024.Idx → EReal :=
  if h : n < cfg0.N then contribAt m c ⟨n, h⟩ else fun _ => 0

/-- At the first point of a token tile the accumulator is reset: the point leaves zero plus its contribution. -/
theorem scAt_reset (c : Dev nD) (n : ℕ) (hb : n < cfg0.N) (h0 : n % 64 = 0) (acc : Vec Ideal S1024x1024 .f32) (y : S1024x1024.Idx) :
    scAt0_0 m c n hb acc y = 0 + contribN m c n y := by
  have h1 : ¬ n % 64 = 63 := by omega
  unfold scAt0_0
  rw [dif_pos h0, dif_neg h1, KPieces.sout_A, KPay.pay_step, KPay.pay_zero]
  unfold contribN
  rw [dif_pos hb]
  rfl

/-- At every other point the accumulator gains the point's contribution. -/
theorem scAt_step (c : Dev nD) (n : ℕ) (hb : n < cfg0.N) (h0 : ¬ n % 64 = 0) (acc : Vec Ideal S1024x1024 .f32) (y : S1024x1024.Idx) :
    scAt0_0 m c n hb acc y = acc y + contribN m c n y := by
  unfold scAt0_0
  rw [dif_neg h0]
  by_cases h1 : n % 64 = 63
  · rw [dif_pos h1, KPieces.sout_C, KPay.pay_step]
    unfold contribN
    rw [dif_pos hb]
    rfl
  · rw [dif_neg h1, KPieces.sout_B, KPay.pay_step]
    unfold contribN
    rw [dif_pos hb]
    rfl

/-- The accumulator after point `n`: the contributions of the points from the token tile's first up to `n`, summed. -/
theorem acc_eq (c : Dev nD) (n : ℕ) (h : n < cfg0.N) (y : S1024x1024.Idx) :
    (outsAt0 m c n h).2 y = 0 + ∑ s ∈ Finset.range (n % 64 + 1), contribN m c (64 * (n / 64) + s) y :=
  (congrFun (soutsAt0_0_eq m c ⟨n, h⟩) y).trans
    (Pipeline.accAt_add_apply (fun n h => scAt0_0 m c n h (VS0_0.read (Elt Ideal) VS0_0.junk)) (scAt0_0 m c)
      (fun _ => 0) (contribN m c) (64 * (n / 64)) 63
      (fun hb i => scAt_reset m c (64 * (n / 64)) hb (by omega) _ i)
      (fun k hk acc i hlt hle => scAt_step m c k hk (by omega) acc i)
      (n % 64) (by omega) _ y)

/-- One step's contribution over the argument arrays, at the step's expert and hidden tile. -/
theorem term_eq (c : Dev nD) (q : ℕ) (hq : q < 2) (n : Fin 64) (r d : Fin 1024) :
    contribN m c (64 * q + n.val) (ix2 r d)
      = partialOut (aX m c) (aW1 m c) (aW2 m c) (aW3 m c) (stepExpert n) (stepTile n) ⟨q * 1024 + r.val, by have := r.isLt; omega⟩ d
        * assignW (aIdx m c) (aWts m c) ⟨q * 1024 + r.val, by have := r.isLt; omega⟩ (stepExpert n) := by
  have hn : n.val < 64 := n.isLt
  have h : 64 * q + n.val < cfg0.N := by rw [show cfg0.N = 128 from N_0]; omega
  have he : ptExpert ⟨64 * q + n.val, h⟩ = stepExpert n := Fin.ext (by show (64 * q + n.val) / 8 % 8 = n.val / 8; omega)
  have hf : ptTile ⟨64 * q + n.val, h⟩ = stepTile n := Fin.ext (by show (64 * q + n.val) % 8 = n.val % 8; omega)
  have hr : tokRow ⟨64 * q + n.val, h⟩ r = ⟨q * 1024 + r.val, by have := r.isLt; omega⟩ :=
    Fin.ext (by show (64 * q + n.val) / 64 * 1024 + r.val = q * 1024 + r.val; have : (64 * q + n.val) / 64 = q := by omega
                rw [this])
  unfold contribN
  rw [dif_pos h, contribAt_apply, he, hf, hr]

/-- The 64 steps of a token tile's sweep, summed, are the specification's form at the tile's rows. -/
theorem sweep_sum (c : Dev nD) (q : ℕ) (hq : q < 2) (r d : Fin 1024) :
    ∑ s ∈ Finset.range 64, contribN m c (64 * q + s) (ix2 r d)
      = kform (aX m c) (aIdx m c) (aWts m c) (aW1 m c) (aW2 m c) (aW3 m c) (ix2 ⟨q * 1024 + r.val, by have := r.isLt; omega⟩ d) := by
  rw [Finset.sum_range]
  exact Finset.sum_congr rfl (fun n _ => term_eq m c q hq n r d)

/-- What a token tile's last point writes back is the block of the specification's form. -/
theorem flushed_eq (c : Dev nD) (t : Fin cfg0.N) (hf : (cfg0.win 5).flush t = true) :
    (dats m 0 c).flushed 5 t
      = ((cfg0.win 5).blk t).view.read (Elt Ideal) (kform (aX m c) (aIdx m c) (aWts m c) (aW1 m c) (aW2 m c) (aW3 m c)) := by
  have hN : t.val < 128 := t_lt t
  have h63 : t.val % 64 = 63 := (flush0_5 t).mp hf
  have h0 : ¬ t.val % 64 = 0 := by omega
  rw [flushed5_C m c t h0 h63, KPieces.out_C, KPay.pay_step]
  funext j
  have hj0 : (j 0).val < 1024 := (j 0).isLt
  have hj1 : (j 1).val < 1024 := (j 1).isLt
  obtain ⟨-, -, -, -, -, -, -, -, -, -, -, -, -, e0, e1⟩ := idx_facts t
  have hx : (cfg0.win 5).xinj (grid0.coords t) j = ix2 (⟨(j 0).val, hj0⟩ : Fin 1024) (⟨(j 1).val, hj1⟩ : Fin 1024) :=
    funext fun a => by match a with | ⟨0, _⟩ => rfl | ⟨1, _⟩ => rfl
  have hemb : ((cfg0.win 5).blk t).view.emb j = ix2 (tokRow t ⟨(j 0).val, hj0⟩) (⟨(j 1).val, hj1⟩ : Fin 1024) := by
    funext a; apply Fin.ext
    match a with
    | ⟨0, _⟩ => show win0_5.index t (0 : Fin 2) * 1024 + 1 * (j 0).val = (t.val / 64) * 1024 + (j 0).val; omega
    | ⟨1, _⟩ => show win0_5.index t (1 : Fin 2) * 1024 + 1 * (j 1).val = (j 1).val; omega
  show (fun y => _ + _) ((cfg0.win 5).xinj (grid0.coords t) j) = kform _ _ _ _ _ _ (((cfg0.win 5).blk t).view.emb j)
  rw [hx, hemb]
  have h1 : t.val - 1 < cfg0.N := Nat.lt_of_le_of_lt (Nat.sub_le _ _) t.isLt
  have hacc := acc_eq m c (t.val - 1) h1 (ix2 (⟨(j 0).val, hj0⟩ : Fin 1024) (⟨(j 1).val, hj1⟩ : Fin 1024))
  rw [show (t.val - 1) % 64 + 1 = 63 from by omega, show (t.val - 1) / 64 = t.val / 64 from by omega, zero_add] at hacc
  have hlast : 64 * (t.val / 64) + 63 < cfg0.N := lt_of_lt_of_eq (by omega : 64 * (t.val / 64) + 63 < 128) (show (128 : ℕ) = cfg0.N from N_0.symm)
  have ht : (⟨64 * (t.val / 64) + 63, hlast⟩ : Fin cfg0.N) = t := Fin.ext (by show 64 * (t.val / 64) + 63 = t.val; omega)
  have hc : contribAt m c t (ix2 (⟨(j 0).val, hj0⟩ : Fin 1024) (⟨(j 1).val, hj1⟩ : Fin 1024))
      = contribN m c (64 * (t.val / 64) + 63) (ix2 (⟨(j 0).val, hj0⟩ : Fin 1024) (⟨(j 1).val, hj1⟩ : Fin 1024)) := by
    unfold contribN; rw [dif_pos hlast, ht]
  show (outsAt0 m c (t.val - 1) _).2 _ + contribAt m c t _ = _
  rw [hacc, hc, ← Finset.sum_range_succ (fun s => contribN m c (64 * (t.val / 64) + s) (ix2 (⟨(j 0).val, hj0⟩ : Fin 1024) (⟨(j 1).val, hj1⟩ : Fin 1024))) 63,
    sweep_sum m c (t.val / 64) (by omega) ⟨(j 0).val, hj0⟩ ⟨(j 1).val, hj1⟩]

/-- An index of the result array is in point `t`'s block iff each coordinate is in the block's range on its axis. -/
theorem mem_blk (t : Fin cfg0.N) (i : S2048x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v13).slice (win0_5.rect t)).set ↔ _
  rw [View.set_slice_whole, Rect.mem_set_unit]
  exact Iff.rfl

/-- The result array after the run: the specification's form of the argument arrays (row `R` is written by the last point of
    token tile `R / 1024`). -/
theorem final (c : Dev nD) :
    (dats m 0 c).arrAt 5 cfg0.N = kform (aX m c) (aIdx m c) (aWts m c) (aW1 m c) (aW2 m c) (aW3 m c) :=
  (dats m 0 c).arrAt_eq_of_cover 5 (kform (aX m c) (aIdx m c) (aWts m c) (aW1 m c) (aW2 m c) (aW3 m c))
    (fun t hf => flushed_eq m c t hf) (fun i => by
      have hi0 : (i 0).val < 2048 := (i 0).isLt
      have hi1 : (i 1).val < 1024 := (i 1).isLt
      have hlt : 64 * ((i 0).val / 1024) + 63 < cfg0.N := by rw [show cfg0.N = 128 from N_0]; omega
      refine ⟨⟨64 * ((i 0).val / 1024) + 63, hlt⟩, (flush0_5 _).mpr (by show (64 * ((i 0).val / 1024) + 63) % 64 = 63; omega), ?_⟩
      rw [mem_blk]
      obtain ⟨-, -, -, -, -, -, -, -, -, -, -, -, -, e0, e1⟩ := idx_facts ⟨64 * ((i 0).val / 1024) + 63, hlt⟩
      have e0' : win0_5.index ⟨64 * ((i 0).val / 1024) + 63, hlt⟩ (0 : Fin 2) = (64 * ((i 0).val / 1024) + 63) / 64 := e0
      intro a
      match a with
      | ⟨0, _⟩ =>
        show win0_5.index ⟨64 * ((i 0).val / 1024) + 63, hlt⟩ (0 : Fin 2) * 1024 ≤ (i 0).val ∧ (i 0).val < win0_5.index ⟨64 * ((i 0).val / 1024) + 63, hlt⟩ (0 : Fin 2) * 1024 + 1024
        omega
      | ⟨1, _⟩ =>
        show win0_5.index ⟨64 * ((i 0).val / 1024) + 63, hlt⟩ (1 : Fin 2) * 1024 ≤ (i 1).val ∧ (i 1).val < win0_5.index ⟨64 * ((i 0).val / 1024) + 63, hlt⟩ (1 : Fin 2) * 1024 + 1024
        omega)

/-- The run, read: the result buffer holds the specification's form of the argument arrays, the arguments unchanged. -/
theorem run : θ_run (defs (F := Ideal)) (onTc (τ := τ) (main (F := Ideal))) ⟨m, fun _ => 0, ρ⟩ fun r => ∀ c : Dev nD,
      r.2.mem ((c : Thread nD τ).loc main_v13) = Cert.Moe.kform (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KValue
end
-- ==== Proof.RefDefs.lean ====
/-
  The reference's result as ONE pure term of its six argument arrays, in named stages: the operations of its
  host program composed in program order, nothing evaluated.

  Stages: the 4096 (token, slot) assignments flattened (`flatE`, `flatW`, `tokIdx`); the stable argsort of the
  expert words (`order`) and the three arrays read through it (`sTok`, `sE`, `sW`); the per-expert counts, their
  running sum shifted by one (`segStarts`) and each sorted assignment's position inside its expert's segment
  (`pos`); the token rows scattered into the per-expert buffer at (expert, position) (`padded`); the gated
  feed-forward network applied to every row of that buffer (`expertOut`); the rows read back at the same
  (expert, position) pairs and weighted (`weighted`); and their sum per token (`refOut`).
-/
import proofs.«430784_j18451179504159_2_alg».proof.Proof.Gen.ReferenceIdeal

noncomputable section

namespace Cert.ReferenceIdeal.RefValue

open Idealize.ShloMosaic Cert.ReferenceIdeal Cert.ReferenceIdeal.Facts₀

variable {F : FTy → Type} [FloatOps F]

/-- An integer constant spread over the 4096 assignments. -/
def splat4096 (n : BitVec 32) : IVec S4096 32 := broadcastInDim S4096 ![] bcast_S_S4096 (constantI S_ 32 n)

/-- Index normalisation: a negative index has the axis length `n` added. -/
def wrapIdx (n : BitVec 32) (v : IVec S4096 32) : IVec S4096 32 :=
  select (cmpi .slt v (splat4096 0#32)) (addi v (splat4096 n)) v

/-- A vector of indices as a column of start indices. -/
def col (v : IVec S4096 32) : IVec S4096x1 32 := broadcastInDim S4096x1 ![0] bcast_S4096_S4096x1_0 v

/-- The expert words of the 4096 assignments, assignment 2·t + k being slot k of token t. -/
def flatE (a1 : IVec S2048x2 32) : IVec S4096 32 := shapeCast S4096 a1 shapeCasts_S2048x2_S4096

/-- The weights of the 4096 assignments. -/
def flatW (a2 : FVec F S2048x2 .f32) : FVec F S4096 .f32 := shapeCast S4096 a2 shapeCasts_S2048x2_S4096

/-- The token of each assignment. -/
def tokIdx : IVec S4096 32 :=
  shapeCast S4096 (broadcastInDim S2048x2 ![0] bcast_S2048_S2048x2_0 (iotaInDim S2048 32 0)) shapeCasts_S2048x2_S4096

/-- The stable argsort of the expert words: entry i is the assignment that sorts to place i. -/
def order (a1 : IVec S2048x2 32) : IVec S4096 32 :=
  (Host.sort2 S4096 0 comparator_i32_i32_d0 (flatE a1) (iotaInDim S4096 32 0)).2

/-- A flat array read at a vector of (normalised) indices. -/
def take4096 {α : Type} (x : S4096.Idx → α) (i : IVec S4096 32) : S4096.Idx → α :=
  Host.gather gather_S4096_S4096x1_S4096_n_0_n_n_0_1_1 x (col (wrapIdx 4096#32 i))

/-- Token, expert word and weight of the assignment at each sorted place. -/
def sTok (a1 : IVec S2048x2 32) : IVec S4096 32 := take4096 tokIdx (order a1)
def sE (a1 : IVec S2048x2 32) : IVec S4096 32 := take4096 (flatE a1) (order a1)
def sW (a1 : IVec S2048x2 32) (a2 : FVec F S2048x2 .f32) : FVec F S4096 .f32 := take4096 (flatW a2) (order a1)

/-- How many assignments name each expert (words clipped below at 0). -/
def counts (a1 : IVec S2048x2 32) : IVec S8 32 :=
  Host.scatter scatter_S8_S4096x1_S4096_n_0_0_1 IntOp.addi (broadcastInDim S8 ![] bcast_S_S8 (constantI S_ 32 0#32))
    (col (wrapIdx 8#32 (maxsi (splat4096 0#32) (flatE a1)))) (splat4096 1#32)

/-- The running sum of eight counts. -/
def cumsum (c : IVec S8 32) : IVec S8 32 :=
  Host.reduceWindow IntOp.addi ![8] ![1] ![7] ![0] c (broadcastInDim S_ ![] bcast_S_S_ (constantI S_ 32 0#32))
    reduceWindows_S8_S8_w8s1p7_0 h_S_

/-- Where each expert's segment of the sorted assignments starts: 0, then the running sums but the last. -/
def segStarts (a1 : IVec S2048x2 32) : IVec S8 32 :=
  concatenate S8 0 [⟨S1, broadcastInDim S1 ![] bcast_S_S1 (constantI S_ 32 0#32)⟩,
    ⟨S7, extractStridedSlice S7 ![0] (cumsum (counts a1)) slices_S8_S7_0⟩] concatenates_S1_S7_S8_d0

/-- Each sorted place's position inside its expert's segment. -/
def pos (a1 : IVec S2048x2 32) : IVec S4096 32 :=
  subi (iotaInDim S4096 32 0)
    (Host.gather gather_S8_S4096x1_S4096_n_0_n_n_0_1_1 (segStarts a1) (col (wrapIdx 8#32 (sE a1))))

/-- The token rows of the sorted assignments. -/
def rowsX (a0 : FVec F S2048x1024 .f32) (a1 : IVec S2048x2 32) : FVec F S4096x1024 .f32 :=
  Host.gather gather_S2048x1024_S4096x1_S4096x1024_1_0_n_n_0_1_11024 a0 (col (wrapIdx 2048#32 (sTok a1)))

/-- The (expert, position) pair of each sorted place, as a two-column index array. -/
def slot (a1 : IVec S2048x2 32) : IVec S4096x2 32 :=
  concatenate S4096x2 1 [⟨S4096x1, col (wrapIdx 8#32 (sE a1))⟩, ⟨S4096x1, col (wrapIdx 4096#32 (pos a1))⟩]
    concatenates_S4096x1_S4096x1_S4096x2_d1

/-- The per-expert buffer: zeros, with each sorted assignment's token row written at its (expert, position). -/
def padded (a0 : FVec F S2048x1024 .f32) (a1 : IVec S2048x2 32) : FVec F S8x4096x1024 .f32 :=
  Host.scatter scatter_S8x4096x1024_S4096x2_S4096x1024_1_01_01_1 (fun _ b => b)
    (broadcastInDim S8x4096x1024 ![] bcast_S_S8x4096x1024 (constant S_ .f32 0x00000000#32)) (slot a1) (rowsX a0 a1)

/-- g · (1 / (1 + exp (−g))), elementwise. -/
def silu (g : FVec F S8x4096x4096 .f32) : FVec F S8x4096x4096 .f32 :=
  mulf g (Host.divf (broadcastInDim S8x4096x4096 ![] bcast_S_S8x4096x4096 (constant S_ .f32 0x3F800000#32))
    (addf (broadcastInDim S8x4096x4096 ![] bcast_S_S8x4096x4096 (constant S_ .f32 0x3F800000#32)) (Host.exp (Host.negf g))))

/-- The gated feed-forward network applied to every row of the per-expert buffer. -/
def expertOut (a0 : FVec F S2048x1024 .f32) (a1 : IVec S2048x2 32) (a3 a4 : FVec F S8x1024x4096 .f32) (a5 : FVec F S8x4096x1024 .f32) :
    FVec F S8x4096x1024 .f32 :=
  Host.dotGeneral dot_S8x4096x4096_S8x4096x1024_S8x4096x1024_2_1_1_2_0_0 none
    (mulf (silu (Host.dotGeneral dot_S8x4096x1024_S8x1024x4096_S8x4096x4096_2_1_1_2_0_0 none (padded a0 a1) a3))
      (Host.dotGeneral dot_S8x4096x1024_S8x1024x4096_S8x4096x4096_2_1_1_2_0_0 none (padded a0 a1) a4))
    a5

/-- Each sorted assignment's expert output row, times its weight. -/
def weighted (a0 : FVec F S2048x1024 .f32) (a1 : IVec S2048x2 32) (a2 : FVec F S2048x2 .f32) (a3 a4 : FVec F S8x1024x4096 .f32)
    (a5 : FVec F S8x4096x1024 .f32) : FVec F S4096x1024 .f32 :=
  mulf (Host.gather gather_S8x4096x1024_S4096x2_S4096x1024_1_01_n_n_01_1_111024 (expertOut a0 a1 a3 a4 a5) (slot a1))
    (broadcastInDim S4096x1024 ![0, 1] bcast_S4096x1_S4096x1024_0_1 (broadcastInDim S4096x1 ![0] bcast_S4096_S4096x1_0 (sW a1 a2)))

/-- The reference's result: zeros, with every sorted assignment's weighted row added at its token. -/
def refOut (a0 : FVec F S2048x1024 .f32) (a1 : IVec S2048x2 32) (a2 : FVec F S2048x2 .f32) (a3 a4 : FVec F S8x1024x4096 .f32)
    (a5 : FVec F S8x4096x1024 .f32) : FVec F S2048x1024 .f32 :=
  Host.scatterAdd scatter_S2048x1024_S4096x1_S4096x1024_1_0_0_1
    (broadcastInDim S2048x1024 ![] bcast_S_S2048x1024 (constant S_ .f32 0x00000000#32)) (col (wrapIdx 2048#32 (sTok a1)))
    (weighted a0 a1 a2 a3 a4 a5)

end Cert.ReferenceIdeal.RefValue

end
-- ==== Proof.RefRun.lean ====
/-
  The reference's run. The reference is a host program of StableHLO operations only: its @main is a
  straight line of 144 operations once the four outlined functions (the stable argsort, the clip, the running sum
  with its inner call, the silu) are unfolded at their call sites over the calls' buffer records. The three
  windows of @main are three lists of operations; the fold of their results over the launch contents, read at the
  result buffer, is the staged term `RefValue.refOut` of the six argument arrays, and every argument buffer keeps
  its contents.
-/
import proofs.«430784_j18451179504159_2_alg».proof.Proof.RefDefs
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The operations of @main's first window (statements 1 … 60), the calls of the argsort, the clip and the running sum unfolded. -/
abbrev ops0 : List (HloOp τ sig (Elt F)) :=
  [ StableHlo.reshape main_arg1 main_v0 rfl shapeCasts_S2048x2_S4096,
    StableHlo.reshape main_arg2 main_v1 rfl shapeCasts_S2048x2_S4096,
    StableHlo.nullary main_v2 (iotaInDim S2048 32 0),
    StableHlo.unary main_v2 main_v3 (broadcastInDim S2048x2 ![0] bcast_S2048_S2048x2_0 : (⟨S2048, .i32⟩ : BufTy).Contents (Elt F) → (⟨S2048x2, .i32⟩ : BufTy).Contents (Elt F)),
    StableHlo.reshape main_v3 main_v4 rfl shapeCasts_S2048x2_S4096,
    StableHlo.TRef.nullary main_call0.v0 (iotaInDim S4096 32 0),
    StableHlo.TRef.binary (.of main_v0) main_call0.v0 main_call0.v1_0 (fun x y => (Host.sort2 S4096 0 comparator_i32_i32_d0 x y).1),
    StableHlo.TRef.binary (.of main_v0) main_call0.v0 main_call0.v1_1 (fun x y => (Host.sort2 S4096 0 comparator_i32_i32_d0 x y).2),
    StableHlo.nullary main_c (constantI S_ 32 0#32),
    StableHlo.unary main_c main_v6 (broadcastInDim S4096 ![] bcast_S_S4096 : (⟨S_, .i32⟩ : BufTy).Contents (Elt F) → (⟨S4096, .i32⟩ : BufTy).Contents (Elt F)),
    StableHlo.binary main_v5 main_v6 main_v7 (cmpi .slt : (⟨S4096, .i32⟩ : BufTy).Contents (Elt F) → (⟨S4096, .i32⟩ : BufTy).Contents (Elt F) → (⟨S4096, .i1⟩ : BufTy).Contents (Elt F)),
    StableHlo.nullary main_c_0 (constantI S_ 32 4096#32),
    StableHlo.unary main_c_0 main_v8 (broadcastInDim S4096 ![] bcast_S_S4096 : (⟨S_, .i32⟩ : BufTy).Contents (Elt F) → (⟨S4096, .i32⟩ : BufTy).Contents (Elt F)),
    StableHlo.binary main_v5 main_v8 main_v9 (addi : (⟨S4096, .i32⟩ : BufTy).Contents (Elt F) → (⟨S4096, .i32⟩ : BufTy).Contents (Elt F) → (⟨S4096, .i32⟩ : BufTy).Contents (Elt F)),
    StableHlo.ternary main_v7 main_v9 main_v5 main_v10 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v10 main_v11 (broadcastInDim S4096x1 ![0] bcast_S4096_S4096x1_0 : (⟨S4096, .i32⟩ : BufTy).Contents (Elt F) → (⟨S4096x1, .i32⟩ : BufTy).Contents (Elt F)),
    StableHlo.binary main_v4 main_v11 main_v12 ((fun x i => Host.gather gather_S4096_S4096x1_S4096_n_0_n_n_0_1_1 x i) : (⟨S4096, .i32⟩ : BufTy).Contents (Elt F) → (⟨S4096x1, .i32⟩ : BufTy).Contents (Elt F) → (⟨S4096, .i32⟩ : BufTy).Contents (Elt F)),
    StableHlo.nullary main_c_1 (constantI S_ 32 0#32),
    StableHlo.unary main_c_1 main_v13 (broadcastInDim S4096 ![] bcast_S_S4096 : (⟨S_, .i32⟩ : BufTy).Contents (Elt F) → (⟨S4096, .i32⟩ : BufTy).Contents (Elt F)),
    StableHlo.binary main_v5 main_v13 main_v14 (cmpi .slt : (⟨S4096, .i32⟩ : BufTy).Contents (Elt F) → (⟨S4096, .i32⟩ : BufTy).Contents (Elt F) → (⟨S4096, .i1⟩ : BufTy).Contents (Elt F)),
    StableHlo.nullary main_c_2 (constantI S_ 32 4096#32),
    StableHlo.unary main_c_2 main_v15 (broadcastInDim S4096 ![] bcast_S_S4096 : (⟨S_, .i32⟩ : BufTy).Contents (Elt F) → (⟨S4096, .i32⟩ : BufTy).Contents (Elt F)),
    StableHlo.binary main_v5 main_v15 main_v16 (addi : (⟨S4096, .i32⟩ : BufTy).Contents (Elt F) → (⟨S4096, .i32⟩ : BufTy).Contents (Elt F) → (⟨S4096, .i32⟩ : BufTy).Contents (Elt F)),
    StableHlo.ternary main_v14 main_v16 main_v5 main_v17 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v17 main_v18 (broadcastInDim S4096x1 ![0] bcast_S4096_S4096x1_0 : (⟨S4096, .i32⟩ : BufTy).Contents (Elt F) → (⟨S4096x1, .i32⟩ : BufTy).Contents (Elt F)),
    StableHlo.binary main_v0 main_v18 main_v19 ((fun x i => Host.gather gather_S4096_S4096x1_S4096_n_0_n_n_0_1_1 x i) : (⟨S4096, .i32⟩ : BufTy).Contents (Elt F) → (⟨S4096x1, .i32⟩ : BufTy).Contents (Elt F) → (⟨S4096, .i32⟩ : BufTy).Contents (Elt F)),
    StableHlo.nullary main_c_3 (constantI S_ 32 0#32),
    StableHlo.unary main_c_3 main_v20 (broadcastInDim S4096 ![] bcast_S_S4096 : (⟨S_, .i32⟩ : BufTy).Contents (Elt F) → (⟨S4096, .i32⟩ : BufTy).Contents (Elt F)),
    StableHlo.binary main_v5 main_v20 main_v21 (cmpi .slt : (⟨S4096, .i32⟩ : BufTy).Contents (Elt F) → (⟨S4096, .i32⟩ : BufTy).Contents (Elt F) → (⟨S4096, .i1⟩ : BufTy).Contents (Elt F)),
    StableHlo.nullary main_c_4 (constantI S_ 32 4096#32),
    StableHlo.unary main_c_4 main_v22 (broadcastInDim S4096 ![] bcast_S_S4096 : (⟨S_, .i32⟩ : BufTy).Contents (Elt F) → (⟨S4096, .i32⟩ : BufTy).Contents (Elt F)),
    StableHlo.binary main_v5 main_v22 main_v23 (addi : (⟨S4096, .i32⟩ : BufTy).Contents (Elt F) → (⟨S4096, .i32⟩ : BufTy).Contents (Elt F) → (⟨S4096, .i32⟩ : BufTy).Contents (Elt F)),
    StableHlo.ternary main_v21 main_v23 main_v5 main_v24 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v24 main_v25 (broadcastInDim S4096x1 ![0] bcast_S4096_S4096x1_0 : (⟨S4096, .i32⟩ : BufTy).Contents (Elt F) → (⟨S4096x1, .i32⟩ : BufTy).Contents (Elt F)),
    StableHlo.binary main_v1 main_v25 main_v26 ((fun x i => Host.gather gather_S4096_S4096x1_S4096_n_0_n_n_0_1_1 x i) : (⟨S4096, .f32⟩ : BufTy).Contents (Elt F) → (⟨S4096x1, .i32⟩ : BufTy).Contents (Elt F) → (⟨S4096, .f32⟩ : BufTy).Contents (Elt F)),
    StableHlo.nullary main_c_5 (constantI S_ 32 0#32),
    StableHlo.unary main_c_5 main_v27 (broadcastInDim S8 ![] bcast_S_S8 : (⟨S_, .i32⟩ : BufTy).Contents (Elt F) → (⟨S8, .i32⟩ : BufTy).Contents (Elt F)),
    StableHlo.nullary main_c_6 (constantI S_ 32 0#32),
    StableHlo.TRef.unary (.of main_c_6) main_call1.v0 id,
    StableHlo.TRef.unary main_call1.v0 main_call1.v1 (broadcastInDim S4096 ![] bcast_S_S4096),
    StableHlo.TRef.binary main_call1.v1 (.of main_v0) main_call1.v2 maxsi,
    StableHlo.nullary main_c_7 (constantI S_ 32 0#32),
    StableHlo.unary main_c_7 main_v29 (broadcastInDim S4096 ![] bcast_S_S4096 : (⟨S_, .i32⟩ : BufTy).Contents (Elt F) → (⟨S4096, .i32⟩ : BufTy).Contents (Elt F)),
    StableHlo.binary main_v28 main_v29 main_v30 (cmpi .slt : (⟨S4096, .i32⟩ : BufTy).Contents (Elt F) → (⟨S4096, .i32⟩ : BufTy).Contents (Elt F) → (⟨S4096, .i1⟩ : BufTy).Contents (Elt F)),
    StableHlo.nullary main_c_8 (constantI S_ 32 8#32),
    StableHlo.unary main_c_8 main_v31 (broadcastInDim S4096 ![] bcast_S_S4096 : (⟨S_, .i32⟩ : BufTy).Contents (Elt F) → (⟨S4096, .i32⟩ : BufTy).Contents (Elt F)),
    StableHlo.binary main_v28 main_v31 main_v32 (addi : (⟨S4096, .i32⟩ : BufTy).Contents (Elt F) → (⟨S4096, .i32⟩ : BufTy).Contents (Elt F) → (⟨S4096, .i32⟩ : BufTy).Contents (Elt F)),
    StableHlo.ternary main_v30 main_v32 main_v28 main_v33 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v33 main_v34 (broadcastInDim S4096x1 ![0] bcast_S4096_S4096x1_0 : (⟨S4096, .i32⟩ : BufTy).Contents (Elt F) → (⟨S4096x1, .i32⟩ : BufTy).Contents (Elt F)),
    StableHlo.nullary main_c_9 (constantI S_ 32 1#32),
    StableHlo.unary main_c_9 main_v35 (broadcastInDim S4096 ![] bcast_S_S4096 : (⟨S_, .i32⟩ : BufTy).Contents (Elt F) → (⟨S4096, .i32⟩ : BufTy).Contents (Elt F)),
    StableHlo.ternary main_v27 main_v34 main_v35 main_v36 ((fun x i u => Host.scatter scatter_S8_S4096x1_S4096_n_0_0_1 IntOp.addi x i u) : (⟨S8, .i32⟩ : BufTy).Contents (Elt F) → (⟨S4096x1, .i32⟩ : BufTy).Contents (Elt F) → (⟨S4096, .i32⟩ : BufTy).Contents (Elt F) → (⟨S8, .i32⟩ : BufTy).Contents (Elt F)),
    StableHlo.nullary main_c_10 (constantI S_ 32 0#32),
    StableHlo.unary main_c_10 main_v37 (broadcastInDim S1 ![] bcast_S_S1 : (⟨S_, .i32⟩ : BufTy).Contents (Elt F) → (⟨S1, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v36) main_call2.call0.v0 main_call2.call0.v1 (fun x v => Host.reduceWindow IntOp.addi ![8] ![1] ![7] ![0] x v reduceWindows_S8_S8_w8s1p7_0 h_S_),
    StableHlo.unary main_v38 main_v39 ((extractStridedSlice S7 ![0] · slices_S8_S7_0) : (⟨S8, .i32⟩ : BufTy).Contents (Elt F) → (⟨S7, .i32⟩ : BufTy).Contents (Elt F)),
    StableHlo.binary main_v37 main_v39 main_v40 ((fun a b => concatenate S8 0 [⟨S1, a⟩, ⟨S7, b⟩] concatenates_S1_S7_S8_d0) : (⟨S1, .i32⟩ : BufTy).Contents (Elt F) → (⟨S7, .i32⟩ : BufTy).Contents (Elt F) → (⟨S8, .i32⟩ : BufTy).Contents (Elt F)),
    StableHlo.nullary main_v41 (iotaInDim S4096 32 0),
    StableHlo.nullary main_c_11 (constantI S_ 32 0#32),
    StableHlo.unary main_c_11 main_v42 (broadcastInDim S4096 ![] bcast_S_S4096 : (⟨S_, .i32⟩ : BufTy).Contents (Elt F) → (⟨S4096, .i32⟩ : BufTy).Contents (Elt F)),
    StableHlo.binary main_v19 main_v42 main_v43 (cmpi .slt : (⟨S4096, .i32⟩ : BufTy).Contents (Elt F) → (⟨S4096, .i32⟩ : BufTy).Contents (Elt F) → (⟨S4096, .i1⟩ : BufTy).Contents (Elt F)),
    StableHlo.nullary main_c_12 (constantI S_ 32 8#32),
    StableHlo.unary main_c_12 main_v44 (broadcastInDim S4096 ![] bcast_S_S4096 : (⟨S_, .i32⟩ : BufTy).Contents (Elt F) → (⟨S4096, .i32⟩ : BufTy).Contents (Elt F)),
    StableHlo.binary main_v19 main_v44 main_v45 (addi : (⟨S4096, .i32⟩ : BufTy).Contents (Elt F) → (⟨S4096, .i32⟩ : BufTy).Contents (Elt F) → (⟨S4096, .i32⟩ : BufTy).Contents (Elt F)) ]

/-- The operations of @main's second window (statements 61 … 120), the call of the silu unfolded. -/
abbrev ops1 : List (HloOp τ sig (Elt F)) :=
  [ StableHlo.ternary main_v43 main_v45 main_v19 main_v46 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v46 main_v47 (broadcastInDim S4096x1 ![0] bcast_S4096_S4096x1_0 : (⟨S4096, .i32⟩ : BufTy).Contents (Elt F) → (⟨S4096x1, .i32⟩ : BufTy).Contents (Elt F)),
    StableHlo.binary main_v40 main_v47 main_v48 ((fun x i => Host.gather gather_S8_S4096x1_S4096_n_0_n_n_0_1_1 x i) : (⟨S8, .i32⟩ : BufTy).Contents (Elt F) → (⟨S4096x1, .i32⟩ : BufTy).Contents (Elt F) → (⟨S4096, .i32⟩ : BufTy).Contents (Elt F)),
    StableHlo.binary main_v41 main_v48 main_v49 (subi : (⟨S4096, .i32⟩ : BufTy).Contents (Elt F) → (⟨S4096, .i32⟩ : BufTy).Contents (Elt F) → (⟨S4096, .i32⟩ : BufTy).Contents (Elt F)),
    StableHlo.nullary main_cst (constant S_ .f32 0x00000000#32),
    StableHlo.unary main_cst main_v50 (broadcastInDim S8x4096x1024 ![] bcast_S_S8x4096x1024 : (⟨S_, .f32⟩ : BufTy).Contents (Elt F) → (⟨S8x4096x1024, .f32⟩ : BufTy).Contents (Elt F)),
    StableHlo.nullary main_c_13 (constantI S_ 32 0#32),
    StableHlo.unary main_c_13 main_v51 (broadcastInDim S4096 ![] bcast_S_S4096 : (⟨S_, .i32⟩ : BufTy).Contents (Elt F) → (⟨S4096, .i32⟩ : BufTy).Contents (Elt F)),
    StableHlo.binary main_v12 main_v51 main_v52 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 2048#32),
    StableHlo.unary main_c_14 main_v53 (broadcastInDim S4096 ![] bcast_S_S4096 : (⟨S_, .i32⟩ : BufTy).Contents (Elt F) → (⟨S4096, .i32⟩ : BufTy).Contents (Elt F)),
    StableHlo.binary main_v12 main_v53 main_v54 (addi : (⟨S4096, .i32⟩ : BufTy).Contents (Elt F) → (⟨S4096, .i32⟩ : BufTy).Contents (Elt F) → (⟨S4096, .i32⟩ : BufTy).Contents (Elt F)),
    StableHlo.ternary main_v52 main_v54 main_v12 main_v55 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v55 main_v56 (broadcastInDim S4096x1 ![0] bcast_S4096_S4096x1_0 : (⟨S4096, .i32⟩ : BufTy).Contents (Elt F) → (⟨S4096x1, .i32⟩ : BufTy).Contents (Elt F)),
    StableHlo.binary main_arg0 main_v56 main_v57 ((fun x i => Host.gather gather_S2048x1024_S4096x1_S4096x1024_1_0_n_n_0_1_11024 x i) : (⟨S2048x1024, .f32⟩ : BufTy).Contents (Elt F) → (⟨S4096x1, .i32⟩ : BufTy).Contents (Elt F) → (⟨S4096x1024, .f32⟩ : BufTy).Contents (Elt F)),
    StableHlo.nullary main_c_15 (constantI S_ 32 0#32),
    StableHlo.unary main_c_15 main_v58 (broadcastInDim S4096 ![] bcast_S_S4096 : (⟨S_, .i32⟩ : BufTy).Contents (Elt F) → (⟨S4096, .i32⟩ : BufTy).Contents (Elt F)),
    StableHlo.binary main_v19 main_v58 main_v59 (cmpi .slt : (⟨S4096, .i32⟩ : BufTy).Contents (Elt F) → (⟨S4096, .i32⟩ : BufTy).Contents (Elt F) → (⟨S4096, .i1⟩ : BufTy).Contents (Elt F)),
    StableHlo.nullary main_c_16 (constantI S_ 32 8#32),
    StableHlo.unary main_c_16 main_v60 (broadcastInDim S4096 ![] bcast_S_S4096 : (⟨S_, .i32⟩ : BufTy).Contents (Elt F) → (⟨S4096, .i32⟩ : BufTy).Contents (Elt F)),
    StableHlo.binary main_v19 main_v60 main_v61 (addi : (⟨S4096, .i32⟩ : BufTy).Contents (Elt F) → (⟨S4096, .i32⟩ : BufTy).Contents (Elt F) → (⟨S4096, .i32⟩ : BufTy).Contents (Elt F)),
    StableHlo.ternary main_v59 main_v61 main_v19 main_v62 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_17 (constantI S_ 32 0#32),
    StableHlo.unary main_c_17 main_v63 (broadcastInDim S4096 ![] bcast_S_S4096 : (⟨S_, .i32⟩ : BufTy).Contents (Elt F) → (⟨S4096, .i32⟩ : BufTy).Contents (Elt F)),
    StableHlo.binary main_v49 main_v63 main_v64 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 4096#32),
    StableHlo.unary main_c_18 main_v65 (broadcastInDim S4096 ![] bcast_S_S4096 : (⟨S_, .i32⟩ : BufTy).Contents (Elt F) → (⟨S4096, .i32⟩ : BufTy).Contents (Elt F)),
    StableHlo.binary main_v49 main_v65 main_v66 (addi : (⟨S4096, .i32⟩ : BufTy).Contents (Elt F) → (⟨S4096, .i32⟩ : BufTy).Contents (Elt F) → (⟨S4096, .i32⟩ : BufTy).Contents (Elt F)),
    StableHlo.ternary main_v64 main_v66 main_v49 main_v67 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v62 main_v68 (broadcastInDim S4096x1 ![0] bcast_S4096_S4096x1_0 : (⟨S4096, .i32⟩ : BufTy).Contents (Elt F) → (⟨S4096x1, .i32⟩ : BufTy).Contents (Elt F)),
    StableHlo.unary main_v67 main_v69 (broadcastInDim S4096x1 ![0] bcast_S4096_S4096x1_0 : (⟨S4096, .i32⟩ : BufTy).Contents (Elt F) → (⟨S4096x1, .i32⟩ : BufTy).Contents (Elt F)),
    StableHlo.binary main_v68 main_v69 main_v70 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.ternary main_v50 main_v70 main_v57 main_v71 ((fun x i u => Host.scatter scatter_S8x4096x1024_S4096x2_S4096x1024_1_01_01_1 (fun _ b => b) x i u) : (⟨S8x4096x1024, .f32⟩ : BufTy).Contents (Elt F) → (⟨S4096x2, .i32⟩ : BufTy).Contents (Elt F) → (⟨S4096x1024, .f32⟩ : BufTy).Contents (Elt F) → (⟨S8x4096x1024, .f32⟩ : BufTy).Contents (Elt F)),
    StableHlo.binary main_v71 main_arg3 main_v72 ((fun l r => Host.dotGeneral dot_S8x4096x1024_S8x1024x4096_S8x4096x4096_2_1_1_2_0_0 none l r) : (⟨S8x4096x1024, .f32⟩ : BufTy).Contents (Elt F) → (⟨S8x1024x4096, .f32⟩ : BufTy).Contents (Elt F) → (⟨S8x4096x4096, .f32⟩ : BufTy).Contents (Elt F)),
    StableHlo.TRef.unary (.of main_v72) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S8x4096x4096 ![] bcast_S_S8x4096x4096),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S8x4096x4096 ![] bcast_S_S8x4096x4096),
    StableHlo.TRef.binary main_call3.v4 main_call3.v3 main_call3.v5 Host.divf,
    StableHlo.TRef.binary (.of main_v72) main_call3.v5 main_call3.v6 mulf,
    StableHlo.binary main_v71 main_arg4 main_v74 ((fun l r => Host.dotGeneral dot_S8x4096x1024_S8x1024x4096_S8x4096x4096_2_1_1_2_0_0 none l r) : (⟨S8x4096x1024, .f32⟩ : BufTy).Contents (Elt F) → (⟨S8x1024x4096, .f32⟩ : BufTy).Contents (Elt F) → (⟨S8x4096x4096, .f32⟩ : BufTy).Contents (Elt F)),
    StableHlo.binary main_v73 main_v74 main_v75 (mulf : (⟨S8x4096x4096, .f32⟩ : BufTy).Contents (Elt F) → (⟨S8x4096x4096, .f32⟩ : BufTy).Contents (Elt F) → (⟨S8x4096x4096, .f32⟩ : BufTy).Contents (Elt F)),
    StableHlo.binary main_v75 main_arg5 main_v76 ((fun l r => Host.dotGeneral dot_S8x4096x4096_S8x4096x1024_S8x4096x1024_2_1_1_2_0_0 none l r) : (⟨S8x4096x4096, .f32⟩ : BufTy).Contents (Elt F) → (⟨S8x4096x1024, .f32⟩ : BufTy).Contents (Elt F) → (⟨S8x4096x1024, .f32⟩ : BufTy).Contents (Elt F)),
    StableHlo.nullary main_c_19 (constantI S_ 32 0#32),
    StableHlo.unary main_c_19 main_v77 (broadcastInDim S4096 ![] bcast_S_S4096 : (⟨S_, .i32⟩ : BufTy).Contents (Elt F) → (⟨S4096, .i32⟩ : BufTy).Contents (Elt F)),
    StableHlo.binary main_v19 main_v77 main_v78 (cmpi .slt : (⟨S4096, .i32⟩ : BufTy).Contents (Elt F) → (⟨S4096, .i32⟩ : BufTy).Contents (Elt F) → (⟨S4096, .i1⟩ : BufTy).Contents (Elt F)),
    StableHlo.nullary main_c_20 (constantI S_ 32 8#32),
    StableHlo.unary main_c_20 main_v79 (broadcastInDim S4096 ![] bcast_S_S4096 : (⟨S_, .i32⟩ : BufTy).Contents (Elt F) → (⟨S4096, .i32⟩ : BufTy).Contents (Elt F)),
    StableHlo.binary main_v19 main_v79 main_v80 (addi : (⟨S4096, .i32⟩ : BufTy).Contents (Elt F) → (⟨S4096, .i32⟩ : BufTy).Contents (Elt F) → (⟨S4096, .i32⟩ : BufTy).Contents (Elt F)),
    StableHlo.ternary main_v78 main_v80 main_v19 main_v81 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_21 (constantI S_ 32 0#32),
    StableHlo.unary main_c_21 main_v82 (broadcastInDim S4096 ![] bcast_S_S4096 : (⟨S_, .i32⟩ : BufTy).Contents (Elt F) → (⟨S4096, .i32⟩ : BufTy).Contents (Elt F)),
    StableHlo.binary main_v49 main_v82 main_v83 (cmpi .slt : (⟨S4096, .i32⟩ : BufTy).Contents (Elt F) → (⟨S4096, .i32⟩ : BufTy).Contents (Elt F) → (⟨S4096, .i1⟩ : BufTy).Contents (Elt F)),
    StableHlo.nullary main_c_22 (constantI S_ 32 4096#32),
    StableHlo.unary main_c_22 main_v84 (broadcastInDim S4096 ![] bcast_S_S4096 : (⟨S_, .i32⟩ : BufTy).Contents (Elt F) → (⟨S4096, .i32⟩ : BufTy).Contents (Elt F)),
    StableHlo.binary main_v49 main_v84 main_v85 (addi : (⟨S4096, .i32⟩ : BufTy).Contents (Elt F) → (⟨S4096, .i32⟩ : BufTy).Contents (Elt F) → (⟨S4096, .i32⟩ : BufTy).Contents (Elt F)),
    StableHlo.ternary main_v83 main_v85 main_v49 main_v86 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v81 main_v87 (broadcastInDim S4096x1 ![0] bcast_S4096_S4096x1_0 : (⟨S4096, .i32⟩ : BufTy).Contents (Elt F) → (⟨S4096x1, .i32⟩ : BufTy).Contents (Elt F)),
    StableHlo.unary main_v86 main_v88 (broadcastInDim S4096x1 ![0] bcast_S4096_S4096x1_0 : (⟨S4096, .i32⟩ : BufTy).Contents (Elt F) → (⟨S4096x1, .i32⟩ : BufTy).Contents (Elt F)),
    StableHlo.binary main_v87 main_v88 main_v89 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v76 main_v89 main_v90 ((fun x i => Host.gather gather_S8x4096x1024_S4096x2_S4096x1024_1_01_n_n_01_1_111024 x i) : (⟨S8x4096x1024, .f32⟩ : BufTy).Contents (Elt F) → (⟨S4096x2, .i32⟩ : BufTy).Contents (Elt F) → (⟨S4096x1024, .f32⟩ : BufTy).Contents (Elt F)),
    StableHlo.unary main_v26 main_v91 (broadcastInDim S4096x1 ![0] bcast_S4096_S4096x1_0 : (⟨S4096, .f32⟩ : BufTy).Contents (Elt F) → (⟨S4096x1, .f32⟩ : BufTy).Contents (Elt F)),
    StableHlo.unary main_v91 main_v92 (broadcastInDim S4096x1024 ![0, 1] bcast_S4096x1_S4096x1024_0_1 : (⟨S4096x1, .f32⟩ : BufTy).Contents (Elt F) → (⟨S4096x1024, .f32⟩ : BufTy).Contents (Elt F)),
    StableHlo.binary main_v90 main_v92 main_v93 (mulf : (⟨S4096x1024, .f32⟩ : BufTy).Contents (Elt F) → (⟨S4096x1024, .f32⟩ : BufTy).Contents (Elt F) → (⟨S4096x1024, .f32⟩ : BufTy).Contents (Elt F)),
    StableHlo.nullary main_cst_23 (constant S_ .f32 0x00000000#32) ]

/-- The operations of @main's last window (statements 121 … 130). -/
abbrev ops2 : List (HloOp τ sig (Elt F)) :=
  [ StableHlo.unary main_cst_23 main_v94 (broadcastInDim S2048x1024 ![] bcast_S_S2048x1024 : (⟨S_, .f32⟩ : BufTy).Contents (Elt F) → (⟨S2048x1024, .f32⟩ : BufTy).Contents (Elt F)),
    StableHlo.nullary main_c_24 (constantI S_ 32 0#32),
    StableHlo.unary main_c_24 main_v95 (broadcastInDim S4096 ![] bcast_S_S4096 : (⟨S_, .i32⟩ : BufTy).Contents (Elt F) → (⟨S4096, .i32⟩ : BufTy).Contents (Elt F)),
    StableHlo.binary main_v12 main_v95 main_v96 (cmpi .slt : (⟨S4096, .i32⟩ : BufTy).Contents (Elt F) → (⟨S4096, .i32⟩ : BufTy).Contents (Elt F) → (⟨S4096, .i1⟩ : BufTy).Contents (Elt F)),
    StableHlo.nullary main_c_25 (constantI S_ 32 2048#32),
    StableHlo.unary main_c_25 main_v97 (broadcastInDim S4096 ![] bcast_S_S4096 : (⟨S_, .i32⟩ : BufTy).Contents (Elt F) → (⟨S4096, .i32⟩ : BufTy).Contents (Elt F)),
    StableHlo.binary main_v12 main_v97 main_v98 (addi : (⟨S4096, .i32⟩ : BufTy).Contents (Elt F) → (⟨S4096, .i32⟩ : BufTy).Contents (Elt F) → (⟨S4096, .i32⟩ : BufTy).Contents (Elt F)),
    StableHlo.ternary main_v96 main_v98 main_v12 main_v99 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v99 main_v100 (broadcastInDim S4096x1 ![0] bcast_S4096_S4096x1_0 : (⟨S4096, .i32⟩ : BufTy).Contents (Elt F) → (⟨S4096x1, .i32⟩ : BufTy).Contents (Elt F)),
    StableHlo.ternary main_v94 main_v100 main_v93 main_v101 ((fun x i u => Host.scatterAdd scatter_S2048x1024_S4096x1_S4096x1024_1_0_0_1 x i u) : (⟨S2048x1024, .f32⟩ : BufTy).Contents (Elt F) → (⟨S4096x1, .i32⟩ : BufTy).Contents (Elt F) → (⟨S4096x1024, .f32⟩ : BufTy).Contents (Elt F) → (⟨S2048x1024, .f32⟩ : BufTy).Contents (Elt F)) ]

/-- @main's 144 operations, in order. -/
abbrev ops : List (HloOp τ sig (Elt F)) := ops0 ++ (ops1 ++ ops2)

/-- The fold over two lines run one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 4096 in
/-- The first window is its line: the three functions' definitions unfolded at their calls and the records at
    their fields, sequencing reassociated. -/
theorem part0_eq (c : Dev nD) : main_part0 (F := F) c = seq ops0 := by
  simp only [main_part0, fn_argsort.body, fn_clip.body, fn_cumsum.body, fn_cumsum_0.body, seq, bind_assoc, pure_bind]
  rfl

set_option maxRecDepth 4096 in
theorem part1_eq (c : Dev nD) : main_part1 (F := F) c = seq ops1 := by
  simp only [main_part1, fn_silu.body, seq, bind_assoc, pure_bind]
  rfl

theorem part2_eq (c : Dev nD) : main_part2 (F := F) c = seq ops2 := by
  simp only [main_part2, seq, bind_assoc, pure_bind]

/-- @main is the straight line of its 144 operations. -/
theorem main_eq (c : Dev nD) : main (F := F) c = seq ops := by
  show main (F := F) c = seq (ops0 ++ (ops1 ++ ops2))
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨reshape_bufs_sub .., reshape_bufs_sub .., nullary_bufs_sub .., unary_bufs_sub .., reshape_bufs_sub .., nullary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., nullary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., nullary_bufs_sub .., unary_bufs_sub .., ternary_bufs_sub .., nullary_bufs_sub .., unary_bufs_sub ..,
    nullary_bufs_sub .., unary_bufs_sub .., binary_bufs_sub .., unary_bufs_sub .., binary_bufs_sub .., nullary_bufs_sub ..,
    nullary_bufs_sub .., unary_bufs_sub .., binary_bufs_sub .., nullary_bufs_sub .., unary_bufs_sub .., binary_bufs_sub ..⟩

theorem ops1_sub : (ops1 : List (HloOp τ sig (Elt F))).Forall fun op => op.bufs ⊆ tcRefs τ sig :=
  ⟨ternary_bufs_sub .., unary_bufs_sub .., binary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., ternary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., unary_bufs_sub .., unary_bufs_sub ..,
    binary_bufs_sub .., nullary_bufs_sub ..⟩

theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., ternary_bufs_sub ..⟩

theorem ops_sub : (ops : List (HloOp τ sig (Elt F))).Forall fun op => op.bufs ⊆ tcRefs τ sig :=
  List.forall_iff_forall_mem.2 fun op h => by
    rcases List.mem_append.1 h with h | h
    · exact List.forall_iff_forall_mem.1 ops0_sub op h
    · rcases List.mem_append.1 h with h | h
      · exact List.forall_iff_forall_mem.1 ops1_sub op h
      · exact List.forall_iff_forall_mem.1 ops2_sub op h

theorem fresh0 : ∀ op ∈ (ops0 : List (HloOp τ sig (Elt F))), op.fresh = ∅ := by
  intro _ h; (repeat (cases h with | head => rfl | tail _ h => ?_)); exact nomatch h
theorem fresh1 : ∀ op ∈ (ops1 : List (HloOp τ sig (Elt F))), op.fresh = ∅ := by
  intro _ h; (repeat (cases h with | head => rfl | tail _ h => ?_)); exact nomatch h
theorem fresh2 : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  rcases List.mem_append.1 h with h | h
  · exact fresh0 op h
  · rcases List.mem_append.1 h with h | h
    · exact fresh1 op h
    · exact fresh2 op h

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

open Cert.ReferenceIdeal.RefValue

/-- Two arrays joined along an axis: `concatenate` of a two-element list, as a function of the two arrays. -/
def cat2 {α : Type} (S : Shape) (d : Fin S.rank) (Sa Sb : Shape) (h : Shape.Concatenates [Sa, Sb] S d)
    (u : Sa.Idx → α) (v : Sb.Idx → α) : S.Idx → α :=
  concatenate S d [⟨Sa, u⟩, ⟨Sb, v⟩] h

/-- The result of each of the three joins, as `cat2` of its operands' contents. -/
theorem cat40 (W : Valuation τ sig (Elt F)) :
    (StableHlo.binary main_v37 main_v39 main_v40 ((fun a b => concatenate S8 0 [⟨S1, a⟩, ⟨S7, b⟩] concatenates_S1_S7_S8_d0) : (⟨S1, .i32⟩ : BufTy).Contents (Elt F) → (⟨S7, .i32⟩ : BufTy).Contents (Elt F) → (⟨S8, .i32⟩ : BufTy).Contents (Elt F)) : HloOp τ sig (Elt F)).result W (no_index (main_v40 : DevRef τ sig))
      = cat2 S8 0 S1 S7 concatenates_S1_S7_S8_d0 (W (main_v37 : DevRef τ sig)) (W (main_v39 : DevRef τ sig)) :=
  binary_result _ _ _ _ _ _ _ W
theorem cat70 (W : Valuation τ sig (Elt F)) :
    (StableHlo.binary main_v68 main_v69 main_v70 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)) : HloOp τ sig (Elt F)).result W (no_index (main_v70 : DevRef τ sig))
      = cat2 S4096x2 1 S4096x1 S4096x1 concatenates_S4096x1_S4096x1_S4096x2_d1 (W (main_v68 : DevRef τ sig)) (W (main_v69 : DevRef τ sig)) :=
  binary_result _ _ _ _ _ _ _ W
theorem cat89 (W : Valuation τ sig (Elt F)) :
    (StableHlo.binary main_v87 main_v88 main_v89 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)) : HloOp τ sig (Elt F)).result W (no_index (main_v89 : DevRef τ sig))
      = cat2 S4096x2 1 S4096x1 S4096x1 concatenates_S4096x1_S4096x1_S4096x2_d1 (W (main_v87 : DevRef τ sig)) (W (main_v88 : DevRef τ sig)) :=
  binary_result _ _ _ _ _ _ _ W

/-- The fold read at one buffer, in one pass: each operation's result at its own buffer is its function's value,
    at any other buffer what was there; the three joins by the lemmas above, before their operand lists open. -/
macro "fold_results" : tactic =>
  `(tactic| simp (disch := decide) only [after_cons, after_nil, ↓cat40, ↓cat70, ↓cat89,
      nullary_result', unary_result', binary_result', ternary_result', reshape_result',
      nullary_result_ne', unary_result_ne', binary_result_ne', ternary_result_ne', reshape_result_ne'])

set_option maxHeartbeats 8000000 in
attribute [local irreducible] Host.scatter Host.gather Host.sort2 Host.reduceWindow Host.scatterAdd in
/-- The fold at the result buffer is the staged term of the six arguments: the fold unrolled and each operation's
    result read at its buffer; what is left is the reference's operations composed in program order, which is
    `refOut` by unfolding its stages. The searches and folds over whole arrays (sort, gather, scatter, window
    reduction) stay folded meanwhile: the equation never looks inside them. -/
theorem out_eq (V : Valuation τ sig (Elt F)) : after ops V (main_v101 : DevRef τ sig)
    = Cert.ReferenceIdeal.RefValue.refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  show after (ops0 ++ (ops1 ++ ops2)) V _ = _
  rw [after_append, after_append]
  fold_results
  rfl

set_option maxHeartbeats 8000000 in
/-- No operation writes argument 0's buffer. -/
theorem arg0_eq (V : Valuation τ sig (Elt F)) : after ops V (main_arg0 : DevRef τ sig) = V (main_arg0 : DevRef τ sig) := by
  show after (ops0 ++ (ops1 ++ ops2)) V _ = _
  rw [after_append, after_append]
  fold_results

set_option maxHeartbeats 8000000 in
/-- No operation writes argument 1's buffer. -/
theorem arg1_eq (V : Valuation τ sig (Elt F)) : after ops V (main_arg1 : DevRef τ sig) = V (main_arg1 : DevRef τ sig) := by
  show after (ops0 ++ (ops1 ++ ops2)) V _ = _
  rw [after_append, after_append]
  fold_results

set_option maxHeartbeats 8000000 in
/-- No operation writes argument 2's buffer. -/
theorem arg2_eq (V : Valuation τ sig (Elt F)) : after ops V (main_arg2 : DevRef τ sig) = V (main_arg2 : DevRef τ sig) := by
  show after (ops0 ++ (ops1 ++ ops2)) V _ = _
  rw [after_append, after_append]
  fold_results

set_option maxHeartbeats 8000000 in
/-- No operation writes argument 3's buffer. -/
theorem arg3_eq (V : Valuation τ sig (Elt F)) : after ops V (main_arg3 : DevRef τ sig) = V (main_arg3 : DevRef τ sig) := by
  show after (ops0 ++ (ops1 ++ ops2)) V _ = _
  rw [after_append, after_append]
  fold_results

set_option maxHeartbeats 8000000 in
/-- No operation writes argument 4's buffer. -/
theorem arg4_eq (V : Valuation τ sig (Elt F)) : after ops V (main_arg4 : DevRef τ sig) = V (main_arg4 : DevRef τ sig) := by
  show after (ops0 ++ (ops1 ++ ops2)) V _ = _
  rw [after_append, after_append]
  fold_results

set_option maxHeartbeats 8000000 in
/-- No operation writes argument 5's buffer. -/
theorem arg5_eq (V : Valuation τ sig (Elt F)) : after ops V (main_arg5 : DevRef τ sig) = V (main_arg5 : DevRef τ sig) := by
  show after (ops0 ++ (ops1 ++ ops2)) V _ = _
  rw [after_append, after_append]
  fold_results

/-- On every device, for any float values, from any memory with zero counters: every weakly fair execution of @main
    terminates with the result buffer at `refOut` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v101) = Cert.ReferenceIdeal.RefValue.refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c main_v101).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_main m ρ)

end Cert.ReferenceIdeal.RefRun

end
-- ==== Proof.RefRouting.lean ====
/-
  The sort stages of the reference read at an index.

  The stable argsort of the 4096 expert words is a permutation `sigma` of the assignments: sorted place i holds
  assignment sigma i, i.e. slot (sigma i) % 2 of token (sigma i) / 2.  Every array read through the sort (token,
  expert word, weight) is the flat array at sigma i; indices in range are left alone by the index normalisation and
  by the gather's clamp.
-/
import proofs.«430784_j18451179504159_2_alg».proof.Proof.RefDefs
import Idealize.ShloMosaic.Lib.ValueIdx
import Idealize.ShloMosaic.Lib.SortFacts
import Idealize.ShloMosaic.Lib.StableHlo.Predicate
import Idealize.ShloMosaic.Lib.Pipeline.Value

noncomputable section

namespace Cert.ReferenceIdeal.RefValue

open Idealize.ShloMosaic Idealize.ShloMosaic.ValueIdx Cert.ReferenceIdeal Cert.ReferenceIdeal.Facts₀

/-- The comparison the argsort makes between two assignments: the (expert word, assignment number) pairs. -/
def before (a1 : IVec S2048x2 32) (k k' : Fin 4096) : Bool :=
  comparator_i32_i32_d0 (flatE a1 (ix1 k), iotaInDim S4096 32 0 (ix1 k))
    (flatE a1 (ix1 k'), iotaInDim S4096 32 0 (ix1 k')) == 1#1

/-- The sorting permutation: sorted place i holds assignment `sigma a1 i`. -/
def sigma (a1 : IVec S2048x2 32) : Equiv.Perm (Fin 4096) :=
  Equiv.ofBijective (sortedFrom (before a1)) ⟨sortedFrom_injective _, sortedFrom_surjective _⟩

/-- The token of the assignment at sorted place i. -/
def tokOf (a1 : IVec S2048x2 32) (i : Fin 4096) : Fin 2048 :=
  ⟨(sigma a1 i).val / 2, by have := (sigma a1 i).isLt; omega⟩

/-- The routing slot of the assignment at sorted place i. -/
def kOf (a1 : IVec S2048x2 32) (i : Fin 4096) : Fin 2 := ⟨(sigma a1 i).val % 2, Nat.mod_lt _ (by decide)⟩

/-- The position of sorted place i inside its expert's segment, as a buffer row. -/
def segPos (a1 : IVec S2048x2 32) (i : Fin 4096) : Fin 4096 :=
  ⟨(wrapIdx 4096#32 (pos a1) (ix1 i)).toNat % 4096, Nat.mod_lt _ (by decide)⟩

/-- A vector as a column of start indices reads the vector at the row. -/
theorem col_at (v : IVec S4096 32) (i : Fin 4096) (u : Fin 1) : col v (ix2 i u) = v (ix1 i) := by
  unfold col broadcastInDim
  congr 1
  funext a
  match a with
  | ⟨0, _⟩ => rfl

/-- The row-major reshape [2048,2] → [4096]: flat position a is slot a % 2 of token a / 2. -/
theorem flatE_at (a1 : IVec S2048x2 32) (a : Fin 4096) :
    flatE a1 (ix1 a) = a1 (ix2 ⟨a.val / 2, by have := a.isLt; omega⟩ ⟨a.val % 2, Nat.mod_lt _ (by decide)⟩) := by
  unfold flatE
  refine shapeCast_apply _ _ _ _ ?_
  rw [Shape.rowMajor_val_two, Shape.rowMajor_val_one]
  show a.val / 2 * 2 + a.val % 2 = a.val
  omega

theorem flatW_at (a2 : FVec Ideal S2048x2 .f32) (a : Fin 4096) :
    flatW a2 (ix1 a) = a2 (ix2 ⟨a.val / 2, by have := a.isLt; omega⟩ ⟨a.val % 2, Nat.mod_lt _ (by decide)⟩) := by
  unfold flatW
  refine shapeCast_apply _ _ _ _ ?_
  rw [Shape.rowMajor_val_two, Shape.rowMajor_val_one]
  show a.val / 2 * 2 + a.val % 2 = a.val
  omega

/-- The token of flat assignment a is a / 2. -/
theorem tokIdx_at (a : Fin 4096) : tokIdx (ix1 a) = BitVec.ofNat 32 (a.val / 2) := by
  unfold tokIdx
  rw [shapeCast_apply _ _ (ix1 a) (ix2 (⟨a.val / 2, by have := a.isLt; omega⟩ : Fin 2048) (⟨a.val % 2, Nat.mod_lt _ (by decide)⟩ : Fin 2))
    (by rw [Shape.rowMajor_val_two, Shape.rowMajor_val_one]; show a.val / 2 * 2 + a.val % 2 = a.val; omega)]
  rfl

private theorem ofFin_eq_ix1 {n : Nat} (p : Fin n) : (Shape.Idx.ofFin p : (⟨1, ![n]⟩ : Shape).Idx) = ix1 p := by
  funext d
  match d with
  | ⟨0, _⟩ => rfl

private theorem ixP_eq_ix2 {n : Nat} (p : Fin n) :
    (StableHlo.Predicate.ixP p : (⟨2, ![n, 1]⟩ : Shape).Idx) = ix2 p (0 : Fin 1) := by
  funext d
  match d with
  | ⟨0, _⟩ => rfl
  | ⟨1, _⟩ => rfl

/-- A word below 2^31 is non-negative: the index normalisation leaves it alone. -/
theorem wrapIdx_of_lt (n : BitVec 32) (v : IVec S4096 32) (i : Fin 4096) (h : (v (ix1 i)).toNat < 2 ^ 31) :
    wrapIdx n v (ix1 i) = v (ix1 i) := by
  have hs : (v (ix1 i)).slt 0#32 = false := by
    rw [BitVec.slt, decide_eq_false_iff_not, BitVec.toInt_eq_toNat_cond]
    simp only [BitVec.toInt_zero]
    rw [if_pos (by omega)]
    omega
  show Scalar.select (IntOp.cmpi .slt (v (ix1 i)) 0#32) _ _ = _
  unfold Scalar.select IntOp.cmpi
  simp only [hs]
  rfl

/-- The flat take at an in-range index reads the table there. -/
theorem take4096_at {α : Type} (x : S4096.Idx → α) (v : IVec S4096 32) (i p : Fin 4096)
    (h : v (ix1 i) = BitVec.ofNat 32 p.val) : take4096 x v (ix1 i) = x (ix1 p) := by
  have hp := p.isLt
  have hlt : (v (ix1 i)).toNat < 2 ^ 31 := by rw [h, BitVec.toNat_ofNat]; omega
  unfold take4096
  rw [← ofFin_eq_ix1, StableHlo.Predicate.gather_take _ rfl rfl rfl rfl _ _ _ (by decide), ofFin_eq_ix1]
  congr 2
  apply Fin.ext
  show min (col (wrapIdx 4096#32 v) (StableHlo.Predicate.ixP i)).toInt.toNat (4096 - 1) = p.val
  rw [ixP_eq_ix2, col_at, wrapIdx_of_lt _ _ _ hlt, h, BitVec.toInt_eq_toNat_cond, BitVec.toNat_ofNat]
  have e : p.val % 2 ^ 32 = p.val := Nat.mod_eq_of_lt (by omega)
  rw [e, if_pos (by omega)]
  simp only [Int.toNat_natCast]
  omega

/-- On a rank-1 shape, replacing the one coordinate gives the index at the new coordinate. -/
private theorem along_ix1 (j : S4096.Idx) (h : 0 < S4096.rank) (k : Fin (S4096.size ⟨0, h⟩)) :
    j.along (⟨0, h⟩ : Fin S4096.rank) k = ix1 (k : Fin 4096) := by
  funext d
  match d with
  | ⟨0, _⟩ => unfold Shape.Idx.along; exact Function.update_self ..

/-- The carried operand of a two-operand sort of a vector, read at place i, is the operand at the place the stable
    sort draws i from. -/
private theorem sort2_snd_rank1 {α β : Type} (cmp : α × β → α × β → BitVec 1) (x : S4096.Idx → α) (y : S4096.Idx → β)
    (i : Fin 4096) :
    (Host.sort2 S4096 0 cmp x y).2 (ix1 i)
      = y (ix1 (sortedFrom (fun k k' => cmp (x (ix1 k), y (ix1 k)) (x (ix1 k'), y (ix1 k')) == 1#1) i)) := by
  unfold Host.sort2
  rw [dif_pos (show 0 < S4096.rank by decide)]
  simp only [along_ix1]
  rfl

/-- `sigma` is the stable sort's source map. -/
theorem sigma_apply (a1 : IVec S2048x2 32) (i : Fin 4096) : sigma a1 i = sortedFrom (before a1) i := by
  unfold sigma
  exact Equiv.ofBijective_apply _ _ _

/-- The argsort at place i is the word of the assignment sorted there. -/
theorem order_at (a1 : IVec S2048x2 32) (i : Fin 4096) : order a1 (ix1 i) = BitVec.ofNat 32 (sigma a1 i).val := by
  unfold order
  rw [sort2_snd_rank1, sigma_apply]
  rfl

/-- The token at sorted place i, after index normalisation. -/
theorem sTok_at (a1 : IVec S2048x2 32) (i : Fin 4096) :
    wrapIdx 2048#32 (sTok a1) (ix1 i) = BitVec.ofNat 32 (tokOf a1 i).val := by
  have hs : sTok a1 (ix1 i) = BitVec.ofNat 32 ((sigma a1 i).val / 2) := by
    unfold sTok
    rw [take4096_at _ _ i (sigma a1 i) (order_at a1 i), tokIdx_at]
  have hlt := (sigma a1 i).isLt
  rw [wrapIdx_of_lt _ _ _ (by rw [hs, BitVec.toNat_ofNat]; omega), hs]
  rfl

/-- The expert word at sorted place i is the word of slot `kOf` of token `tokOf`. -/
theorem sE_raw (a1 : IVec S2048x2 32) (i : Fin 4096) : sE a1 (ix1 i) = a1 (ix2 (tokOf a1 i) (kOf a1 i)) := by
  unfold sE
  rw [take4096_at _ _ i (sigma a1 i) (order_at a1 i), flatE_at]
  rfl

theorem sE_at (a1 : IVec S2048x2 32) (hidx : ∀ i, (a1 i).toNat < 8) (i : Fin 4096) :
    wrapIdx 8#32 (sE a1) (ix1 i) = a1 (ix2 (tokOf a1 i) (kOf a1 i)) := by
  have h8 := hidx (ix2 (tokOf a1 i) (kOf a1 i))
  rw [wrapIdx_of_lt _ _ _ (by rw [sE_raw]; omega), sE_raw]

/-- The weight at sorted place i is the weight of slot `kOf` of token `tokOf`. -/
theorem sW_at (a1 : IVec S2048x2 32) (a2 : FVec Ideal S2048x2 .f32) (i : Fin 4096) :
    sW a1 a2 (ix1 i) = a2 (ix2 (tokOf a1 i) (kOf a1 i)) := by
  unfold sW
  rw [take4096_at _ _ i (sigma a1 i) (order_at a1 i), flatW_at]
  rfl

/-- The first column of the (expert, position) index array. -/
theorem slot_0 (a1 : IVec S2048x2 32) (i : Fin 4096) :
    slot a1 (ix2 i (0 : Fin 2)) = wrapIdx 8#32 (sE a1) (ix1 i) := by
  unfold slot
  rw [concatenate_pair_apply_left (1 : Fin S4096x2.rank) _ _ concatenates_S4096x1_S4096x1_S4096x2_d1 (ix2 i (0 : Fin 2)) rfl
    (ix2 i (0 : Fin 1)) (fun b => by match b with | ⟨0, _⟩ => rfl | ⟨1, _⟩ => rfl)]
  exact col_at _ i 0

/-- The second column of the (expert, position) index array. -/
theorem slot_1 (a1 : IVec S2048x2 32) (i : Fin 4096) :
    slot a1 (ix2 i (1 : Fin 2)) = wrapIdx 4096#32 (pos a1) (ix1 i) := by
  unfold slot
  rw [concatenate_pair_apply_right (1 : Fin S4096x2.rank) _ _ concatenates_S4096x1_S4096x1_S4096x2_d1 (ix2 i (1 : Fin 2)) rfl rfl
    (ix2 i (0 : Fin 1)) (fun b hb => by
      match b with
      | ⟨0, _⟩ => rfl
      | ⟨1, _⟩ => exact absurd rfl hb) rfl]
  exact col_at _ i 0

end Cert.ReferenceIdeal.RefValue

end
-- ==== Proof.LibScatter.lean ====
/-
  General facts about the scatter fold: the value at one result index is the fold, at that index alone,
  of the updates that land on it; from it the "set" forms (one update, or none) and the additive form
  (operand plus the sum of the updates landing on the index).
-/
import Idealize.ShloMosaic.PureOps
import Mathlib.Algebra.BigOperators.Fin
import Mathlib.Data.BitVec
import Mathlib.Algebra.BigOperators.Group.Finset.Basic

open scoped BigOperators

namespace Cert.ScatterLib

open Idealize.ShloMosaic

/-! ### Folds over a list of positions -/

/-- a fold whose step changes the accumulator only at positions satisfying `p`, none of which is in the list -/
private theorem foldl_of_none {ι α : Type} (p : ι → Prop) [DecidablePred p] (h : α → ι → α) (L : List ι)
    (hL : ∀ n ∈ L, ¬ p n) (a0 : α) :
    L.foldl (fun a n => if p n then h a n else a) a0 = a0 := by
  induction L generalizing a0 with
  | nil => rfl
  | cons n L ih =>
    rw [List.foldl_cons, if_neg (hL n (List.mem_cons_self ..))]
    exact ih (fun m hm => hL m (List.mem_cons_of_mem _ hm)) a0

/-- an overwriting fold where only the position `n0` satisfies `p`: the value written there, if it is in the list -/
private theorem foldl_set_unique {ι α : Type} [DecidableEq ι] (p : ι → Prop) [DecidablePred p] (g : ι → α) (n0 : ι)
    (hp : p n0) (L : List ι) (hL : ∀ n ∈ L, p n → n = n0) (a0 : α) :
    L.foldl (fun a n => if p n then g n else a) a0 = if n0 ∈ L then g n0 else a0 := by
  induction L generalizing a0 with
  | nil => simp
  | cons n L ih =>
    have ih' := ih (fun m hm => hL m (List.mem_cons_of_mem _ hm))
    rw [List.foldl_cons]
    by_cases hn : p n
    · have hnn : n = n0 := hL n (List.mem_cons_self ..) hn
      subst hnn
      rw [if_pos hn, ih']
      simp
    · have hne : n0 ≠ n := fun e => hn (e ▸ hp)
      rw [if_neg hn, ih']
      simp [List.mem_cons, hne]

/-- an adding fold: the start plus the sum of the terms at the positions satisfying `p` -/
private theorem foldl_add_eq {ι M : Type} [AddCommMonoid M] (p : ι → Prop) [DecidablePred p] (g : ι → M) (L : List ι)
    (a0 : M) :
    L.foldl (fun a n => if p n then a + g n else a) a0 = a0 + (L.map (fun n => if p n then g n else 0)).sum := by
  induction L generalizing a0 with
  | nil => simp
  | cons n L ih =>
    rw [List.foldl_cons, ih, List.map_cons, List.sum_cons]
    by_cases hn : p n
    · simp only [if_pos hn, add_assoc]
    · simp only [if_neg hn, zero_add]

/-! ### The scatter fold -/

variable {s si u : Shape} {w : Nat} (d : ScatterDims s si u) (idx : IVec si w)

/-- the fold of the scatter step over any list of update positions, read at one result index -/
private theorem fold_apply {α : Type} (f : α → α → α) (upd : u.Idx → α) (i : s.Idx) (L : List (Fin u.numel))
    (x : s.Idx → α) :
    (L.foldl (fun r n =>
        match d.resultIdx? (u.rowMajor.symm n) idx with
        | some i => fun i' => if i' = i then f (r i) (upd (u.rowMajor.symm n)) else r i'
        | none => r) x) i
      = L.foldl (fun a n => if d.resultIdx? (u.rowMajor.symm n) idx = some i then f a (upd (u.rowMajor.symm n)) else a)
          (x i) := by
  induction L generalizing x with
  | nil => rfl
  | cons n L ih =>
    rw [List.foldl_cons, List.foldl_cons, ih]
    congr 1
    cases h : d.resultIdx? (u.rowMajor.symm n) idx with
    | none => simp
    | some i0 =>
      by_cases hi : i = i0
      · subst hi; simp
      · have hi' : ¬ (some i0 = some i) := fun e => hi (Option.some.inj e).symm
        simp [hi, hi']

/-- the value at one result index is the fold, at that index alone, of the updates that land on it -/
theorem scatter_apply {α : Type} (f : α → α → α) (x : s.Idx → α) (upd : u.Idx → α) (i : s.Idx) :
    Host.scatter d f x idx upd i
      = (List.finRange u.numel).foldl (fun a n => if d.resultIdx? (u.rowMajor.symm n) idx = some i then f a (upd (u.rowMajor.symm n)) else a) (x i) :=
  fold_apply d idx f upd i _ x

/-- writing: an index hit by exactly one update holds that update -/
theorem scatter_set_of_unique {α : Type} (x : s.Idx → α) (upd : u.Idx → α) (i : s.Idx) (j : u.Idx)
    (hj : d.resultIdx? j idx = some i) (huniq : ∀ j', d.resultIdx? j' idx = some i → j' = j) :
    Host.scatter d (fun _ b => b) x idx upd i = upd j := by
  rw [scatter_apply]
  have h := foldl_set_unique (fun n => d.resultIdx? (u.rowMajor.symm n) idx = some i)
    (fun n => upd (u.rowMajor.symm n)) (u.rowMajor j) (by simpa using hj) (List.finRange u.numel)
    (fun n _ hn => by
      have := huniq _ hn
      rw [← this]; simp) (x i)
  rw [h, if_pos (List.mem_finRange _)]
  simp

/-- an index hit by no update keeps the operand -/
theorem scatter_set_of_none {α : Type} (f : α → α → α) (x : s.Idx → α) (upd : u.Idx → α) (i : s.Idx)
    (hnone : ∀ j, d.resultIdx? j idx ≠ some i) : Host.scatter d f x idx upd i = x i := by
  rw [scatter_apply]
  exact foldl_of_none (fun n => d.resultIdx? (u.rowMajor.symm n) idx = some i)
    (fun a n => f a (upd (u.rowMajor.symm n))) _ (fun n _ => hnone _) (x i)

/-- adding in a commutative monoid: the operand plus the sum of the updates that land on the index -/
theorem scatter_add_apply {M : Type} [AddCommMonoid M] (x : s.Idx → M) (upd : u.Idx → M) (i : s.Idx) :
    Host.scatter d (· + ·) x idx upd i = x i + ∑ j ∈ Finset.univ.filter (fun j => d.resultIdx? j idx = some i), upd j := by
  rw [scatter_apply]
  have h := foldl_add_eq (fun n => d.resultIdx? (u.rowMajor.symm n) idx = some i)
    (fun n => upd (u.rowMajor.symm n)) (List.finRange u.numel) (x i)
  rw [h, ← Fin.sum_univ_def, Finset.sum_filter]
  congr 1
  exact Equiv.sum_comp u.rowMajor.symm (fun j => if d.resultIdx? j idx = some i then upd j else 0)

/-- the same at fixed-width integers with the integer addition of the operation set -/
theorem scatter_addi_apply {v : Nat} (x : s.Idx → BitVec v) (upd : u.Idx → BitVec v) (i : s.Idx) :
    Host.scatter d IntOp.addi x idx upd i = x i + ∑ j ∈ Finset.univ.filter (fun j => d.resultIdx? j idx = some i), upd j :=
  scatter_add_apply d idx x upd i

end Cert.ScatterLib
-- ==== Proof.RefSegments.lean ====
/-
  The segment stages of the reference read at an index.

  counts: the scatter-add of 4096 ones into eight zeros leaves, at expert l, the number of assignments whose update
  lands on l, a natural number; the eight numbers total at most 4096, since every update lands on at most one index.
  cumsum: the windowed sum (window 8, low padding 7) at place k adds the entries at places 0 … k, each once, so it is a
  natural number no more than the total. segStarts: 0 followed by the first seven running sums, so every entry is a
  natural number s ≤ 4096. pos: at sorted place i the word i − s, s the segment start of the place's expert (the
  gather's clamp leaves a word in [0, 8) alone); its index normalisation over an axis of 4096 is the natural number
  (i + 4096 − s) mod 4096. Two places with the same expert and the same normalised position are the same place.
-/
import proofs.«430784_j18451179504159_2_alg».proof.Proof.RefDefs
import proofs.«430784_j18451179504159_2_alg».proof.Proof.RefRouting
import proofs.«430784_j18451179504159_2_alg».proof.Proof.LibScatter
import Idealize.ShloMosaic.Lib.ValueIdx
import Idealize.ShloMosaic.Lib.StableHlo.Predicate
import Idealize.ShloMosaic.Lib.Pipeline.Value

set_option maxRecDepth 16384

noncomputable section

namespace Cert.ReferenceIdeal.RefValue

open Idealize.ShloMosaic Idealize.ShloMosaic.ValueIdx Cert.ReferenceIdeal Cert.ReferenceIdeal.Facts₀
open scoped BigOperators

namespace Seg

/-- n copies of the word 1 sum to the word n. -/
theorem sum_ones {ι : Type} (S : Finset ι) : (∑ _j ∈ S, (1#32 : BitVec 32)) = BitVec.ofNat 32 S.card := by
  rw [Finset.sum_const, nsmul_eq_mul]
  show (S.card : BitVec 32) * 1 = _
  rw [mul_one]
  rfl

theorem card_S4096 : Fintype.card S4096.Idx = 4096 := by
  rw [Fintype.card_congr S4096.rowMajor, Fintype.card_fin]
  decide

/-- The number of assignments whose update lands on expert l. -/
def cnt (a1 : IVec S2048x2 32) (l : Fin 8) : ℕ :=
  (Finset.univ.filter (fun j : S4096.Idx => scatter_S8_S4096x1_S4096_n_0_0_1.resultIdx? j
    (col (wrapIdx 8#32 (maxsi (splat4096 0#32) (flatE a1)))) = some (ix1 l))).card

theorem counts_at (a1 : IVec S2048x2 32) (l : Fin 8) : counts a1 (ix1 l) = BitVec.ofNat 32 (cnt a1 l) := by
  unfold counts
  rw [Cert.ScatterLib.scatter_addi_apply]
  have h0 : broadcastInDim S8 ![] bcast_S_S8 (constantI S_ 32 0#32) (ix1 l) = 0#32 := rfl
  have h1 : ∀ j, splat4096 1#32 j = 1#32 := fun _ => rfl
  rw [h0, BitVec.zero_add]
  simp only [h1]
  exact sum_ones _

theorem cnt_total (a1 : IVec S2048x2 32) : ∑ l : Fin 8, cnt a1 l ≤ 4096 := by
  unfold cnt
  simp only [Finset.card_filter]
  rw [Finset.sum_comm]
  calc _ ≤ ∑ _j : S4096.Idx, 1 := Finset.sum_le_sum fun j _ => ?_
    _ = 4096 := by rw [Finset.sum_const, Finset.card_univ, card_S4096]; rfl
  cases hj : scatter_S8_S4096x1_S4096_n_0_0_1.resultIdx? j (col (wrapIdx 8#32 (maxsi (splat4096 0#32) (flatE a1)))) with
  | none => simp
  | some i0 =>
    obtain ⟨l0, rfl⟩ : ∃ l0 : Fin 8, i0 = ix1 l0 := ⟨i0 0, eq_ix1 i0⟩
    have : ∀ l : Fin 8, ((some (ix1 l0) : Option S8.Idx) = some (ix1 l)) ↔ (l0 = l) := fun l => by
      constructor
      · intro h; exact congrFun (Option.some.inj h) 0
      · intro h; subst h; rfl
    simp only [this]
    rw [Finset.sum_ite_eq]
    simp

theorem foldl_addi_sum {m : ℕ} (g : Fin m → BitVec 32) :
    (List.finRange m).foldl (fun r n => IntOp.addi r (g n)) 0#32 = ∑ n : Fin m, g n := by
  rw [Fin.sum_univ_def, List.sum_eq_foldl, List.foldl_map]
  rfl

theorem ofNat_sum {ι : Type} (S : Finset ι) (t : ι → ℕ) :
    ∑ n ∈ S, BitVec.ofNat 32 (t n) = BitVec.ofNat 32 (∑ n ∈ S, t n) := by
  show ∑ n ∈ S, ((t n : ℕ) : BitVec 32) = ((∑ n ∈ S, t n : ℕ) : BitVec 32)
  exact (Nat.cast_sum S t).symm

/-- The running sum of eight words that are natural numbers is, at every place, a natural number no more than their total. -/
theorem cumsum_nat (c : IVec S8 32) (cn : Fin 8 → ℕ) (hc : ∀ l, c (ix1 l) = BitVec.ofNat 32 (cn l)) (k : Fin 8) :
    ∃ m, m ≤ ∑ l, cn l ∧ cumsum c (ix1 k) = BitVec.ofNat 32 m := by
  have hnum : (⟨1, ![8]⟩ : Shape).numel = 8 := by decide
  let φ : Fin (⟨1, ![8]⟩ : Shape).numel → Fin 8 := fun n => ⟨(k.val + n.val - 7) % 8, Nat.mod_lt _ (by decide)⟩
  have key : cumsum c (ix1 k)
      = ∑ n : Fin (⟨1, ![8]⟩ : Shape).numel, (if 7 ≤ k.val + n.val then BitVec.ofNat 32 (cn (φ n)) else 0#32) := by
    unfold cumsum Host.reduceWindow
    refine (foldl_addi_sum _).trans (Finset.sum_congr rfl fun n _ => ?_)
    have hν : (((⟨1, ![8]⟩ : Shape).rowMajor.symm n) 0).val = n.val := by
      have := Shape.rowMajor_val_one ((⟨1, ![8]⟩ : Shape).rowMajor.symm n)
      rw [Equiv.apply_symm_apply] at this
      exact this.symm
    have hn8 : n.val < 8 := lt_of_lt_of_eq n.isLt hnum
    by_cases hP : 7 ≤ k.val + n.val
    · rw [if_pos hP, dif_pos (by
        intro a
        obtain rfl : a = 0 := Subsingleton.elim _ _
        show 7 ≤ k.val * 1 + (((⟨1, ![8]⟩ : Shape).rowMajor.symm n) 0).val ∧ k.val * 1 + (((⟨1, ![8]⟩ : Shape).rowMajor.symm n) 0).val - 7 < 8
        rw [hν]; have := k.isLt; omega)]
      rw [← hc]
      congr 1
      funext a
      obtain rfl : a = 0 := Subsingleton.elim _ _
      apply Fin.ext
      show k.val * 1 + (((⟨1, ![8]⟩ : Shape).rowMajor.symm n) 0).val - 7 = (k.val + n.val - 7) % 8
      rw [hν]; have := k.isLt; omega
    · rw [if_neg hP, dif_neg (by
        intro hin
        have h0 := (hin 0).1
        change 7 ≤ k.val * 1 + (((⟨1, ![8]⟩ : Shape).rowMajor.symm n) 0).val at h0
        rw [hν] at h0; omega)]
      rfl
  refine ⟨∑ n : Fin (⟨1, ![8]⟩ : Shape).numel, (if 7 ≤ k.val + n.val then cn (φ n) else 0), ?_, ?_⟩
  · rw [← Finset.sum_filter]
    have hinj : Set.InjOn φ (Finset.univ.filter fun n : Fin (⟨1, ![8]⟩ : Shape).numel => 7 ≤ k.val + n.val) := by
      intro x hx y hy hxy
      have hx' : 7 ≤ k.val + x.val := (Finset.mem_filter.1 hx).2
      have hy' : 7 ≤ k.val + y.val := (Finset.mem_filter.1 hy).2
      have hx8 : x.val < 8 := lt_of_lt_of_eq x.isLt hnum
      have hy8 : y.val < 8 := lt_of_lt_of_eq y.isLt hnum
      have := congrArg Fin.val hxy
      change (k.val + x.val - 7) % 8 = (k.val + y.val - 7) % 8 at this
      apply Fin.ext
      have := k.isLt
      omega
    rw [← Finset.sum_image (f := cn) hinj]
    exact Finset.sum_le_sum_of_subset (Finset.subset_univ _)
  · rw [key, ← ofNat_sum]
    refine Finset.sum_congr rfl fun n _ => ?_
    split <;> rfl

/-- Every segment start is a natural number no more than 4096. -/
theorem segStarts_nat (a1 : IVec S2048x2 32) (e : Fin 8) :
    ∃ m, m ≤ 4096 ∧ segStarts a1 (ix1 e) = BitVec.ofNat 32 m := by
  unfold segStarts
  by_cases he : e.val = 0
  · refine ⟨0, by omega, ?_⟩
    rw [concatenate_pair_apply_left _ _ _ concatenates_S1_S7_S8_d0 (ix1 e) rfl (ix1 (0 : Fin 1)) (fun b => by
      obtain rfl : b = 0 := Subsingleton.elim _ _
      show (0 : ℕ) = e.val
      omega)]
    rfl
  · obtain ⟨m, hm, hcm⟩ := cumsum_nat (counts a1) (cnt a1) (counts_at a1) ⟨e.val - 1, by have := e.isLt; omega⟩
    refine ⟨m, le_trans hm (cnt_total a1), ?_⟩
    rw [concatenate_pair_apply_right _ _ _ concatenates_S1_S7_S8_d0 (ix1 e) rfl rfl
      (ix1 (⟨e.val - 1, by have := e.isLt; omega⟩ : Fin 7))
      (fun b hb => absurd (Subsingleton.elim _ _) hb) (by show e.val - 1 + 1 = e.val; omega)]
    rw [extractStridedSlice_apply ![0] _ slices_S8_S7_0 _ (ix1 ⟨e.val - 1, by have := e.isLt; omega⟩) (fun a => by
      obtain rfl : a = 0 := Subsingleton.elim _ _
      show e.val - 1 = 0 + (e.val - 1)
      omega)]
    exact hcm

/-- The rank-1 index spelt by its coordinate, two spellings. -/
theorem ofFin_eq_ix1 {n : ℕ} (p : Fin n) : Shape.Idx.ofFin p = ix1 p := by
  funext d
  match d with
  | ⟨0, _⟩ => exact Shape.Idx.ofFin_zero p

theorem ixP_eq_ix2 {n : ℕ} (p : Fin n) : StableHlo.Predicate.ixP p = ix2 p (0 : Fin 1) := by
  funext d
  match d with
  | ⟨0, _⟩ => rfl
  | ⟨1, _⟩ => rfl

/-- The expert of sorted place i, as one of the eight. -/
def eAt (a1 : IVec S2048x2 32) (hidx : ∀ i, (a1 i).toNat < 8) (i : Fin 4096) : Fin 8 :=
  ⟨(a1 (ix2 (tokOf a1 i) (kOf a1 i))).toNat, hidx _⟩

/-- A word below 8 read signed and clamped into [0, 7] is itself. -/
theorem clamp_small (w : BitVec 32) (hw : w.toNat < 8) : min w.toInt.toNat (8 - 1) = w.toNat := by
  rw [BitVec.toInt_eq_toNat_cond]
  have := w.isLt
  split <;> omega

/-- A gather from the eight-entry table at a column of start indices: at a place whose start index is a word below 8,
    the table's entry at that word. -/
theorem gather_read (x : S8.Idx → BitVec 32) (idx : IVec S4096x1 32) (i : Fin 4096)
    (h8 : (idx (ix2 i (0 : Fin 1))).toNat < 8) :
    Host.gather gather_S8_S4096x1_S4096_n_0_n_n_0_1_1 x idx (ix1 i) = x (ix1 ⟨(idx (ix2 i (0 : Fin 1))).toNat, h8⟩) := by
  have hg := StableHlo.Predicate.gather_take gather_S8_S4096x1_S4096_n_0_n_n_0_1_1 rfl rfl rfl rfl x idx i (by decide)
  refine ((congrArg (Host.gather gather_S8_S4096x1_S4096_n_0_n_n_0_1_1 x idx) (ofFin_eq_ix1 i)).symm.trans hg).trans ?_
  congr 1
  funext d
  match d with
  | ⟨0, _⟩ =>
    apply Fin.ext
    show min (idx (StableHlo.Predicate.ixP i)).toInt.toNat (8 - 1) = (idx (ix2 i (0 : Fin 1))).toNat
    rw [ixP_eq_ix2]
    exact clamp_small _ h8

/-- Each sorted place's position is its place number less its expert's segment start, as words. -/
theorem pos_read (a1 : IVec S2048x2 32) (hidx : ∀ i, (a1 i).toNat < 8) (i : Fin 4096) :
    pos a1 (ix1 i) = BitVec.ofNat 32 i.val - segStarts a1 (ix1 (eAt a1 hidx i)) := by
  have hw : col (wrapIdx 8#32 (sE a1)) (ix2 i (0 : Fin 1)) = a1 (ix2 (tokOf a1 i) (kOf a1 i)) := by
    rw [col_at, sE_at a1 hidx]
  have h8 : (col (wrapIdx 8#32 (sE a1)) (ix2 i (0 : Fin 1))).toNat < 8 := by rw [hw]; exact hidx _
  have he : (⟨(col (wrapIdx 8#32 (sE a1)) (ix2 i (0 : Fin 1))).toNat, h8⟩ : Fin 8) = eAt a1 hidx i :=
by
    have hv : (col (wrapIdx 8#32 (sE a1)) (ix2 i (0 : Fin 1))).toNat = (a1 (ix2 (tokOf a1 i) (kOf a1 i))).toNat := by rw [hw]
    apply Fin.ext
    exact hv
  show IntOp.subi (iotaInDim S4096 32 0 (ix1 i))
    (Host.gather gather_S8_S4096x1_S4096_n_0_n_n_0_1_1 (segStarts a1) (col (wrapIdx 8#32 (sE a1))) (ix1 i)) = _
  rw [gather_read _ _ i h8, he]
  rfl

/-- The index normalisation of place − start, for a place below 4096 and a start no more than 4096. -/
theorem wrap_word (i s : ℕ) (hi : i < 4096) (hs : s ≤ 4096) :
    Scalar.select (IntOp.cmpi .slt (BitVec.ofNat 32 i - BitVec.ofNat 32 s) 0#32)
      (IntOp.addi (BitVec.ofNat 32 i - BitVec.ofNat 32 s) 4096#32) (BitVec.ofNat 32 i - BitVec.ofNat 32 s)
      = BitVec.ofNat 32 ((i + 4096 - s) % 4096) := by
  have hp : (BitVec.ofNat 32 i - BitVec.ofNat 32 s).toNat = (4294967296 - s + i) % 4294967296 := by
    rw [BitVec.toNat_sub, BitVec.toNat_ofNat, BitVec.toNat_ofNat]
    have e1 : i % 2 ^ 32 = i := Nat.mod_eq_of_lt (by omega)
    have e2 : s % 2 ^ 32 = s := Nat.mod_eq_of_lt (by omega)
    rw [e1, e2]
  have h0 : (0#32 : BitVec 32).toInt = 0 := by decide
  unfold Scalar.select
  by_cases hle : s ≤ i
  · have hc : ¬ (IntOp.cmpi .slt (BitVec.ofNat 32 i - BitVec.ofNat 32 s) 0#32 = 1) := by
      show ¬ (_ = 1#1)
      rw [IntOp.cmpi_slt, h0, BitVec.toInt_eq_toNat_cond, hp]
      split <;> omega
    rw [if_neg hc]
    apply BitVec.eq_of_toNat_eq
    rw [hp, BitVec.toNat_ofNat]
    omega
  · have hc : IntOp.cmpi .slt (BitVec.ofNat 32 i - BitVec.ofNat 32 s) 0#32 = 1 := by
      show _ = 1#1
      rw [IntOp.cmpi_slt, h0, BitVec.toInt_eq_toNat_cond, hp]
      split <;> omega
    rw [if_pos hc]
    apply BitVec.eq_of_toNat_eq
    show (BitVec.ofNat 32 i - BitVec.ofNat 32 s + 4096#32).toNat = _
    rw [BitVec.toNat_add, hp, BitVec.toNat_ofNat, BitVec.toNat_ofNat]
    omega

/-- The normalised position of sorted place i: (i + 4096 − s) mod 4096, s its expert's segment start. -/
theorem wrap_at (a1 : IVec S2048x2 32) (hidx : ∀ i, (a1 i).toNat < 8) (i : Fin 4096) :
    ∃ s, s ≤ 4096 ∧ segStarts a1 (ix1 (eAt a1 hidx i)) = BitVec.ofNat 32 s ∧
      wrapIdx 4096#32 (pos a1) (ix1 i) = BitVec.ofNat 32 ((i.val + 4096 - s) % 4096) := by
  obtain ⟨s, hs, h⟩ := segStarts_nat a1 (eAt a1 hidx i)
  refine ⟨s, hs, h, ?_⟩
  show Scalar.select (IntOp.cmpi .slt (pos a1 (ix1 i)) 0#32) (IntOp.addi (pos a1 (ix1 i)) 4096#32) (pos a1 (ix1 i)) = _
  rw [pos_read a1 hidx i, h]
  exact wrap_word i.val s i.isLt hs

end Seg

open Seg

theorem segStarts_bounds (a1 : IVec S2048x2 32) (hidx : ∀ i, (a1 i).toNat < 8) (e : Fin 8) :
    0 ≤ (segStarts a1 (ix1 e)).toInt ∧ (segStarts a1 (ix1 e)).toInt ≤ 4096 := by
  obtain ⟨m, hm, h⟩ := segStarts_nat a1 e
  rw [h, BitVec.toInt_eq_toNat_cond, BitVec.toNat_ofNat]
  have hmm : m % 2 ^ 32 = m := Nat.mod_eq_of_lt (by omega)
  rw [hmm]
  split <;> omega

theorem pos_at (a1 : IVec S2048x2 32) (hidx : ∀ i, (a1 i).toNat < 8) (i : Fin 4096) :
    wrapIdx 4096#32 (pos a1) (ix1 i) = BitVec.ofNat 32 (segPos a1 i).val := by
  obtain ⟨s, hs, _, hw⟩ := wrap_at a1 hidx i
  show _ = BitVec.ofNat 32 ((wrapIdx 4096#32 (pos a1) (ix1 i)).toNat % 4096)
  rw [hw, BitVec.toNat_ofNat]
  congr 1
  have : (i.val + 4096 - s) % 4096 < 4096 := Nat.mod_lt _ (by decide)
  omega

theorem slot_inj (a1 : IVec S2048x2 32) (hidx : ∀ i, (a1 i).toNat < 8) (i j : Fin 4096)
    (he : a1 (ix2 (tokOf a1 i) (kOf a1 i)) = a1 (ix2 (tokOf a1 j) (kOf a1 j))) (hp : segPos a1 i = segPos a1 j) : i = j := by
  obtain ⟨s, hs, h1, hwi⟩ := wrap_at a1 hidx i
  obtain ⟨s', hs', h2, hwj⟩ := wrap_at a1 hidx j
  have hee : eAt a1 hidx i = eAt a1 hidx j := by
    have hv : (a1 (ix2 (tokOf a1 i) (kOf a1 i))).toNat = (a1 (ix2 (tokOf a1 j) (kOf a1 j))).toNat := by rw [he]
    apply Fin.ext
    exact hv
  rw [hee, h2] at h1
  have hss : s' = s := by
    have := congrArg BitVec.toNat h1
    rw [BitVec.toNat_ofNat, BitVec.toNat_ofNat] at this
    omega
  subst hss
  have hv := congrArg Fin.val hp
  change (wrapIdx 4096#32 (pos a1) (ix1 i)).toNat % 4096 = (wrapIdx 4096#32 (pos a1) (ix1 j)).toNat % 4096 at hv
  rw [hwi, hwj, BitVec.toNat_ofNat, BitVec.toNat_ofNat] at hv
  apply Fin.ext
  have := i.isLt
  have := j.isLt
  omega

end Cert.ReferenceIdeal.RefValue

end
-- ==== Proof.RefPadded.lean ====
/-
  The per-expert buffer of the reference read at an index.

  Sorted place i carries the pair (expert, position) = (eOf i, segPos i).  The scatter that fills the buffer sends update
  (i, c) to buffer index (eOf i, segPos i, c) — always inside the buffer — and distinct sorted places have distinct pairs,
  so the buffer at (eOf i, segPos i, c) holds the token row x[tokOf i, c]; the gather back at the same pairs reads
  exactly that index.
-/
import proofs.«430784_j18451179504159_2_alg».proof.Proof.RefDefs
import proofs.«430784_j18451179504159_2_alg».proof.Proof.RefRouting
import proofs.«430784_j18451179504159_2_alg».proof.Proof.RefSegments
import proofs.«430784_j18451179504159_2_alg».proof.Proof.LibScatter
import proofs.«430784_j18451179504159_2_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Facts₀

/-- The expert of the assignment at sorted place i. -/
def eOf (a1 : IVec S2048x2 32) (i : Fin 4096) : Fin 8 := Cert.Moe.expert a1 (tokOf a1 i) (kOf a1 i)

/-! ### The dimension numbers of the buffer's scatter, read at an update index -/

private abbrev dS := scatter_S8x4096x1024_S4096x2_S4096x1024_1_01_01_1

private theorem dS_start0 {w : Nat} (idx : IVec S4096x2 w) (i : Fin 4096) (c : Fin 1024) :
    dS.start (ix2 i c) idx (0 : Fin 3) = (idx (ix2 i (0 : Fin 2))).toInt := by
  unfold ScatterDims.start
  rw [dif_pos (by decide)]
  congr 2
  funext b
  refine Fin.ext ?_
  match b with
  | ⟨0, _⟩ => rfl
  | ⟨1, _⟩ => rfl

private theorem dS_start1 {w : Nat} (idx : IVec S4096x2 w) (i : Fin 4096) (c : Fin 1024) :
    dS.start (ix2 i c) idx (1 : Fin 3) = (idx (ix2 i (1 : Fin 2))).toInt := by
  unfold ScatterDims.start
  rw [dif_pos (by decide)]
  congr 2
  funext b
  refine Fin.ext ?_
  match b with
  | ⟨0, _⟩ => rfl
  | ⟨1, _⟩ => rfl

private theorem dS_start2 {w : Nat} (idx : IVec S4096x2 w) (i : Fin 4096) (c : Fin 1024) :
    dS.start (ix2 i c) idx (2 : Fin 3) = 0 := by
  unfold ScatterDims.start
  rw [dif_neg (by decide)]

private theorem dS_window0 (i : Fin 4096) (c : Fin 1024) : dS.window (ix2 i c) (0 : Fin 3) = 0 := by
  unfold ScatterDims.window
  rw [dif_neg (by decide)]

private theorem dS_window1 (i : Fin 4096) (c : Fin 1024) : dS.window (ix2 i c) (1 : Fin 3) = 0 := by
  unfold ScatterDims.window
  rw [dif_neg (by decide)]

private theorem dS_window2 (i : Fin 4096) (c : Fin 1024) : dS.window (ix2 i c) (2 : Fin 3) = c.val := by
  unfold ScatterDims.window
  rw [dif_pos (by decide)]
  rfl

private theorem toInt_small (v : BitVec 32) (h : v.toNat < 4097) : v.toInt = (v.toNat : Int) :=
  BitVec.toInt_eq_toNat_of_lt (by omega)

/-- in range, the expert word is the expert's number -/
theorem eOf_word (a1 : IVec S2048x2 32) (hidx : ∀ i, (a1 i).toNat < 8) (i : Fin 4096) :
    (a1 (ix2 (tokOf a1 i) (kOf a1 i))).toNat = (eOf a1 i).val := by
  show _ = (a1 (ix2 (tokOf a1 i) (kOf a1 i))).toNat % 8
  exact (Nat.mod_eq_of_lt (hidx _)).symm

/-- start plus window coordinate of update (i, c) on each buffer axis: (expert, position, c) -/
private theorem slot_sum (a1 : IVec S2048x2 32) (hidx : ∀ i, (a1 i).toNat < 8) (i : Fin 4096) (c : Fin 1024)
    (a : Fin 3) :
    dS.start (ix2 i c) (slot a1) a + (dS.window (ix2 i c) a : Int)
      = ((ix3 (eOf a1 i) (segPos a1 i) c a).val : Int) := by
  match a with
  | ⟨0, _⟩ =>
    show dS.start (ix2 i c) (slot a1) (0 : Fin 3) + (dS.window (ix2 i c) (0 : Fin 3) : Int) = ((eOf a1 i).val : Int)
    rw [dS_start0, dS_window0, slot_0, sE_at a1 hidx, toInt_small _ (by have := hidx (ix2 (tokOf a1 i) (kOf a1 i)); omega),
      eOf_word a1 hidx]
    simp
  | ⟨1, _⟩ =>
    show dS.start (ix2 i c) (slot a1) (1 : Fin 3) + (dS.window (ix2 i c) (1 : Fin 3) : Int) = ((segPos a1 i).val : Int)
    have hlt := (segPos a1 i).isLt
    have hnat : (BitVec.ofNat 32 (segPos a1 i).val).toNat = (segPos a1 i).val := by
      rw [BitVec.toNat_ofNat]; exact Nat.mod_eq_of_lt (by omega)
    rw [dS_start1, dS_window1, slot_1, pos_at a1 hidx, toInt_small _ (by rw [hnat]; omega), hnat]
    simp
  | ⟨2, _⟩ =>
    show dS.start (ix2 i c) (slot a1) (2 : Fin 3) + (dS.window (ix2 i c) (2 : Fin 3) : Int) = (c.val : Int)
    rw [dS_start2, dS_window2]
    simp

theorem slot_result (a1 : IVec S2048x2 32) (hidx : ∀ i, (a1 i).toNat < 8) (i : Fin 4096) (c : Fin 1024) :
    scatter_S8x4096x1024_S4096x2_S4096x1024_1_01_01_1.resultIdx? (ix2 i c) (slot a1)
      = some (ix3 (eOf a1 i) (segPos a1 i) c) := by
  unfold ScatterDims.resultIdx?
  have h : ∀ a, 0 ≤ dS.start (ix2 i c) (slot a1) a + dS.window (ix2 i c) a
      ∧ dS.start (ix2 i c) (slot a1) a + dS.window (ix2 i c) a < S8x4096x1024.size a := by
    intro a
    rw [slot_sum a1 hidx i c a]
    exact ⟨Int.natCast_nonneg _, by exact_mod_cast (ix3 (eOf a1 i) (segPos a1 i) c a).isLt⟩
  rw [dif_pos h]
  congr 1
  funext a
  apply Fin.ext
  show (dS.start (ix2 i c) (slot a1) a + (dS.window (ix2 i c) a : Int)).toNat = _
  rw [slot_sum a1 hidx i c a]
  exact Int.toNat_natCast _

/-! ### The token rows -/

private abbrev dG := gather_S2048x1024_S4096x1_S4096x1024_1_0_n_n_0_1_11024

theorem rowsX_at (a0 : FVec Ideal S2048x1024 .f32) (a1 : IVec S2048x2 32) (i : Fin 4096) (c : Fin 1024) :
    rowsX a0 a1 (ix2 i c) = a0 (ix2 (tokOf a1 i) c) := by
  unfold rowsX Host.gather
  congr 1
  funext a
  apply Fin.ext
  match a with
  | ⟨0, _⟩ =>
    show dG.start (ix2 i c) (col (wrapIdx 2048#32 (sTok a1))) (0 : Fin 2) + dG.batchCoord (ix2 i c) (0 : Fin 2)
      + dG.offCoord (ix2 i c) (0 : Fin 2) = (tokOf a1 i).val
    rw [GatherDims.batchCoord_eq_zero _ _ _ (by decide), GatherDims.offCoord_eq_zero _ _ _ (by decide)]
    unfold GatherDims.start
    rw [dif_pos (by decide)]
    have hsi : ∀ h, dG.siIdx (ix2 i c) ⟨List.idxOf (0 : Fin 2) dG.startIndexMap, h⟩ = ix2 i (0 : Fin 1) := by
      intro h
      funext b
      refine Fin.ext ?_
      match b with
      | ⟨0, _⟩ => rfl
      | ⟨1, _⟩ => rfl
    rw [hsi, col_at, sTok_at]
    have hlt := (tokOf a1 i).isLt
    have hnat : (BitVec.ofNat 32 (tokOf a1 i).val).toNat = (tokOf a1 i).val := by
      rw [BitVec.toNat_ofNat]; exact Nat.mod_eq_of_lt (by omega)
    rw [toInt_small _ (by rw [hnat]; omega), hnat, Int.toNat_natCast]
    show min (tokOf a1 i).val (2048 - 1) + 0 + 0 = (tokOf a1 i).val
    omega
  | ⟨1, _⟩ =>
    show dG.start (ix2 i c) (col (wrapIdx 2048#32 (sTok a1))) (1 : Fin 2) + dG.batchCoord (ix2 i c) (1 : Fin 2)
      + dG.offCoord (ix2 i c) (1 : Fin 2) = c.val
    rw [GatherDims.batchCoord_eq_zero _ _ _ (by decide)]
    unfold GatherDims.start GatherDims.offCoord
    rw [dif_neg (by decide), dif_pos (by decide)]
    show 0 + 0 + c.val = c.val
    omega

/-! ### The buffer -/

theorem padded_at (a0 : FVec Ideal S2048x1024 .f32) (a1 : IVec S2048x2 32) (hidx : ∀ i, (a1 i).toNat < 8)
    (i : Fin 4096) (c : Fin 1024) :
    padded a0 a1 (ix3 (eOf a1 i) (segPos a1 i) c) = a0 (ix2 (tokOf a1 i) c) := by
  unfold padded
  rw [Cert.ScatterLib.scatter_set_of_unique _ _ _ _ (ix3 (eOf a1 i) (segPos a1 i) c) (ix2 i c) (slot_result a1 hidx i c)]
  · exact rowsX_at a0 a1 i c
  · intro j' hj'
    obtain ⟨i', c', rfl⟩ : ∃ (p : Fin 4096) (q : Fin 1024), j' = ix2 p q := ⟨j' 0, j' 1, eq_ix2 j'⟩
    rw [slot_result a1 hidx i' c'] at hj'
    have hix := Option.some.inj hj'
    have h0 : eOf a1 i' = eOf a1 i := congrFun hix (0 : Fin 3)
    have h1 : segPos a1 i' = segPos a1 i := congrFun hix (1 : Fin 3)
    have h2 : c' = c := congrFun hix (2 : Fin 3)
    have hw : a1 (ix2 (tokOf a1 i') (kOf a1 i')) = a1 (ix2 (tokOf a1 i) (kOf a1 i)) := by
      apply BitVec.eq_of_toNat_eq
      rw [eOf_word a1 hidx, eOf_word a1 hidx, h0]
    rw [slot_inj a1 hidx i' i hw h1, h2]

/-! ### The read back at the same pairs -/

private abbrev dR := gather_S8x4096x1024_S4096x2_S4096x1024_1_01_n_n_01_1_111024

theorem gather_slot {α : Type} (x : S8x4096x1024.Idx → α) (a1 : IVec S2048x2 32) (hidx : ∀ i, (a1 i).toNat < 8)
    (i : Fin 4096) (d : Fin 1024) :
    Host.gather gather_S8x4096x1024_S4096x2_S4096x1024_1_01_n_n_01_1_111024 x (slot a1) (ix2 i d)
      = x (ix3 (eOf a1 i) (segPos a1 i) d) := by
  unfold Host.gather
  congr 1
  funext a
  apply Fin.ext
  match a with
  | ⟨0, _⟩ =>
    show dR.start (ix2 i d) (slot a1) (0 : Fin 3) + dR.batchCoord (ix2 i d) (0 : Fin 3)
      + dR.offCoord (ix2 i d) (0 : Fin 3) = (eOf a1 i).val
    rw [GatherDims.batchCoord_eq_zero _ _ _ (by decide), GatherDims.offCoord_eq_zero _ _ _ (by decide)]
    unfold GatherDims.start
    rw [dif_pos (by decide)]
    have hsi : ∀ h, dR.siIdx (ix2 i d) ⟨List.idxOf (0 : Fin 3) dR.startIndexMap, h⟩ = ix2 i (0 : Fin 2) := by
      intro h
      funext b
      refine Fin.ext ?_
      match b with
      | ⟨0, _⟩ => rfl
      | ⟨1, _⟩ => rfl
    have hlt := (eOf a1 i).isLt
    rw [hsi, slot_0, sE_at a1 hidx, toInt_small _ (by rw [eOf_word a1 hidx]; omega), eOf_word a1 hidx, Int.toNat_natCast]
    show min (eOf a1 i).val (8 - 1) + 0 + 0 = (eOf a1 i).val
    omega
  | ⟨1, _⟩ =>
    show dR.start (ix2 i d) (slot a1) (1 : Fin 3) + dR.batchCoord (ix2 i d) (1 : Fin 3)
      + dR.offCoord (ix2 i d) (1 : Fin 3) = (segPos a1 i).val
    rw [GatherDims.batchCoord_eq_zero _ _ _ (by decide), GatherDims.offCoord_eq_zero _ _ _ (by decide)]
    unfold GatherDims.start
    rw [dif_pos (by decide)]
    have hsi : ∀ h, dR.siIdx (ix2 i d) ⟨List.idxOf (1 : Fin 3) dR.startIndexMap, h⟩ = ix2 i (1 : Fin 2) := by
      intro h
      funext b
      refine Fin.ext ?_
      match b with
      | ⟨0, _⟩ => rfl
      | ⟨1, _⟩ => rfl
    have hlt := (segPos a1 i).isLt
    have hnat : (BitVec.ofNat 32 (segPos a1 i).val).toNat = (segPos a1 i).val := by
      rw [BitVec.toNat_ofNat]; exact Nat.mod_eq_of_lt (by omega)
    rw [hsi, slot_1, pos_at a1 hidx, toInt_small _ (by rw [hnat]; omega), hnat, Int.toNat_natCast]
    show min (segPos a1 i).val (4096 - 1) + 0 + 0 = (segPos a1 i).val
    omega
  | ⟨2, _⟩ =>
    show dR.start (ix2 i d) (slot a1) (2 : Fin 3) + dR.batchCoord (ix2 i d) (2 : Fin 3)
      + dR.offCoord (ix2 i d) (2 : Fin 3) = d.val
    rw [GatherDims.batchCoord_eq_zero _ _ _ (by decide)]
    unfold GatherDims.start GatherDims.offCoord
    rw [dif_neg (by decide), dif_pos (by decide)]
    show 0 + 0 + d.val = d.val
    omega

end Cert.ReferenceIdeal.RefValue

end
-- ==== Proof.RefFfn.lean ====
/-
  The feed-forward stages of the reference read at an index.

  A batched product with one contracted axis, read at an index, is the sum over the contracted coordinate; the
  elementwise gate g · (1 / (1 + exp (−g))) is g · logistic g.  So the per-expert buffer's output at
  (expert e, row q, column d) is ∑ j, (g · logistic g · v) · w3[e, j, d] with g, v the row's two projections, and the
  row read back for sorted place i, times its weight, is the expert's feed-forward value of the place's token times
  the weight of the place's routing slot.
-/
import proofs.«430784_j18451179504159_2_alg».proof.Proof.RefDefs
import proofs.«430784_j18451179504159_2_alg».proof.Proof.Spec
import proofs.«430784_j18451179504159_2_alg».proof.Proof.RefRouting
import proofs.«430784_j18451179504159_2_alg».proof.Proof.RefPadded
import Idealize.ShloMosaic.Lib.ValueIdx
import Idealize.ShloMosaic.Lib.IdealHost
import Idealize.ShloMosaic.Lib.StackMember
import Idealize.ShloMosaic.Lib.Pipeline.Value
import Idealize.ShloMosaic.PureOps.Ideal
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Facts₀

/-- The gate read at an index: g · (1 / (1 + exp (−g))) is g · logistic g. -/
private theorem silu_at (g : FVec Ideal S8x4096x4096 .f32) (j : S8x4096x4096.Idx) :
    silu g j = g j * Ideal.logistic (g j) := by
  show g j * Ideal.div (Ideal.ofBits .f32 0x3F800000#32) (Ideal.ofBits .f32 0x3F800000#32 + Ideal.exp (-(g j))) = _
  rw [Ideal.ofBits_one_f32]
  rfl

/-- A buffer row's projection: the batched product over the model width, read at (expert, row, hidden unit). -/
private theorem dotIn_at (x : FVec Ideal S8x4096x1024 .f32) (w : FVec Ideal S8x1024x4096 .f32)
    (e : Fin 8) (q : Fin 4096) (j : Fin 4096) :
    Host.dotGeneral dot_S8x4096x1024_S8x1024x4096_S8x4096x4096_2_1_1_2_0_0 none x w (ix3 e q j)
      = ∑ c : Fin 1024, x (ix3 e q c) * w (ix3 e c j) :=
  StackMember.dotGeneral_stack_apply dot_S8x4096x1024_S8x1024x4096_S8x4096x4096_2_1_1_2_0_0_wf none x w e q j

/-- The output product over the hidden width, read at (expert, row, column). -/
private theorem dotOut_at (h : FVec Ideal S8x4096x4096 .f32) (w : FVec Ideal S8x4096x1024 .f32)
    (e : Fin 8) (q : Fin 4096) (d : Fin 1024) :
    Host.dotGeneral dot_S8x4096x4096_S8x4096x1024_S8x4096x1024_2_1_1_2_0_0 none h w (ix3 e q d)
      = ∑ j : Fin 4096, h (ix3 e q j) * w (ix3 e j d) :=
  StackMember.dotGeneral_stack_apply dot_S8x4096x4096_S8x4096x1024_S8x4096x1024_2_1_1_2_0_0_wf none h w e q d

/-- The per-expert buffer's feed-forward output at (expert e, row q, column d). -/
theorem expertOut_at (a0 : FVec Ideal S2048x1024 .f32) (a1 : IVec S2048x2 32) (a3 a4 : FVec Ideal S8x1024x4096 .f32)
    (a5 : FVec Ideal S8x4096x1024 .f32) (e : Fin 8) (q : Fin 4096) (d : Fin 1024) :
    expertOut a0 a1 a3 a4 a5 (ix3 e q d)
      = ∑ j : Fin 4096, ((∑ c : Fin 1024, padded a0 a1 (ix3 e q c) * a3 (ix3 e c j))
          * Ideal.logistic (∑ c : Fin 1024, padded a0 a1 (ix3 e q c) * a3 (ix3 e c j))
          * (∑ c : Fin 1024, padded a0 a1 (ix3 e q c) * a4 (ix3 e c j))) * a5 (ix3 e j d) := by
  unfold expertOut
  rw [dotOut_at]
  refine Finset.sum_congr rfl fun j _ => ?_
  rw [mulf_apply, silu_at, dotIn_at, dotIn_at]

/-- The weight column spread over the row: read at (i, d) it is the weight at place i. -/
private theorem bcastW_at (v : FVec Ideal S4096 .f32) (i : Fin 4096) (d : Fin 1024) :
    broadcastInDim S4096x1024 ![0, 1] bcast_S4096x1_S4096x1024_0_1 (broadcastInDim S4096x1 ![0] bcast_S4096_S4096x1_0 v) (ix2 i d)
      = v (ix1 i) := by
  rw [broadcastInDim_apply _ _ _ _ (ix2 i (0 : Fin 1)) (by
        intro a
        match a with
        | ⟨0, _⟩ => rfl
        | ⟨1, _⟩ => rfl),
    broadcastInDim_apply _ _ _ _ (ix1 i) (by
        intro a
        match a with
        | ⟨0, _⟩ => rfl)]

/-- The weighted row of sorted place i: its expert's feed-forward value at its token, times its slot's weight. -/
theorem weighted_at (a0 : FVec Ideal S2048x1024 .f32) (a1 : IVec S2048x2 32) (a2 : FVec Ideal S2048x2 .f32)
    (a3 a4 : FVec Ideal S8x1024x4096 .f32) (a5 : FVec Ideal S8x4096x1024 .f32) (hidx : ∀ i, (a1 i).toNat < 8)
    (i : Fin 4096) (d : Fin 1024) :
    weighted a0 a1 a2 a3 a4 a5 (ix2 i d)
      = Cert.Moe.ffn a0 a3 a4 a5 (eOf a1 i) (tokOf a1 i) d * a2 (ix2 (tokOf a1 i) (kOf a1 i)) := by
  unfold weighted
  rw [mulf_apply, gather_slot _ a1 hidx i d, expertOut_at, bcastW_at, sW_at]
  unfold Cert.Moe.ffn Cert.Moe.hidden Cert.Moe.proj
  refine congrArg (· * a2 (ix2 (tokOf a1 i) (kOf a1 i))) ?_
  refine Finset.sum_congr rfl fun j _ => ?_
  simp only [padded_at a0 a1 hidx i]

end Cert.ReferenceIdeal.RefValue

end
-- ==== Proof.RefSum.lean ====
/-
  The reference's last stage is the routed mixture.

  The final scatter-add puts the weighted row of every sorted place onto its token's row of a zero array, so the
  value at (t, d) is the sum, over the sorted places whose assignment belongs to token t, of the expert output times the
  weight.  The sort is a permutation of the 4096 assignments, assignment 2·t + k being slot k of token t; re-indexing
  the sum by it leaves the two slots of token t: the routed mixture.
-/
import proofs.«430784_j18451179504159_2_alg».proof.Proof.RefDefs
import proofs.«430784_j18451179504159_2_alg».proof.Proof.RefRouting
import proofs.«430784_j18451179504159_2_alg».proof.Proof.RefPadded
import proofs.«430784_j18451179504159_2_alg».proof.Proof.RefFfn
import proofs.«430784_j18451179504159_2_alg».proof.Proof.Spec
import Idealize.ShloMosaic.Lib.ValueIdx
import Idealize.ShloMosaic.PureOps.Ideal.Laws
import Mathlib.Algebra.BigOperators.Fin

noncomputable section

open scoped BigOperators

namespace Cert.ReferenceIdeal.RefValue

open Idealize.ShloMosaic Idealize.ShloMosaic.ValueIdx Cert.ReferenceIdeal Cert.ReferenceIdeal.Facts₀

namespace RefSum

/-- The final scatter's dimension numbers. -/
abbrev sd : ScatterDims S2048x1024 S4096x1 S4096x1024 := scatter_S2048x1024_S4096x1_S4096x1024_1_0_0_1

theorem window_0 (i : Fin 4096) (d' : Fin 1024) : sd.window (ix2 i d') 0 = 0 := rfl

theorem window_1 (i : Fin 4096) (d' : Fin 1024) : sd.window (ix2 i d') 1 = d'.val := rfl

theorem start_1 (idx : IVec S4096x1 32) (i : Fin 4096) (d' : Fin 1024) : sd.start (ix2 i d') idx 1 = 0 := rfl

theorem start_0 (idx : IVec S4096x1 32) (i : Fin 4096) (d' : Fin 1024) :
    sd.start (ix2 i d') idx 0 = (idx (ix2 i (0 : Fin 1))).toInt := by
  unfold ScatterDims.start
  rw [dif_pos (show (0 : Fin 2) ∈ sd.scatterDimsToOperandDims from List.mem_singleton.mpr rfl)]
  congr 2
  funext b
  refine Fin.ext ?_
  match b with
  | ⟨0, _⟩ => rfl
  | ⟨1, _⟩ => rfl

/-- An update row whose start word is the token `t` lands on row `t`, column for column. -/
theorem resultIdx_at (idx : IVec S4096x1 32) (i : Fin 4096) (d' : Fin 1024) (t : Fin 2048)
    (h : idx (ix2 i (0 : Fin 1)) = BitVec.ofNat 32 t.val) :
    sd.resultIdx? (ix2 i d') idx = some (ix2 t d') := by
  have htl := t.isLt
  have hdl := d'.isLt
  have hn : (idx (ix2 i (0 : Fin 1))).toNat = t.val := by
    rw [h, BitVec.toNat_ofNat]
    omega
  have ht : (idx (ix2 i (0 : Fin 1))).toInt = (t.val : Int) := by
    rw [BitVec.toInt_eq_toNat_cond, hn]
    split <;> omega
  have hall : ∀ a : Fin S2048x1024.rank, 0 ≤ sd.start (ix2 i d') idx a + sd.window (ix2 i d') a
      ∧ sd.start (ix2 i d') idx a + sd.window (ix2 i d') a < S2048x1024.size a := by
    intro a
    match a with
    | ⟨0, _⟩ =>
      show 0 ≤ sd.start (ix2 i d') idx 0 + sd.window (ix2 i d') 0
        ∧ sd.start (ix2 i d') idx 0 + sd.window (ix2 i d') 0 < (2048 : Nat)
      rw [start_0, window_0, ht]
      omega
    | ⟨1, _⟩ =>
      show 0 ≤ sd.start (ix2 i d') idx 1 + sd.window (ix2 i d') 1
        ∧ sd.start (ix2 i d') idx 1 + sd.window (ix2 i d') 1 < (1024 : Nat)
      rw [start_1, window_1]
      omega
  unfold ScatterDims.resultIdx?
  rw [dif_pos hall]
  congr 1
  funext a
  refine Fin.ext ?_
  match a with
  | ⟨0, _⟩ =>
    show (sd.start (ix2 i d') idx 0 + sd.window (ix2 i d') 0).toNat = t.val
    rw [start_0, window_0, ht]
    omega
  | ⟨1, _⟩ =>
    show (sd.start (ix2 i d') idx 1 + sd.window (ix2 i d') 1).toNat = d'.val
    rw [start_1, window_1]
    omega

/-- One update row's share of the value at `(t, d)`: its entry in column `d`, when the row's token is `t`. -/
theorem row_share (idx : IVec S4096x1 32) (W : S4096x1024.Idx → EReal) (i : Fin 4096) (t' t : Fin 2048) (d : Fin 1024)
    (h : idx (ix2 i (0 : Fin 1)) = BitVec.ofNat 32 t'.val) :
    (∑ d' : Fin 1024, if sd.resultIdx? (ix2 i d') idx = some (ix2 t d) then W (ix2 i d') else 0)
      = if t' = t then W (ix2 i d) else 0 := by
  have hiff : ∀ d' : Fin 1024, (sd.resultIdx? (ix2 i d') idx = some (ix2 t d)) ↔ (t' = t ∧ d' = d) := by
    intro d'
    rw [resultIdx_at idx i d' t' h, Option.some.injEq]
    constructor
    · intro e
      exact ⟨congrFun e 0, congrFun e 1⟩
    · rintro ⟨rfl, rfl⟩
      rfl
  simp only [hiff]
  by_cases ht : t' = t
  · subst ht
    simp
  · simp [ht]

/-- The 4096 assignments are the pairs (token, slot). -/
def splitEquiv : Fin 4096 ≃ Fin 2048 × Fin 2 where
  toFun a := (⟨a.val / 2, by have := a.isLt; omega⟩, ⟨a.val % 2, Nat.mod_lt _ (by decide)⟩)
  invFun p := ⟨p.1.val * 2 + p.2.val, by have := p.1.isLt; have := p.2.isLt; omega⟩
  left_inv a := by
    apply Fin.ext
    show a.val / 2 * 2 + a.val % 2 = a.val
    omega
  right_inv p := by
    obtain ⟨⟨a, ha⟩, ⟨b, hb⟩⟩ := p
    simp only [Prod.mk.injEq, Fin.mk.injEq]
    omega

end RefSum

open RefSum

theorem refOut_eq_moe (a0 : FVec Ideal S2048x1024 .f32) (a1 : IVec S2048x2 32) (a2 : FVec Ideal S2048x2 .f32)
    (a3 a4 : FVec Ideal S8x1024x4096 .f32) (a5 : FVec Ideal S8x4096x1024 .f32) (hidx : ∀ i, (a1 i).toNat < 8) :
    refOut (F := Ideal) a0 a1 a2 a3 a4 a5 = Cert.Moe.moe a0 a1 a2 a3 a4 a5 := by
  funext y
  obtain ⟨t, d, rfl⟩ : ∃ (t : Fin 2048) (d : Fin 1024), y = ix2 t d := ⟨y 0, y 1, eq_ix2 y⟩
  unfold refOut Host.scatterAdd
  rw [Ideal.hostScatterAdd_def]
  unfold Ideal.hostScatterAdd
  have hz : broadcastInDim S2048x1024 ![] bcast_S_S2048x1024 (constant (F := Ideal) S_ .f32 0x00000000#32) (ix2 t d) = 0 :=
    Ideal.ofBits_zero_f32
  rw [hz, zero_add, Finset.sum_filter, sum_idx2]
  -- each sorted place gives its weighted entry in column d when its token is t
  rw [Finset.sum_congr rfl fun i _ => row_share _ _ i (tokOf a1 i) t d (by rw [col_at, sTok_at])]
  rw [Finset.sum_congr rfl fun i _ => by rw [weighted_at a0 a1 a2 a3 a4 a5 hidx i d]]
  -- re-index the places by the sort, then the assignments by (token, slot)
  have hre : (∑ i : Fin 4096, if tokOf a1 i = t then
        Cert.Moe.ffn a0 a3 a4 a5 (eOf a1 i) (tokOf a1 i) d * a2 (ix2 (tokOf a1 i) (kOf a1 i)) else 0)
      = ∑ p : Fin 2048 × Fin 2, if p.1 = t then
        Cert.Moe.ffn a0 a3 a4 a5 (Cert.Moe.expert a1 p.1 p.2) p.1 d * a2 (ix2 p.1 p.2) else 0 :=
    Fintype.sum_equiv ((sigma a1).trans splitEquiv) _ _ fun _ => rfl
  rw [hre, Fintype.sum_prod_type]
  have hin : ∀ t' : Fin 2048, (∑ k : Fin 2, if t' = t then
        Cert.Moe.ffn a0 a3 a4 a5 (Cert.Moe.expert a1 t' k) t' d * a2 (ix2 t' k) else 0)
      = if t' = t then ∑ k : Fin 2, Cert.Moe.ffn a0 a3 a4 a5 (Cert.Moe.expert a1 t' k) t' d * a2 (ix2 t' k) else 0 := by
    intro t'
    split
    · rfl
    · exact Finset.sum_const_zero
  rw [Finset.sum_congr rfl fun t' _ => hin t', Finset.sum_ite_eq' Finset.univ t, if_pos (Finset.mem_univ _)]
  rfl

end Cert.ReferenceIdeal.RefValue

end
-- ==== Proof.lean ====
/-
  The certificate's five claims.

  Both idealized programs compute, for every token t and output coordinate d, the routed mixture
    moe t d = ∑ k < 2, ffn (expert of slot k of t) t d · weight[t, k]        (Proof/Spec.lean).
  The reference reaches it by sorting the 4096 (token, slot) assignments by expert, running every expert on its
  segment of a padded buffer, and adding each assignment's weighted output row back to its token: a re-indexing of the
  sum by the sorting permutation (Proof/RefSum.lean, over the stage readings in Proof/RefRouting.lean,
  Proof/RefSegments.lean, Proof/RefPadded.lean, Proof/RefFfn.lean and the reference's run in Proof/RefRun.lean).
  The kernel runs EVERY expert on every token, tile by tile, and weights each tile's partial output by the token's
  accumulated weight for that expert (zero unless a slot names it), summing over the 64 (expert, tile) steps
  (Proof/KRun.lean): equal to the mixture once the product is distributed over the sums, which needs every number
  finite — the precondition's finiteness conjuncts — and every expert word in [0, 8) — its range conjunct
  (Proof/Algebra.lean, Proof/PreFacts.lean).  The three frames: the two kernels' are the generated frame
  certificates; the reference's is its run with the value dropped.  No rewrite was applied by the ideal pass, so
  `preserves` has nothing to state.
-/
import proofs.«430784_j18451179504159_2_alg».proof.Defs
import proofs.«430784_j18451179504159_2_alg».proof.Proof.Gen.Kernel
import proofs.«430784_j18451179504159_2_alg».proof.Proof.Gen.Kernel.Skeleton
import proofs.«430784_j18451179504159_2_alg».proof.Proof.Gen.Kernel.Launch
import proofs.«430784_j18451179504159_2_alg».proof.Proof.Gen.Kernel.Points
import proofs.«430784_j18451179504159_2_alg».proof.Proof.Gen.Kernel.Frame
import proofs.«430784_j18451179504159_2_alg».proof.Proof.Gen.KernelIdeal
import proofs.«430784_j18451179504159_2_alg».proof.Proof.Gen.KernelIdeal.Skeleton
import proofs.«430784_j18451179504159_2_alg».proof.Proof.Gen.KernelIdeal.Launch
import proofs.«430784_j18451179504159_2_alg».proof.Proof.Gen.KernelIdeal.Points
import proofs.«430784_j18451179504159_2_alg».proof.Proof.Gen.KernelIdeal.Frame
import proofs.«430784_j18451179504159_2_alg».proof.Proof.Gen.KernelIdeal.Value
import proofs.«430784_j18451179504159_2_alg».proof.Proof.Gen.ReferenceIdeal
import proofs.«430784_j18451179504159_2_alg».proof.Proof.Gen.Pre_finite_inputs
import proofs.«430784_j18451179504159_2_alg».proof.Proof.Algebra
import proofs.«430784_j18451179504159_2_alg».proof.Proof.PreFacts
import proofs.«430784_j18451179504159_2_alg».proof.Proof.KRun
import proofs.«430784_j18451179504159_2_alg».proof.Proof.RefRun
import proofs.«430784_j18451179504159_2_alg».proof.Proof.RefSum
import Idealize.ShloMosaic.Adequacy
import Idealize.ShloMosaic.Init

noncomputable section

namespace Cert.Proof

open Idealize.ShloMosaic Idealize.SL.Sem

/-- The word-level kernel runs and leaves its arguments alone: the generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run (every operation's result at the composed pure term) with the value
    forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both idealized programs end with the routed mixture of the (agreeing) arguments: the kernel's 64-step sum is the
    mixture because the inputs are finite and the expert words in range; the reference's sorted scatter is the mixture
    because the expert words are in range. -/
theorem algebraic : Cert.algebraic_KernelIdeal_ReferenceIdeal := by
  intro m ρ m' ρ' hpre hagree
  refine ⟨fun c => Cert.Moe.moe
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.KValue.run m ρ)
    obtain ⟨h0, h1, h2, h3, h4, h5⟩ := Cert.Pre_finite_inputs.Decode.decode _ _ _ _ _ _ (hpre c)
    exact Cert.Moe.kform_eq_moe _ _ _ _ _ _ h0 h2 h3 h4 h5 h1
  · refine (θ_run Cert.ReferenceIdeal.defs _ _).mono (fun r h c => ⟨(h c).1.trans ?_, (h c).2⟩)
      (Cert.ReferenceIdeal.RefRun.run (F := Ideal) m' ρ')
    obtain ⟨_, h1, _⟩ := Cert.Pre_finite_inputs.Decode.decode _ _ _ _ _ _ (hpre c)
    rw [(hagree c).1, (hagree c).2.1, (hagree c).2.2.1, (hagree c).2.2.2.1, (hagree c).2.2.2.2.1, (hagree c).2.2.2.2.2]
    exact Cert.ReferenceIdeal.RefValue.refOut_eq_moe _ _ _ _ _ _ h1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
